-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x9 : Shape := ⟨2, ![4000000, 9]⟩
abbrev S_ : Shape := ⟨0, ![]⟩

class Facts : Prop where
  bcast_S_S4000000x9 : S_.BroadcastsInDim S4000000x9 (![] : Fin 0 → Fin S4000000x9.rank)
  reducesTo_S4000000x9_S_d0_1 : S4000000x9.ReducesTo [0, 1] S_
  h_S_ : 0 < S_.numel

variable [Facts]

def fn {F : FTy → Type} [FloatOps F] (main_arg0 : FVec F S4000000x9 .f32) (main_arg1 : FVec F S4000000x9 .f32) : IVec S_ 1 :=
  let main_v0 : FVec F S4000000x9 .f32 := Host.absf main_arg0
  let main_cst : FVec F S_ .f32 := constant S_ .f32 0x7F800000#32
  let main_v1 : FVec F S4000000x9 .f32 := broadcastInDim S4000000x9 ![] bcast_S_S4000000x9 main_cst
  let main_v2 : IVec S4000000x9 1 := cmpf .olt main_v0 main_v1
  let main_c : IVec S_ 1 := constantI S_ 1 1#1
  let main_v3 : IVec S_ 1 := (fun x v => Host.reduce IntOp.andi x v reducesTo_S4000000x9_S_d0_1 h_S_) main_v2 main_c
  let main_v4 : FVec F S4000000x9 .f32 := Host.absf main_arg1
  let main_cst_0 : FVec F S_ .f32 := constant S_ .f32 0x7F800000#32
  let main_v5 : FVec F S4000000x9 .f32 := broadcastInDim S4000000x9 ![] bcast_S_S4000000x9 main_cst_0
  let main_v6 : IVec S4000000x9 1 := cmpf .olt main_v4 main_v5
  let main_c_1 : IVec S_ 1 := constantI S_ 1 1#1
  let main_v7 : IVec S_ 1 := (fun x v => Host.reduce IntOp.andi x v reducesTo_S4000000x9_S_d0_1 h_S_) main_v6 main_c_1
  let main_v8 : IVec S_ 1 := andi main_v3 main_v7
  main_v8
-- ==== Kernel.lean ====
abbrev S4000000x9 : Shape := ⟨2, ![4000000, 9]⟩
abbrev S16x128 : Shape := ⟨2, ![16, 128]⟩
abbrev S20000x9 : Shape := ⟨2, ![20000, 9]⟩
abbrev S8x128 : Shape := ⟨2, ![8, 128]⟩
abbrev S1x1 : Shape := ⟨2, ![1, 1]⟩
abbrev S20000x7 : Shape := ⟨2, ![20000, 7]⟩
abbrev S7x20000 : Shape := ⟨2, ![7, 20000]⟩
abbrev S1x20000 : Shape := ⟨2, ![1, 20000]⟩
abbrev S20000 : Shape := ⟨1, ![20000]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4000000x9, .f32⟩
  | .hbm, ⟨1, _⟩ => ⟨S4000000x9, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S20000x9, .f32⟩
  | .local _ .vmem, ⟨1, _⟩ => ⟨S20000x9, .f32⟩
  | .local _ .vmem, ⟨2, _⟩ => ⟨S20000x9, .f32⟩
  | .local _ .vmem, ⟨3, _⟩ => ⟨S20000x9, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S4000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v165 : BitVec 1 := Scalar.cmpi .eq arg1 c99_i32
  let v166 : BitVec 32 := Scalar.extui v165
  let c0_i32_31 : BitVec 32 := 0#32
  let v167 : BitVec 1 := Scalar.cmpi .ne v166 c0_i32_31
  v167

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S20000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S20000x9_S20000x7_0_0 : ∀ a, (![0, 0] : Fin 2 → Nat) a + S20000x7.size a ≤ S20000x9.size a
  h_S20000x7 : 0 < S20000x7.numel
  transposes_S20000x7_p1_0_S7x20000 : S20000x7.Transposes [1, 0] S7x20000
  slices_S7x20000_o0_0_S1x20000 : S7x20000.Slices ![0, 0] S1x20000
  shapeCasts_S1x20000_S20000 : S1x20000.ShapeCasts S20000
  slices_S7x20000_o1_0_S1x20000 : S7x20000.Slices ![1, 0] S1x20000
  slices_S7x20000_o2_0_S1x20000 : S7x20000.Slices ![2, 0] S1x20000
  slices_S7x20000_o3_0_S1x20000 : S7x20000.Slices ![3, 0] S1x20000
  slices_S7x20000_o4_0_S1x20000 : S7x20000.Slices ![4, 0] S1x20000
  slices_S7x20000_o5_0_S1x20000 : S7x20000.Slices ![5, 0] S1x20000
  slices_S7x20000_o6_0_S1x20000 : S7x20000.Slices ![6, 0] S1x20000
  shapeCasts_S20000_S1x20000 : S20000.ShapeCasts S1x20000
  reduces_S1x20000_S1 : S1x20000.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x9.size a ≤ S4000000x9.size a
  hwx0_0 : ∀ i : grid0.Coords, EltTy.bits .f32 = 32 ∨ (Rect.block (s := S4000000x9) S20000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x9.size a ≤ S4000000x9.size a
  hwx0_1 : ∀ i : grid0.Coords, EltTy.bits .f32 = 32 ∨ (Rect.block (s := S4000000x9) S20000x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S20000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4000000x9 : Shape := ⟨2, ![4000000, 9]⟩
abbrev S4x2 : Shape := ⟨2, ![4, 2]⟩
abbrev S4000000x7 : Shape := ⟨2, ![4000000, 7]⟩
abbrev S4000000x2 : Shape := ⟨2, ![4000000, 2]⟩
abbrev S4000000x1 : Shape := ⟨2, ![4000000, 1]⟩
abbrev S4000000 : Shape := ⟨1, ![4000000]⟩
abbrev S4000000x1x2 : Shape := ⟨3, ![4000000, 1, 2]⟩
abbrev S1x4x2 : Shape := ⟨3, ![1, 4, 2]⟩
abbrev S4000000x4x2 : Shape := ⟨3, ![4000000, 4, 2]⟩
abbrev S4000000x4x1 : Shape := ⟨3, ![4000000, 4, 1]⟩
abbrev S4000000x4 : Shape := ⟨2, ![4000000, 4]⟩
abbrev S_ : Shape := ⟨0, ![]⟩
abbrev S4000000x3 : Shape := ⟨2, ![4000000, 3]⟩

abbrev nBuf : Space → Nat
  | .hbm => 246
  | .vmem => 0
  | .smem => 0
  | _ => 0

abbrev hbmTy0_0 (i : Nat) : BufTy := match i % 128 with
  | 0 => ⟨S4000000x9, .f32⟩
  | 1 => ⟨S4000000x9, .f32⟩
  | 2 => ⟨S4x2, .f32⟩
  | 3 => ⟨S4000000x7, .f32⟩
  | 4 => ⟨S4000000x7, .f32⟩
  | 5 => ⟨S4000000x2, .f32⟩
  | 6 => ⟨S4000000x2, .f32⟩
  | 7 => ⟨S4000000x1, .f32⟩
  | 8 => ⟨S4000000, .f32⟩
  | 9 => ⟨S4000000x1x2, .f32⟩
  | 10 => ⟨S1x4x2, .f32⟩
  | 11 => ⟨S4000000x4x2, .f32⟩
  | 12 => ⟨S4000000x4x2, .f32⟩
  | 13 => ⟨S4000000x4x2, .f32⟩
  | 14 => ⟨S4000000, .f32⟩
  | 15 => ⟨S4000000x1, .f32⟩
  | 16 => ⟨S4000000, .f32⟩
  | 17 => ⟨S4000000x1, .f32⟩
  | 18 => ⟨S4000000x4x1, .f32⟩
  | 19 => ⟨S4000000x4, .f32⟩
  | 20 => ⟨S4000000x4, .f32⟩
  | 21 => ⟨S4000000x4, .f32⟩
  | 22 => ⟨S4000000x4x1, .f32⟩
  | 23 => ⟨S4000000x4, .f32⟩
  | 24 => ⟨S4000000x4, .f32⟩
  | 25 => ⟨S4000000x4, .f32⟩
  | 26 => ⟨S4000000x4, .f32⟩
  | 27 => ⟨S4000000x4x1, .f32⟩
  | 28 => ⟨S4000000x4, .f32⟩
  | 29 => ⟨S4000000x4, .f32⟩
  | 30 => ⟨S4000000x4, .f32⟩
  | 31 => ⟨S4000000x4, .f32⟩
  | 32 => ⟨S4000000x4x1, .f32⟩
  | 33 => ⟨S4000000x4, .f32⟩
  | 34 => ⟨S4000000x4, .f32⟩
  | 35 => ⟨S4000000x4, .f32⟩
  | 36 => ⟨S4000000x4, .f32⟩
  | 37 => ⟨S4000000x4x1, .f32⟩
  | 38 => ⟨S4000000x4x1, .f32⟩
  | 39 => ⟨S4000000x4x2, .f32⟩
  | 40 => ⟨S4000000x1x2, .f32⟩
  | 41 => ⟨S4000000x4x2, .f32⟩
  | 42 => ⟨S4000000x4x2, .f32⟩
  | 43 => ⟨S4000000x2, .f32⟩
  | 44 => ⟨S4000000x2, .f32⟩
  | 45 => ⟨S4000000x1, .f32⟩
  | 46 => ⟨S4000000, .f32⟩
  | 47 => ⟨S4000000x1x2, .f32⟩
  | 48 => ⟨S1x4x2, .f32⟩
  | 49 => ⟨S4000000x4x2, .f32⟩
  | 50 => ⟨S4000000x4x2, .f32⟩
  | 51 => ⟨S4000000x4x2, .f32⟩
  | 52 => ⟨S4000000, .f32⟩
  | 53 => ⟨S4000000x1, .f32⟩
  | 54 => ⟨S4000000, .f32⟩
  | 55 => ⟨S4000000x1, .f32⟩
  | 56 => ⟨S4000000x4x1, .f32⟩
  | 57 => ⟨S4000000x4, .f32⟩
  | 58 => ⟨S4000000x4, .f32⟩
  | 59 => ⟨S4000000x4, .f32⟩
  | 60 => ⟨S4000000x4x1, .f32⟩
  | 61 => ⟨S4000000x4, .f32⟩
  | 62 => ⟨S4000000x4, .f32⟩
  | 63 => ⟨S4000000x4, .f32⟩
  | 64 => ⟨S4000000x4, .f32⟩
  | 65 => ⟨S4000000x4x1, .f32⟩
  | 66 => ⟨S4000000x4, .f32⟩
  | 67 => ⟨S4000000x4, .f32⟩
  | 68 => ⟨S4000000x4, .f32⟩
  | 69 => ⟨S4000000x4, .f32⟩
  | 70 => ⟨S4000000x4x1, .f32⟩
  | 71 => ⟨S4000000x4, .f32⟩
  | 72 => ⟨S4000000x4, .f32⟩
  | 73 => ⟨S4000000x4, .f32⟩
  | 74 => ⟨S4000000x4, .f32⟩
  | 75 => ⟨S4000000x4x1, .f32⟩
  | 76 => ⟨S4000000x4x1, .f32⟩
  | 77 => ⟨S4000000x4x2, .f32⟩
  | 78 => ⟨S4000000x1x2, .f32⟩
  | 79 => ⟨S4000000x4x2, .f32⟩
  | 80 => ⟨S4000000x4x2, .f32⟩
  | 81 => ⟨S4000000x1x2, .f32⟩
  | 82 => ⟨S4000000x2, .f32⟩
  | 83 => ⟨S4000000x1x2, .f32⟩
  | 84 => ⟨S4000000x2, .f32⟩
  | 85 => ⟨S4000000x2, .f32⟩
  | 86 => ⟨S4000000x1x2, .f32⟩
  | 87 => ⟨S4000000x2, .f32⟩
  | 88 => ⟨S4000000x1x2, .f32⟩
  | 89 => ⟨S4000000x2, .f32⟩
  | 90 => ⟨S4000000x2, .f32⟩
  | 91 => ⟨S4000000x1x2, .f32⟩
  | 92 => ⟨S4000000x2, .f32⟩
  | 93 => ⟨S4000000x1x2, .f32⟩
  | 94 => ⟨S4000000x2, .f32⟩
  | 95 => ⟨S4000000x2, .f32⟩
  | 96 => ⟨S4000000x1x2, .f32⟩
  | 97 => ⟨S4000000x2, .f32⟩
  | 98 => ⟨S4000000x1x2, .f32⟩
  | 99 => ⟨S4000000x2, .f32⟩
  | 100 => ⟨S4000000x2, .f32⟩
  | 101 => ⟨S4000000x1, .f32⟩
  | 102 => ⟨S4000000, .f32⟩
  | 103 => ⟨S4000000x1, .f32⟩
  | 104 => ⟨S4000000, .f32⟩
  | 105 => ⟨S4000000, .f32⟩
  | 106 => ⟨S4000000x1, .f32⟩
  | 107 => ⟨S4000000, .f32⟩
  | 108 => ⟨S4000000, .f32⟩
  | 109 => ⟨S4000000x1, .f32⟩
  | 110 => ⟨S4000000, .f32⟩
  | 111 => ⟨S4000000x1, .f32⟩
  | 112 => ⟨S4000000, .f32⟩
  | 113 => ⟨S4000000, .f32⟩
  | 114 => ⟨S4000000x1, .f32⟩
  | 115 => ⟨S4000000, .f32⟩
  | 116 => ⟨S4000000, .f32⟩
  | 117 => ⟨S4000000x2, .f32⟩
  | 118 => ⟨S_, .f32⟩
  | 119 => ⟨S_, .f32⟩
  | 120 => ⟨S4000000x2, .f32⟩
  | 121 => ⟨S4000000x2, .f32⟩
  | 122 => ⟨S4000000x1, .f32⟩
  | 123 => ⟨S4000000, .f32⟩
  | 124 => ⟨S4000000x1, .f32⟩
  | 125 => ⟨S4000000, .f32⟩
  | 126 => ⟨S_, .f32⟩
  | 127 => ⟨S4000000, .f32⟩
  | _ => ⟨S4000000x9, .f32⟩

abbrev hbmTy0_1 (i : Nat) : BufTy := match i % 128 with
  | 0 => ⟨S4000000, .f32⟩
  | 1 => ⟨S4000000, .f32⟩
  | 2 => ⟨S4000000x1, .f32⟩
  | 3 => ⟨S4000000, .f32⟩
  | 4 => ⟨S4000000x1, .f32⟩
  | 5 => ⟨S4000000, .f32⟩
  | 6 => ⟨S_, .f32⟩
  | 7 => ⟨S4000000, .f32⟩
  | 8 => ⟨S4000000, .f32⟩
  | 9 => ⟨S4000000, .f32⟩
  | 10 => ⟨S4000000, .f32⟩
  | 11 => ⟨S4000000x1, .f32⟩
  | 12 => ⟨S4000000, .f32⟩
  | 13 => ⟨S4000000x1, .f32⟩
  | 14 => ⟨S4000000, .f32⟩
  | 15 => ⟨S_, .f32⟩
  | 16 => ⟨S4000000, .f32⟩
  | 17 => ⟨S4000000, .f32⟩
  | 18 => ⟨S4000000, .f32⟩
  | 19 => ⟨S4000000x1, .f32⟩
  | 20 => ⟨S4000000, .f32⟩
  | 21 => ⟨S4000000x1, .f32⟩
  | 22 => ⟨S4000000, .f32⟩
  | 23 => ⟨S_, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S_, .f32⟩
  | 30 => ⟨S_, .f32⟩
  | 31 => ⟨S4000000, .f32⟩
  | 32 => ⟨S4000000, .f32⟩
  | 33 => ⟨S4000000x1, .f32⟩
  | 34 => ⟨S4000000, .f32⟩
  | 35 => ⟨S4000000x1, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000x3, .f32⟩
  | 42 => ⟨S4000000x3, .f32⟩
  | 43 => ⟨S4000000x3, .f32⟩
  | 44 => ⟨S4000000x3, .f32⟩
  | 45 => ⟨S_, .f32⟩
  | 46 => ⟨S4000000, .f32⟩
  | 47 => ⟨S4000000x1, .f32⟩
  | 48 => ⟨S4000000, .f32⟩
  | 49 => ⟨S4000000x1, .f32⟩
  | 50 => ⟨S4000000, .f32⟩
  | 51 => ⟨S_, .f32⟩
  | 52 => ⟨S4000000, .f32⟩
  | 53 => ⟨S4000000, .f32⟩
  | 54 => ⟨S4000000, .f32⟩
  | 55 => ⟨S4000000x1, .f32⟩
  | 56 => ⟨S4000000, .f32⟩
  | 57 => ⟨S4000000x1, .f32⟩
  | 58 => ⟨S4000000, .f32⟩
  | 59 => ⟨S_, .f32⟩
  | 60 => ⟨S4000000, .f32⟩
  | 61 => ⟨S4000000, .f32⟩
  | 62 => ⟨S4000000, .f32⟩
  | 63 => ⟨S4000000, .f32⟩
  | 64 => ⟨S4000000x1, .f32⟩
  | 65 => ⟨S4000000, .f32⟩
  | 66 => ⟨S4000000x1, .f32⟩
  | 67 => ⟨S4000000, .f32⟩
  | 68 => ⟨S_, .f32⟩
  | 69 => ⟨S4000000, .f32⟩
  | 70 => ⟨S4000000, .f32⟩
  | 71 => ⟨S4000000, .f32⟩
  | 72 => ⟨S4000000x1, .f32⟩
  | 73 => ⟨S4000000, .f32⟩
  | 74 => ⟨S4000000x1, .f32⟩
  | 75 => ⟨S4000000, .f32⟩
  | 76 => ⟨S_, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S_, .f32⟩
  | 83 => ⟨S_, .f32⟩
  | 84 => ⟨S4000000, .f32⟩
  | 85 => ⟨S4000000, .f32⟩
  | 86 => ⟨S4000000x2, .f32⟩
  | 87 => ⟨S_, .f32⟩
  | 88 => ⟨S_, .f32⟩
  | 89 => ⟨S4000000x2, .f32⟩
  | 90 => ⟨S4000000x2, .f32⟩
  | 91 => ⟨S4000000x1, .f32⟩
  | 92 => ⟨S4000000, .f32⟩
  | 93 => ⟨S4000000, .f32⟩
  | 94 => ⟨S4000000x1, .f32⟩
  | 95 => ⟨S4000000, .f32⟩
  | 96 => ⟨S4000000, .f32⟩
  | 97 => ⟨S4000000, .f32⟩
  | 98 => ⟨S4000000, .f32⟩
  | 99 => ⟨S4000000, .f32⟩
  | 100 => ⟨S4000000, .f32⟩
  | 101 => ⟨S4000000, .f32⟩
  | 102 => ⟨S4000000, .f32⟩
  | 103 => ⟨S_, .f32⟩
  | 104 => ⟨S_, .f32⟩
  | 105 => ⟨S_, .f32⟩
  | 106 => ⟨S4000000, .f32⟩
  | 107 => ⟨S4000000, .f32⟩
  | 108 => ⟨S_, .f32⟩
  | 109 => ⟨S4000000, .f32⟩
  | 110 => ⟨S4000000, .f32⟩
  | 111 => ⟨S_, .f32⟩
  | 112 => ⟨S4000000, .f32⟩
  | 113 => ⟨S4000000, .f32⟩
  | 114 => ⟨S_, .f32⟩
  | 115 => ⟨S_, .f32⟩
  | 116 => ⟨S_, .f32⟩
  | 117 => ⟨S_, .f32⟩
  | _ => ⟨S4000000x9, .f32⟩

abbrev hbmTy (i : Nat) : BufTy := match i / 128 with
  | 0 => hbmTy0_0 i
  | 1 => hbmTy0_1 i
  | _ => ⟨S4000000x9, .f32⟩

abbrev bufTy : (tb : Table) → Fin (tcTables nBuf tb) → BufTy
  | .hbm, ⟨i, _⟩ => hbmTy i
  | _, _ => ⟨S4000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_cst_0 : Ref sig .tc := ⟨.hbm, 118, rfl⟩
abbrev main_call0_v0 : Ref sig .tc := ⟨.hbm, 119, rfl⟩
abbrev main_call0_v1 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_cst_1 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_cst_2 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_cst_3 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_cst_4 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_cst_5 : Ref sig .tc := ⟨.hbm, 157, rfl⟩
abbrev main_call1_v0 : Ref sig .tc := ⟨.hbm, 158, rfl⟩
abbrev main_call1_v1 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_cst_6 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_cst_7 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_cst_8 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_cst_9 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_cst_10 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_cst_11 : Ref sig .tc := ⟨.hbm, 210, rfl⟩
abbrev main_call2_v0 : Ref sig .tc := ⟨.hbm, 211, rfl⟩
abbrev main_call2_v1 : Ref sig .tc := ⟨.hbm, 212, rfl⟩
abbrev main_v192 : Ref sig .tc := ⟨.hbm, 213, rfl⟩
abbrev main_v193 : Ref sig .tc := ⟨.hbm, 214, rfl⟩
abbrev main_cst_12 : Ref sig .tc := ⟨.hbm, 215, rfl⟩
abbrev main_call3_v0 : Ref sig .tc := ⟨.hbm, 216, rfl⟩
abbrev main_call3_v1 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_cst_13 : Ref sig .tc := ⟨.hbm, 231, rfl⟩
abbrev main_cst_14 : Ref sig .tc := ⟨.hbm, 232, rfl⟩
abbrev main_call4_v0 : Ref sig .tc := ⟨.hbm, 233, rfl⟩
abbrev main_call4_v1 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_v207 : Ref sig .tc := ⟨.hbm, 238, rfl⟩
abbrev main_cst_15 : Ref sig .tc := ⟨.hbm, 239, rfl⟩
abbrev main_v208 : Ref sig .tc := ⟨.hbm, 240, rfl⟩
abbrev main_v209 : Ref sig .tc := ⟨.hbm, 241, rfl⟩
abbrev main_cst_16 : Ref sig .tc := ⟨.hbm, 242, rfl⟩
abbrev main_v210 : Ref sig .tc := ⟨.hbm, 243, rfl⟩
abbrev main_cst_17 : Ref sig .tc := ⟨.hbm, 244, rfl⟩
abbrev main_v211 : Ref sig .tc := ⟨.hbm, 245, rfl⟩

abbrev nD : Nat := 1
abbrev τ : Topo := Topo.v7x

variable {F : FTy → Type} [FloatOps F]

class Facts₀ : Prop where
  slices_S4000000x9_S4000000x7_0_0 : S4000000x9.Slices ![0, 0] S4000000x7
  slices_S4000000x7_S4000000x2_0_0 : S4000000x7.Slices ![0, 0] S4000000x2
  slices_S4000000x7_S4000000x2_0_3 : S4000000x7.Slices ![0, 3] S4000000x2
  slices_S4000000x7_S4000000x1_0_6 : S4000000x7.Slices ![0, 6] S4000000x1
  shapeCasts_S4000000x1_S4000000 : S4000000x1.ShapeCasts S4000000
  bcast_S4000000x2_S4000000x1x2_0_2 : S4000000x2.BroadcastsInDim S4000000x1x2 (![0, 2] : Fin 2 → Fin S4000000x1x2.rank)
  bcast_S4x2_S1x4x2_1_2 : S4x2.BroadcastsInDim S1x4x2 (![1, 2] : Fin 2 → Fin S1x4x2.rank)
  bcast_S4000000x1x2_S4000000x4x2_0_1_2 : S4000000x1x2.BroadcastsInDim S4000000x4x2 (![0, 1, 2] : Fin 3 → Fin S4000000x4x2.rank)
  bcast_S1x4x2_S4000000x4x2_0_1_2 : S1x4x2.BroadcastsInDim S4000000x4x2 (![0, 1, 2] : Fin 3 → Fin S4000000x4x2.rank)
  bcast_S4000000_S4000000x1_0 : S4000000.BroadcastsInDim S4000000x1 (![0] : Fin 1 → Fin S4000000x1.rank)
  slices_S4000000x4x2_S4000000x4x1_0_0_0 : S4000000x4x2.Slices ![0, 0, 0] S4000000x4x1
  shapeCasts_S4000000x4x1_S4000000x4 : S4000000x4x1.ShapeCasts S4000000x4
  bcast_S4000000x1_S4000000x4_0_1 : S4000000x1.BroadcastsInDim S4000000x4 (![0, 1] : Fin 2 → Fin S4000000x4.rank)
  slices_S4000000x4x2_S4000000x4x1_0_0_1 : S4000000x4x2.Slices ![0, 0, 1] S4000000x4x1
  bcast_S4000000x4_S4000000x4x1_0_1 : S4000000x4.BroadcastsInDim S4000000x4x1 (![0, 1] : Fin 2 → Fin S4000000x4x1.rank)
  concatenates_S4000000x4x1_S4000000x4x1_S4000000x4x2_d2 : Shape.Concatenates [S4000000x4x1, S4000000x4x1] S4000000x4x2 2
  slices_S4000000x4x2_S4000000x1x2_0_2_0 : S4000000x4x2.Slices ![0, 2, 0] S4000000x1x2
  shapeCasts_S4000000x1x2_S4000000x2 : S4000000x1x2.ShapeCasts S4000000x2
  slices_S4000000x4x2_S4000000x1x2_0_0_0 : S4000000x4x2.Slices ![0, 0, 0] S4000000x1x2
  slices_S4000000x7_S4000000x1_0_3 : S4000000x7.Slices ![0, 3] S4000000x1
  slices_S4000000x7_S4000000x1_0_4 : S4000000x7.Slices ![0, 4] S4000000x1
  slices_S4000000x7_S4000000x1_0_5 : S4000000x7.Slices ![0, 5] S4000000x1
  bcast_S_S4000000x2 : S_.BroadcastsInDim S4000000x2 (![] : Fin 0 → Fin S4000000x2.rank)
  slices_S4000000x7_S4000000x1_0_2 : S4000000x7.Slices ![0, 2] S4000000x1
  bcast_S_S4000000 : S_.BroadcastsInDim S4000000 (![] : Fin 0 → Fin S4000000.rank)
  slices_S4000000x2_S4000000x1_0_0 : S4000000x2.Slices ![0, 0] S4000000x1
  slices_S4000000x2_S4000000x1_0_1 : S4000000x2.Slices ![0, 1] S4000000x1
  slices_S4000000x7_S4000000x3_0_0 : S4000000x7.Slices ![0, 0] S4000000x3
  reducesTo_S4000000x3_S4000000_d1 : S4000000x3.ReducesTo [1] S4000000
  h_S_ : 0 < S_.numel
  reducesTo_S4000000_S_d0 : S4000000.ReducesTo [0] S_

variable [Facts₀]

class Facts : Prop extends Facts₀ where

variable [Facts]
-- ==== Proof.Spec.lean ====
/-
  The mathematics both programs compute, with no program in sight.

  A box is seven numbers (x, y, z, w, l, h, yaw). Its footprint's corner 0 is the centre plus the half extents
  (-w/2, -l/2) turned by the yaw, corner 2 the centre plus (w/2, l/2) turned the same way. For a predicted box p and
  a ground-truth box g the loss of the pair is 1 - clip(IoU - centre distance² / enclosing diagonal², -1, 1), the IoU
  and the enclosing box taken from corners 0 and 2 and from the z extents. The result of either program is the sum of
  the pair losses over the 4,000,000 rows, divided by 4,000,000.

  `lossK` writes the pair loss in the order the kernel computes it (corner 2 as centre MINUS the turned (-w/2, -l/2)),
  `lossR` in the order the reference computes it (corner k as the turned (±w/2, ±l/2) PLUS the centre, from a table
  of signs). The two agree on finite boxes: the only step that is not a commutation of +, ·, max, min is
  c - ((-½w)·cos + (-½l)·sin) = ((w·½)·cos + (l·½)·sin) + c, a ring identity of the reals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of both argument arrays: 4,000,000 rows of nine numbers, of which the first seven are a box. -/
abbrev SArg : Shape := ⟨2, ![4000000, 9]⟩

/-- The float literals of the two programs, kept as their binary words: 0, ½, -½, 1, -1 and 4,000,000. -/
abbrev cZ : EReal := Ideal.ofBits .f32 0x00000000#32
abbrev cH : EReal := Ideal.ofBits .f32 0x3F000000#32
abbrev cNH : EReal := Ideal.ofBits .f32 0xBF000000#32
abbrev cOne : EReal := Ideal.ofBits .f32 0x3F800000#32
abbrev cNegOne : EReal := Ideal.ofBits .f32 0xBF800000#32
abbrev cN : EReal := Ideal.ofBits .f32 0x4A742400#32

/-- The box in row `n` of an argument array: its first seven entries. -/
def rowOf (x : SArg.Idx → EReal) (n : Fin 4000000) : Fin 7 → EReal :=
  fun k => x (ix2 n (Fin.castLE (by decide) k))

/-! ## The kernel's order -/

/-- The x offset of corner 0 from the centre: (-½w)·cos yaw + (-½l)·sin yaw. -/
def offX (w l yaw : EReal) : EReal := cNH * w * Ideal.cos yaw + cNH * l * Ideal.sin yaw
/-- The y offset of corner 0 from the centre: (0 - (-½w))·sin yaw + (-½l)·cos yaw. -/
def offY (w l yaw : EReal) : EReal := (cZ - cNH * w) * Ideal.sin yaw + cNH * l * Ideal.cos yaw

/-- The pair loss from the four corners of each box (`a` the predicted box's, `b` the ground truth's; 0 the low
    corner, 2 the high one) and the boxes themselves, every step in the kernel's order. -/
def core (a0x a0y a2x a2y b0x b0y b2x b2y : EReal) (p g : Fin 7 → EReal) : EReal :=
  let interX := max (min a2x b2x - max a0x b0x) cZ
  let interY := max (min a2y b2y - max a0y b0y) cZ
  let interH := max (min (p 2 + cH * p 5) (g 2 + cH * g 5) - max (p 2 - cH * p 5) (g 2 - cH * g 5)) cZ
  let interVol := interX * interY * interH
  let union := g 3 * g 4 * g 5 + p 3 * p 4 * p 5 - interVol
  let interDiag := (g 0 - p 0) * (g 0 - p 0) + (g 1 - p 1) * (g 1 - p 1) + (g 2 - p 2) * (g 2 - p 2)
  let outerH := max (max (p 2 + cH * p 5) (g 2 + cH * g 5) - min (p 2 - cH * p 5) (g 2 - cH * g 5)) cZ
  let outerX := max (max a2x b2x - min a0x b0x) cZ
  let outerY := max (max a2y b2y - min a0y b0y) cZ
  let outerDiag := outerX * outerX + outerY * outerY + outerH * outerH
  cOne - min (max (Ideal.div interVol union - Ideal.div interDiag outerDiag) cNegOne) cOne

/-- The pair loss as the kernel computes it. -/
def lossK (p g : Fin 7 → EReal) : EReal :=
  core (p 0 + offX (p 3) (p 4) (p 6)) (p 1 + offY (p 3) (p 4) (p 6)) (p 0 - offX (p 3) (p 4) (p 6)) (p 1 - offY (p 3) (p 4) (p 6))
    (g 0 + offX (g 3) (g 4) (g 6)) (g 1 + offY (g 3) (g 4) (g 6)) (g 0 - offX (g 3) (g 4) (g 6)) (g 1 - offY (g 3) (g 4) (g 6)) p g

/-! ## The reference's order -/

/-- The table of signs of the four corners, (±½, ±½), row-major as the reference's constant lists it. -/
def litC : Fin 4 → Fin 2 → EReal
  | 0, 0 => cNH | 0, 1 => cNH
  | 1, 0 => cNH | 1, 1 => cH
  | 2, 0 => cH  | 2, 1 => cH
  | 3, 0 => cH  | 3, 1 => cNH

/-- Corner `k` before the turn: (w, l) times the table's row. -/
def cornR (p : Fin 7 → EReal) (k : Fin 4) : Fin 2 → EReal
  | 0 => p 3 * litC k 0
  | 1 => p 4 * litC k 1

/-- Corner `k` of box `p`, turned and moved to the centre: x = cx·cos + cy·sin + p₀, y = (-cx)·sin + cy·cos + p₁. -/
def qcR (p : Fin 7 → EReal) (k : Fin 4) : Fin 2 → EReal
  | 0 => cornR p k 0 * Ideal.cos (p 6) + cornR p k 1 * Ideal.sin (p 6) + p 0
  | 1 => -(cornR p k 0) * Ideal.sin (p 6) + cornR p k 1 * Ideal.cos (p 6) + p 1

def interMaxR (p g : Fin 7 → EReal) (a : Fin 2) : EReal := min (qcR p 2 a) (qcR g 2 a)
def interMinR (p g : Fin 7 → EReal) (a : Fin 2) : EReal := max (qcR p 0 a) (qcR g 0 a)
def outMaxR (p g : Fin 7 → EReal) (a : Fin 2) : EReal := max (qcR p 2 a) (qcR g 2 a)
def outMinR (p g : Fin 7 → EReal) (a : Fin 2) : EReal := min (qcR p 0 a) (qcR g 0 a)
def volR (p : Fin 7 → EReal) : EReal := p 3 * p 4 * p 5
def interXYR (p g : Fin 7 → EReal) (a : Fin 2) : EReal := max cZ (interMaxR p g a - interMinR p g a)
def interHR (p g : Fin 7 → EReal) : EReal :=
  max cZ (min (p 2 + cH * p 5) (g 2 + cH * g 5) - max (p 2 - cH * p 5) (g 2 - cH * g 5))
def interVolR (p g : Fin 7 → EReal) : EReal := interXYR p g 0 * interXYR p g 1 * interHR p g
def unionR (p g : Fin 7 → EReal) : EReal := volR g + volR p - interVolR p g
def interDiagR (p g : Fin 7 → EReal) : EReal :=
  cZ + ∑ k : Fin 3, (g (Fin.castLE (by decide) k) - p (Fin.castLE (by decide) k)) * (g (Fin.castLE (by decide) k) - p (Fin.castLE (by decide) k))
def outerHR (p g : Fin 7 → EReal) : EReal :=
  max cZ (max (p 2 + cH * p 5) (g 2 + cH * g 5) - min (p 2 - cH * p 5) (g 2 - cH * g 5))
def outerR (p g : Fin 7 → EReal) (a : Fin 2) : EReal := max cZ (outMaxR p g a - outMinR p g a)
def outerDiagR (p g : Fin 7 → EReal) : EReal :=
  outerR p g 0 * outerR p g 0 + outerR p g 1 * outerR p g 1 + outerHR p g * outerHR p g
/-- The pair loss as the reference computes it. -/
def lossR (p g : Fin 7 → EReal) : EReal :=
  cOne - min cOne (max cNegOne (Ideal.div (interVolR p g) (unionR p g) - Ideal.div (interDiagR p g) (outerDiagR p g)))

/-! ## The result -/

/-- The sum of a pair loss over all rows, divided by 4,000,000. -/
def total (f : (Fin 7 → EReal) → (Fin 7 → EReal) → EReal) (x y : SArg.Idx → EReal) : EReal :=
  Ideal.div (∑ n : Fin 4000000, f (rowOf x n) (rowOf y n)) cN

end Cert.Spec

end
-- ==== Proof.KForms.lean ====
/-
  What one grid point of the kernel contributes: the sum, over the 20,000 rows of its pair of input blocks, of the pair
  loss in the kernel's order.
-/
import proofs.«411859_j51221779972847_3_alg».proof.Proof.Spec
import proofs.«411859_j51221779972847_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx

/-- The box in row `j` of a block of 20,000 rows: its first seven entries. -/
def blkRow (b : Vec Ideal S20000x9 .f32) (j : Fin 20000) : Fin 7 → EReal := fun k => b (ix2 j (Fin.castLE (by decide) k))

/-- The sum of the pair losses over the rows of a pair of blocks. -/
def partialK (b0 b1 : Vec Ideal S20000x9 .f32) : EReal := ∑ j : Fin 20000, lossK (blkRow b0 j) (blkRow b1 j)

end Cert.KernelIdeal.Val

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KBody.lean ====
/-
  What the kernel's body leaves behind at one grid point, case by case. At the first step of a core's run (case A) the
  one-word accumulator is zeroed and then takes the point's sum; at a middle step (case B) it takes what the step
  before left plus the point's sum; at the last step (case C) the same, and the output block is written: the
  accumulator's word at position (0, 0), zero everywhere else.
-/
import proofs.«411859_j51221779972847_3_alg».proof.Proof.KForms
import proofs.«411859_j51221779972847_3_alg».proof.Proof.LibVecRows
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx

/-! The auxiliary facts live in their own namespace; the four statements below stay in this one. -/
namespace KBody

/-! ## The body's arithmetic, read at a lane -/

/-- Row `k` of a transposed block, sliced out and its unit axis dropped, read at lane `j`: the block's entry (j, k). -/
theorem row_apply (v : Vec Ideal S20000x7 .f32) (k : Fin 7) (off : Fin 2 → Nat) (hoff : off = ![k.val, 0])
    (hs : S7x20000.Slices off S1x20000) (j : Fin 20000) :
    shapeCast S20000 (extractStridedSlice S1x20000 off (transpose S7x20000 [1, 0] v transposes_S20000x7_p1_0_S7x20000) hs)
      shapeCasts_S1x20000_S20000 (ix1 j) = v (ix2 j k) := by
  subst hoff
  -- dropping the unit axis keeps the row-major position: lane j is (0, j)
  refine (shapeCast_apply _ shapeCasts_S1x20000_S20000 (ix1 j) (ix2 (0 : Fin 1) j) ?_).trans ?_
  · rw [Shape.rowMajor_val_two, Shape.rowMajor_val_one]
    show (0 : Nat) * 20000 + j.val = j.val
    omega
  -- the slice starts at row k: (0, j) of the slice is (k, j) of the transposed block
  refine (extractStridedSlice_apply _ _ hs (ix2 (0 : Fin 1) j) (ix2 k j) ?_).trans ?_
  · intro a
    match a with
    | ⟨0, _⟩ => show k.val = k.val + 0; omega
    | ⟨1, _⟩ => show j.val = 0 + j.val; omega
  -- and the transpose swaps the two coordinates
  exact transpose_apply [1, 0] v transposes_S20000x7_p1_0_S7x20000 (ix2 k j) (ix2 j k) fun b =>
    match b with
    | ⟨0, _⟩ => rfl
    | ⟨1, _⟩ => rfl

/-- The load of a block's first seven columns, read at (j, k): the box entry `k` of the block's row `j`. -/
theorem ld_prefix_apply (x : Vec Ideal S20000x9 .f32) (j : Fin 20000) (k : Fin 7) :
    View.ld (Val := Elt Ideal) (e' := .f32) x (Rect.unit ![0, 0] S20000x7.size inb_S20000x9_S20000x7_0_0) (ix2 j k) = blkRow x j k := by
  unfold blkRow
  refine congrArg x (funext fun a => Fin.ext ?_)
  match a with
  | ⟨0, _⟩ => show 0 + 1 * j.val = j.val; omega
  | ⟨1, _⟩ => show 0 + 1 * k.val = k.val; omega

/-- The seven rows the body slices from the predicted block's transpose, at a lane; -/
def rowP (v3 : Vec Ideal S20000x7 .f32) (i : S20000.Idx) : Fin 7 → EReal :=
  ![k0_pay6 v3 i, k0_pay7 v3 i, k0_pay8 v3 i, k0_pay9 v3 i, k0_pay10 v3 i, k0_pay11 v3 i, k0_pay12 v3 i]
/-- and the seven it slices from the ground-truth block's. -/
def rowG (v5 : Vec Ideal S20000x7 .f32) (i : S20000.Idx) : Fin 7 → EReal :=
  ![k0_pay13 v5 i, k0_pay14 v5 i, k0_pay15 v5 i, k0_pay16 v5 i, k0_pay17 v5 i, k0_pay18 v5 i, k0_pay19 v5 i]

/-- Each is the loaded block's row of that lane. -/
theorem rowP_apply (v : Vec Ideal S20000x7 .f32) (j : Fin 20000) (k : Fin 7) : rowP v (ix1 j) k = v (ix2 j k) := by
  match k with
  | ⟨0, _⟩ => exact row_apply v 0 ![0, 0] rfl slices_S7x20000_o0_0_S1x20000 j
  | ⟨1, _⟩ => exact row_apply v 1 ![1, 0] rfl slices_S7x20000_o1_0_S1x20000 j
  | ⟨2, _⟩ => exact row_apply v 2 ![2, 0] rfl slices_S7x20000_o2_0_S1x20000 j
  | ⟨3, _⟩ => exact row_apply v 3 ![3, 0] rfl slices_S7x20000_o3_0_S1x20000 j
  | ⟨4, _⟩ => exact row_apply v 4 ![4, 0] rfl slices_S7x20000_o4_0_S1x20000 j
  | ⟨5, _⟩ => exact row_apply v 5 ![5, 0] rfl slices_S7x20000_o5_0_S1x20000 j
  | ⟨6, _⟩ => exact row_apply v 6 ![6, 0] rfl slices_S7x20000_o6_0_S1x20000 j
theorem rowG_apply (v : Vec Ideal S20000x7 .f32) (j : Fin 20000) (k : Fin 7) : rowG v (ix1 j) k = v (ix2 j k) := by
  match k with
  | ⟨0, _⟩ => exact row_apply v 0 ![0, 0] rfl slices_S7x20000_o0_0_S1x20000 j
  | ⟨1, _⟩ => exact row_apply v 1 ![1, 0] rfl slices_S7x20000_o1_0_S1x20000 j
  | ⟨2, _⟩ => exact row_apply v 2 ![2, 0] rfl slices_S7x20000_o2_0_S1x20000 j
  | ⟨3, _⟩ => exact row_apply v 3 ![3, 0] rfl slices_S7x20000_o3_0_S1x20000 j
  | ⟨4, _⟩ => exact row_apply v 4 ![4, 0] rfl slices_S7x20000_o4_0_S1x20000 j
  | ⟨5, _⟩ => exact row_apply v 5 ![5, 0] rfl slices_S7x20000_o5_0_S1x20000 j
  | ⟨6, _⟩ => exact row_apply v 6 ![6, 0] rfl slices_S7x20000_o6_0_S1x20000 j

/-- So, of a block's loaded prefix, they are the box in the block's row `j`. -/
theorem rowP_ld (x : Vec Ideal S20000x9 .f32) (j : Fin 20000) :
    rowP (View.ld (Val := Elt Ideal) (e' := .f32) x (Rect.unit ![0, 0] S20000x7.size inb_S20000x9_S20000x7_0_0)) (ix1 j) = blkRow x j :=
  funext fun k => (rowP_apply _ j k).trans (ld_prefix_apply x j k)
theorem rowG_ld (x : Vec Ideal S20000x9 .f32) (j : Fin 20000) :
    rowG (View.ld (Val := Elt Ideal) (e' := .f32) x (Rect.unit ![0, 0] S20000x7.size inb_S20000x9_S20000x7_0_0)) (ix1 j) = blkRow x j :=
  funext fun k => (rowG_apply _ j k).trans (ld_prefix_apply x j k)

/-- The lane vector of IoU minus normalised centre distance, before the clip, from the two loaded prefixes: the body's
    three parts composed. -/
def preClip (v3 v5 : Vec Ideal S20000x7 .f32) : FVec Ideal S20000 .f32 :=
  (k0_pay52 (k0_pay6 v3) (k0_pay7 v3) (k0_pay8 v3) (k0_pay11 v3) (k0_pay13 v5) (k0_pay14 v5) (k0_pay15 v5) (k0_pay18 v5) (k0_pay42 (k0_pay6 v3) (k0_pay13 v5) (k0_pay16 v5) (k0_pay17 v5) (k0_pay19 v5) (k0_pay24 v3)) (k0_pay43 (k0_pay7 v3) (k0_pay14 v5) (k0_pay16 v5) (k0_pay17 v5) (k0_pay19 v5) (k0_pay25 v3) (k0_pay26 v3)) (k0_pay44 (k0_pay6 v3) (k0_pay13 v5) (k0_pay16 v5) (k0_pay17 v5) (k0_pay19 v5) (k0_pay24 v3)) (k0_pay45 (k0_pay7 v3) (k0_pay14 v5) (k0_pay16 v5) (k0_pay17 v5) (k0_pay19 v5) (k0_pay25 v3) (k0_pay26 v3)) (k0_pay46 (k0_pay9 v3) (k0_pay10 v3) (k0_pay11 v3)) (k0_pay47 (k0_pay16 v5) (k0_pay17 v5) (k0_pay18 v5)) (k0_pay48 (k0_pay6 v3) (k0_pay13 v5) (k0_pay16 v5) (k0_pay17 v5) (k0_pay19 v5) (k0_pay24 v3)) (k0_pay49 (k0_pay7 v3) (k0_pay14 v5) (k0_pay16 v5) (k0_pay17 v5) (k0_pay19 v5) (k0_pay25 v3) (k0_pay26 v3)) (k0_pay50 (k0_pay8 v3) (k0_pay11 v3) (k0_pay15 v5) (k0_pay18 v5)) (k0_pay51 (k0_pay8 v3) (k0_pay11 v3)) (FloatOps.ofBits FTy.f32 0x3F000000#32))

set_option maxHeartbeats 1000000 in
/-- One minus the clipped lane value is the pair loss of the lane's two boxes: every operation of the body is
    lane by lane, and the specification lists them in the body's order. -/
theorem lane_eq (v3 v5 : Vec Ideal S20000x7 .f32) (i : S20000.Idx) :
    cOne - min (max (preClip v3 v5 i) (k0_pay53 (F := Ideal) i)) cOne = lossK (rowP v3 i) (rowG v5 i) := rfl

/-- The accumulator's new word: what it held plus the sum over the lanes of one minus the clipped lane value. -/
theorem pay1_apply (v148 v149 : FVec Ideal S20000 .f32) (acc : Vec Ideal S1x1 .f32) (y : S1x1.Idx) :
    k0_pay1 v148 v149 acc y = acc y + ∑ j : Fin 20000, (cOne - min (max (v148 (ix1 j)) (v149 (ix1 j))) cOne) := by
  unfold k0_pay1
  dsimp only
  rw [shapeCast_self]
  show acc y + _ = acc y + _
  refine congrArg (acc y + ·) ?_
  unfold extractAt
  -- the [1] to [1, 1] cast reads the one word of the reduction
  refine (shapeCast_apply _ shapeCasts_S1_S1x1 _ (ix1 (0 : Fin 1)) ?_).trans ?_
  · rw [Shape.rowMajor_val_one, Shape.rowMajor_val_two]; rfl
  -- which is the sum of the one row of the [1, 20000] vector
  refine (Cert.LibVecRows.multiReduction_rows_apply _ _ _ _ _ (0 : Fin 1)).trans ?_
  refine Finset.sum_congr rfl fun j _ => ?_
  -- whose entry (0, j) is lane j of the lane vector
  refine (shapeCast_apply _ shapeCasts_S20000_S1x20000 (ix2 (0 : Fin 1) j) (ix1 j) ?_).trans ?_
  · rw [Shape.rowMajor_val_one, Shape.rowMajor_val_two]
    show j.val = 0 * 20000 + j.val
    omega
  rfl

/-- From the two blocks' loaded prefixes, the accumulator's new word is what it held plus the point's sum. -/
theorem acc_apply (x0 x1 : Vec Ideal S20000x9 .f32) (acc : Vec Ideal S1x1 .f32) (y : S1x1.Idx) :
    k0_pay1 (preClip (View.ld (Val := Elt Ideal) (e' := .f32) x0 (Rect.unit ![0, 0] S20000x7.size inb_S20000x9_S20000x7_0_0))
        (View.ld (Val := Elt Ideal) (e' := .f32) x1 (Rect.unit ![0, 0] S20000x7.size inb_S20000x9_S20000x7_0_0))) (k0_pay53 (F := Ideal)) acc y
      = acc y + partialK x0 x1 := by
  refine (pay1_apply _ _ acc y).trans ?_
  unfold partialK
  refine congrArg (acc y + ·) (Finset.sum_congr rfl fun j _ => ?_)
  refine (lane_eq _ _ (ix1 j)).trans ?_
  rw [rowP_ld, rowG_ld]

/-- The zero the first step stores is the extended real 0. -/
theorem pay3_apply (y : S1x1.Idx) : k0_pay3 (F := Ideal) y = 0 := by
  unfold k0_pay3
  rw [shapeCast_self]
  exact Ideal.ofBits_zero_f32

/-- The output block: the mask (row 0 and column 0) selects the accumulator's word, every other entry is zero. -/
theorem pay2_apply (v : Vec Ideal S1x1 .f32) (idx : S8x128.Idx) :
    k0_pay2 v idx = if (idx 0).val = 0 ∧ (idx 1).val = 0 then v (ix2 0 0) else 0 := by
  unfold k0_pay2
  dsimp only
  show Scalar.select (IntOp.andi (IntOp.cmpi .eq (iota .tc S8x128 32 [0] iota_S8x128_d0_w32 idx) 0#32)
      (IntOp.cmpi .eq (iota .tc S8x128 32 [1] iota_S8x128_d1_w32 idx) 0#32)) (extractAt ![0, 0] v inpos_S1x1_p0_0)
      (Ideal.ofBits .f32 0x00000000#32) = _
  rw [iota_single_apply, iota_single_apply, Ideal.ofBits_zero_f32]
  have h0 : (idx 0).val < 8 := (idx 0).isLt
  have h1 : (idx 1).val < 128 := (idx 1).isLt
  by_cases h : (idx 0).val = 0 ∧ (idx 1).val = 0
  · have hm : IntOp.andi (IntOp.cmpi .eq (BitVec.ofNat 32 (idx 0).val) 0#32) (IntOp.cmpi .eq (BitVec.ofNat 32 (idx 1).val) 0#32) = 1#1 :=
      IntOp.andi_eq_one.2 ⟨IntOp.cmpi_eq.2 (by rw [h.1]), IntOp.cmpi_eq.2 (by rw [h.2])⟩
    rw [if_pos h, hm, select_one]
    unfold extractAt
    exact congrArg v (funext fun a => match a with | ⟨0, _⟩ => rfl | ⟨1, _⟩ => rfl)
  · have hm : IntOp.andi (IntOp.cmpi .eq (BitVec.ofNat 32 (idx 0).val) 0#32) (IntOp.cmpi .eq (BitVec.ofNat 32 (idx 1).val) 0#32) = 0#1 := by
      refine eq_zero_of_ne_one fun hh => h ?_
      obtain ⟨e0, e1⟩ := IntOp.andi_eq_one.1 hh
      have t0 := congrArg BitVec.toNat (IntOp.cmpi_eq.1 e0)
      have t1 := congrArg BitVec.toNat (IntOp.cmpi_eq.1 e1)
      simp only [BitVec.toNat_ofNat] at t0 t1
      constructor <;> omega
    rw [if_neg h, hm, select_zero]

/-- The zero offsets, as a constant function. -/
theorem hz : (![0, 0] : Fin 2 → Nat) = fun _ => 0 := funext fun a => match a with | ⟨0, _⟩ => rfl | ⟨1, _⟩ => rfl

end KBody

open KBody

/-! ## The four pieces -/

variable (c : Dev nD) (i : grid0.Coords)
  (arg2 : Memref sig .tc .vmem S20000x9 .f32) (harg2 : arg2.IsWhole) (arg3 : Memref sig .tc .vmem S20000x9 .f32) (harg3 : arg3.IsWhole)
  (arg4 : Memref sig .tc .vmem S8x128 .f32) (harg4 : arg4.IsWhole) (arg5 : Memref sig .tc .vmem S1x1 .f32) (harg5 : arg5.IsWhole)
  (x0 x1 : Vec Ideal S20000x9 .f32) (xs0 : Vec Ideal S1x1 .f32)

/-- Case A: the accumulator ends at the point's sum. -/
theorem sout_A (hc0 : cond0_0 i) (hc1 : ¬cond0_1 i) :
    sout0_A_0 (F := Ideal) c i arg2 harg2 arg3 harg3 arg4 harg4 arg5 harg5 hc0 hc1 x0 x1 = fun _ => partialK x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  -- two stores: the zero, then the update, which covers; the update's read-back of the accumulator reads the zero
  rw [View.canon_cons_unit_zero (S := S1x1) hz, View.readCov_unit_zero (S := S1x1) _ hz]
  simp only [View.readAt_eq_ld, harg2.read_unread, harg3.read_unread]
  funext y
  refine (acc_apply x0 x1 _ y).trans ?_
  rw [pay3_apply, zero_add]

/-- Case B: the accumulator ends at what it held plus the point's sum. -/
theorem sout_B (hc0 : ¬cond0_0 i) (hc1 : ¬cond0_1 i) :
    sout0_B_0 (F := Ideal) c i arg2 harg2 arg3 harg3 arg4 harg4 arg5 harg5 hc0 hc1 x0 x1 xs0 = fun y => xs0 y + partialK x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  -- one covering store, whose payload loads the accumulator's whole word
  rw [View.canon_unit_zero (S := S1x1) hz]
  simp only [View.readAt_eq_ld, harg2.read_unread, harg3.read_unread, harg5.read_unread, View.ld_unit_zero (S := S1x1) hz]
  funext y
  exact acc_apply x0 x1 xs0 y

/-- Case C: the accumulator likewise. -/
theorem sout_C (hc0 : ¬cond0_0 i) (hc1 : cond0_1 i) :
    sout0_C_0 (F := Ideal) c i arg2 harg2 arg3 harg3 arg4 harg4 arg5 harg5 hc0 hc1 x0 x1 xs0 = fun y => xs0 y + partialK x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz]
  simp only [View.readAt_eq_ld, harg2.read_unread, harg3.read_unread, harg5.read_unread, View.ld_unit_zero (S := S1x1) hz]
  funext y
  exact acc_apply x0 x1 xs0 y

/-- Case C: the output block holds the accumulator's final word at (0, 0) and zero elsewhere. -/
theorem out_C (hc0 : ¬cond0_0 i) (hc1 : cond0_1 i) :
    out0_C_2 (F := Ideal) c i arg2 harg2 arg3 harg3 arg4 harg4 arg5 harg5 hc0 hc1 x0 x1 xs0
      = fun idx => if (idx 0).val = 0 ∧ (idx 1).val = 0 then xs0 (ix2 0 0) + partialK x0 x1 else 0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  -- one covering store of the masked block; the word it broadcasts is read back from the accumulator's one store
  rw [View.canon_unit_zero (S := S8x128) hz, View.readCov_unit_zero (S := S1x1) _ hz]
  simp only [View.readAt_eq_ld, harg2.read_unread, harg3.read_unread, harg5.read_unread, View.ld_unit_zero (S := S1x1) hz]
  funext idx
  refine (pay2_apply _ idx).trans ?_
  exact if_congr Iff.rfl (acc_apply x0 x1 xs0 (ix2 0 0)) rfl

end Cert.KernelIdeal.Val

end
-- ==== Proof.KAcc.lean ====
/-
  The accumulator over a core's run of grid points, and the output array.

  The grid has 200 points: core q (0 or 1) runs points 100q .. 100q + 99. The one-word accumulator is reset at the
  first point of each run and takes every point's sum (`partialK` of the point's pair of blocks); so after point n it
  holds the sum of the addends of points 100(n / 100) .. n. The output block is written only at a run's last point, with
  the accumulator's word at (0, 0) and zero elsewhere, and block q of the [16, 128] output array is written back there:
  the array ends with the run sum of core q at (8q, 0) and zero at every other index.
-/
import proofs.«411859_j51221779972847_3_alg».proof.Proof.KBody
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two input blocks at point `t`, at their literal type. -/
abbrev xb (c : Dev nD) (t : Fin cfg0.N) : Vec Ideal S20000x9 .f32 := iblk m c 0 t
abbrev yb (c : Dev nD) (t : Fin cfg0.N) : Vec Ideal S20000x9 .f32 := iblk m c 1 t

/-- Point `n`'s addend: the sum of the pair losses over its blocks' rows (zero past the grid). -/
def addend (c : Dev nD) (n : ℕ) : EReal := if h : n < cfg0.N then partialK (xb m c ⟨n, h⟩) (yb m c ⟨n, h⟩) else 0

theorem addend_of_lt (c : Dev nD) (n : ℕ) (h : n < cfg0.N) : addend m c n = partialK (xb m c ⟨n, h⟩) (yb m c ⟨n, h⟩) := dif_pos h

/-- At the first point of a run the accumulator ends at the point's addend. -/
theorem scratch_reset (c : Dev nD) (n : ℕ) (h : n < cfg0.N) (h0 : n % 100 = 0) :
    (outsAt0 m c n h).2 = fun _ => addend m c n := by
  have h1 : ¬(⟨n, h⟩ : Fin cfg0.N).val % 100 = 99 := by dsimp only; omega
  rw [outsAt0_A m c ⟨n, h⟩ h0 h1]
  dsimp only
  rw [sout_A, addend_of_lt m c n h]

/-- At every other point it ends at what the point before left plus the point's addend. -/
theorem scratch_step (c : Dev nD) (n : ℕ) (h : n + 1 < cfg0.N) (h0 : ¬(n + 1) % 100 = 0) :
    (outsAt0 m c (n + 1) h).2 = fun y => (outsAt0 m c n (Nat.lt_of_succ_lt h)).2 y + addend m c (n + 1) := by
  by_cases h1 : (n + 1) % 100 = 99
  · rw [outsAt0_C m c ⟨n + 1, h⟩ h0 h1]
    dsimp only
    rw [sout_C, addend_of_lt m c (n + 1) h]
    rfl
  · rw [outsAt0_B m c ⟨n + 1, h⟩ h0 h1]
    dsimp only
    rw [sout_B, addend_of_lt m c (n + 1) h]
    rfl

/-- So after point `n` the accumulator holds the sum of the addends of its run's points up to `n`. -/
theorem scratch_eq (c : Dev nD) (n : ℕ) (h : n < cfg0.N) (y : S1x1.Idx) :
    (outsAt0 m c n h).2 y = ∑ s ∈ Finset.range (n % 100 + 1), addend m c (100 * (n / 100) + s) := by
  have hdm : 100 * (n / 100) + n % 100 < cfg0.N := by rw [Nat.div_add_mod]; exact h
  have e := Pipeline.eq_accAt_of_mod (N := cfg0.N) (fun n h => (outsAt0 m c n h).2) 100 (fun n _ => fun _ => addend m c n)
      (fun n _ acc => fun y => acc y + addend m c n) (fun n h h0 => scratch_reset m c n h h0)
      (fun n h h0 => scratch_step m c n h h0) (by norm_num) n h hdm
  rw [show (outsAt0 m c n h).2 y = Pipeline.accAt (N := cfg0.N) (fun n _ => fun _ => addend m c n)
      (fun n _ acc => fun y => acc y + addend m c n) (100 * (n / 100)) (n % 100) hdm y from congrFun e y]
  rw [Pipeline.accAt_add_apply (N := cfg0.N) _ _ (fun _ => (0 : EReal)) (fun n _ => addend m c n) (100 * (n / 100)) 99
      (fun _ _ => (zero_add _).symm) (fun _ _ _ _ _ _ => rfl) (n % 100) (by omega) hdm y, zero_add]

/-! ## The output array -/

/-- Core `q`'s run sum: the addends of points 100q .. 100q + 99. -/
def runSum (c : Dev nD) (q : ℕ) : EReal := ∑ s ∈ Finset.range 100, addend m c (100 * q + s)

/-- What the [16, 128] output array ends holding: core q's run sum at (8q, 0), zero elsewhere. -/
def outArr (c : Dev nD) : S16x128.Idx → EReal :=
  fun i => if (i 0).val % 8 = 0 ∧ (i 1).val = 0 then runSum m c ((i 0).val / 8) else 0

/-- The printed index maps over the grid: the output's block row is the core, the inputs' block row is the point. -/
theorem idx_facts : ∀ t : Fin cfg0.N, win0_2.index t (0 : Fin 2) = t.val / 100 ∧ win0_2.index t (1 : Fin 2) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What a run's last point writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 200 := N_0
  have h99 : t.val % 100 = 99 := (flush0_2 t).mp hf
  have h0 : ¬t.val % 100 = 0 := by omega
  have hlt : t.val < 200 := hN ▸ t.isLt
  show (cfg0.win 2).cut (grid0.coords t) ((dats m 0 c).after 2 t) = _
  rw [after0_2, outsAt0_C m c t h0 h99]
  dsimp only
  rw [out_C]
  obtain ⟨e0, e1, -⟩ := idx_facts t
  funext j
  have hj0 : (j 0).val < 8 := (j 0).isLt
  have hj1 : (j 1).val < 128 := (j 1).isLt
  show (if (j 0).val = 0 ∧ (j 1).val = 0 then _ else (0 : EReal)) = outArr m c (((cfg0.win 2).blk t).view.emb j)
  have hemb0 : ((((cfg0.win 2).blk t).view.emb j) 0).val = win0_2.index t (0 : Fin 2) * 8 + 1 * (j 0).val := rfl
  have hemb1 : ((((cfg0.win 2).blk t).view.emb j) 1).val = win0_2.index t (1 : Fin 2) * 128 + 1 * (j 1).val := rfl
  unfold outArr
  rw [hemb0, hemb1, e0, e1]
  by_cases hc : (j 0).val = 0 ∧ (j 1).val = 0
  · rw [if_pos hc, if_pos (by omega)]
    have hq : (t.val / 100 * 8 + 1 * (j 0).val) / 8 = t.val / 100 := by omega
    rw [hq, scratch_eq m c (t.val - 1) _ (ix2 0 0)]
    have hm : (t.val - 1) % 100 = 98 := by omega
    have hd : (t.val - 1) / 100 = t.val / 100 := by omega
    rw [hm, hd]
    unfold runSum
    have ht : 100 * (t.val / 100) + 99 = t.val := by omega
    rw [Finset.sum_range_succ _ 99, ht, addend_of_lt m c t.val t.isLt]
  · rw [if_neg hc, if_neg (by omega)]

/-- An index of the output array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The two runs' last points cover the array between them: rows 0..7 and rows 8..15. -/
theorem final (c : Dev nD) : (dats m 0 c).arrAt 2 cfg0.N = outArr m c := by
  have hN : cfg0.N = 200 := N_0
  refine (dats m 0 c).arrAt_eq_of_cover 2 (outArr m c) (flushed_eq m c) fun i => ?_
  have hi0 : (i 0).val < 16 := (i 0).isLt
  have hi1 : (i 1).val < 128 := (i 1).isLt
  let t : Fin cfg0.N := ⟨100 * ((i 0).val / 8) + 99, by omega⟩
  refine ⟨t, (flush0_2 t).mpr (by show (100 * ((i 0).val / 8) + 99) % 100 = 99; omega), ?_⟩
  rw [mem_blk]
  obtain ⟨e0, e1, -⟩ := idx_facts t
  have ht : t.val = 100 * ((i 0).val / 8) + 99 := rfl
  intro a
  match a with
  | ⟨0, _⟩ => show win0_2.index t (0 : Fin 2) * 8 ≤ (i 0).val ∧ (i 0).val < win0_2.index t (0 : Fin 2) * 8 + 8; rw [e0, ht]; omega
  | ⟨1, _⟩ => show win0_2.index t (1 : Fin 2) * 128 ≤ (i 1).val ∧ (i 1).val < win0_2.index t (1 : Fin 2) * 128 + 128; rw [e1]; omega

end Cert.KernelIdeal.Val

end
-- ==== Proof.LibSumBlocks.lean ====
/-
  Two re-indexings of finite sums, over any commutative monoid.

  A sum over the numbers below a·b is the sum over the a blocks of b consecutive numbers, block by block. And a
  [16, 128] array that is zero except at the entries (0, 0) and (8, 0) sums to those two entries.
-/
import Mathlib.Algebra.BigOperators.Fin
import Mathlib.Logic.Equiv.Fin.Basic
import Idealize.ShloMosaic.Lib.ValueIdx

namespace Cert.LibSumBlocks

open Idealize.ShloMosaic Idealize.ShloMosaic.ValueIdx

/-- The numbers below a·b, taken block by block: n = b·t + j with t < a and j < b. -/
theorem sum_fin_mul {M : Type*} [AddCommMonoid M] (a b : ℕ) (G : ℕ → M) :
    ∑ n : Fin (a * b), G n.val = ∑ t : Fin a, ∑ j : Fin b, G (b * t.val + j.val) := by
  rw [← Fintype.sum_prod_type' (f := fun (t : Fin a) (j : Fin b) => G (b * t.val + j.val)),
    ← Equiv.sum_comp finProdFinEquiv (fun n : Fin (a * b) => G n.val)]
  refine Finset.sum_congr rfl fun p _ => ?_
  show G (p.2.val + b * p.1.val) = G (b * p.1.val + p.2.val)
  rw [add_comm]

/-- An array over [16, 128] holding f (r / 8) at the entries (r, 0) with 8 ∣ r and zero elsewhere sums to f 0 + f 1. -/
theorem sum_corner {M : Type*} [AddCommMonoid M] (f : ℕ → M) :
    ∑ i : (⟨2, ![16, 128]⟩ : Shape).Idx, (if (i 0).val % 8 = 0 ∧ (i 1).val = 0 then f ((i 0).val / 8) else 0) = f 0 + f 1 := by
  rw [sum_idx2]
  have inner : ∀ a : Fin 16, ∑ b : Fin 128, (if ((ix2 a b : (⟨2, ![16, 128]⟩ : Shape).Idx) 0).val % 8 = 0 ∧ ((ix2 a b : (⟨2, ![16, 128]⟩ : Shape).Idx) 1).val = 0
        then f (((ix2 a b : (⟨2, ![16, 128]⟩ : Shape).Idx) 0).val / 8) else 0) = if a.val % 8 = 0 then f (a.val / 8) else 0 := by
    intro a
    show ∑ b : Fin 128, (if a.val % 8 = 0 ∧ b.val = 0 then f (a.val / 8) else 0) = _
    by_cases ha : a.val % 8 = 0
    · rw [if_pos ha, Finset.sum_eq_single (0 : Fin 128)]
      · rw [if_pos ⟨ha, rfl⟩]
      · intro b _ hb
        rw [if_neg]
        rintro ⟨-, h0⟩
        exact hb (Fin.ext h0)
      · intro h; exact absurd (Finset.mem_univ _) h
    · rw [if_neg ha]
      exact Finset.sum_eq_zero fun b _ => if_neg fun h => ha h.1
  rw [Finset.sum_congr rfl fun a _ => inner a]
  rw [Fin.sum_univ_eq_sum_range (fun a => if a % 8 = 0 then f (a / 8) else 0) 16]
  simp [Finset.sum_range_succ]

end Cert.LibSumBlocks
-- ==== Proof.KRun.lean ====
/-
  The kernel's result. After the region the host sums the [16, 128] output array from zero and divides by the constant
  4,000,000. The array holds the two cores' run sums and zeros, so its sum is the sum of all 200 points' addends; a point's
  addend is the sum of the pair losses over the 20,000 rows of its blocks, and point t's blocks are rows 20000t .. 20000t +
  19999 of the argument arrays: the total is the sum of the pair losses (in the kernel's order) over all 4,000,000 rows.
-/
import proofs.«411859_j51221779972847_3_alg».proof.Proof.KAcc
import proofs.«411859_j51221779972847_3_alg».proof.Proof.LibSumBlocks
import Idealize.ShloMosaic.Lib.ValueIdx
import Idealize.ShloMosaic.Lib.StableHlo.Run
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)
open Idealize.ShloMosaic.StableHlo (after)

variable (m : (ℓ : Loc nD τ sig) → Buf (Elt Ideal) ℓ) (ρ : Dev nD → PrngReg)

/-- The host operations after the region leave, in the result buffer, the output array's sum from zero over 4,000,000. -/
theorem tail_eq (c : Dev nD) :
    Pipeline.afterTail₀ cfgs (dats m) 0 (V0 m) [hostOps1] c main_v2
      = fun _ => Ideal.div (cZ + ∑ i : S16x128.Idx, outArr m c i) cN := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = outArr m c from
      (Pipeline.withArrays_arr spec0 launch0.win.arr_inj c _ _ 2).trans (final m c)]
  funext i
  simp only [Host.divf, Host.reduceAdd, constant, Ideal.hostDivf_def, Ideal.hostReduceAdd_def, Ideal.ofBits_def]
  rw [Ideal.hostReduceAdd_total reducesTo_S16x128_S_d0_1 (fun b => b.elim0)]

/-! ## A point's blocks are rows of the argument arrays -/

/-- Row `j` of point `t`'s block of the first argument is row 20000t + j of the array. -/
theorem blkRow_x (c : Dev nD) (t : Fin cfg0.N) (j : Fin 20000) (h : 20000 * t.val + j.val < 4000000) :
    blkRow (xb m c t) j = rowOf (m ((c.tc : Thread nD τ).loc main_arg0)) ⟨20000 * t.val + j.val, h⟩ := by
  obtain ⟨-, -, e0, e1, -, -⟩ := idx_facts t
  funext k
  unfold blkRow rowOf xb iblk
  rw [View.read_apply]
  show m ((c.tc : Thread nD τ).loc main_arg0) _ = m ((c.tc : Thread nD τ).loc main_arg0) _
  refine congrArg (m ((c.tc : Thread nD τ).loc main_arg0)) ?_
  funext a
  apply Fin.ext
  match a with
  | ⟨0, _⟩ => show win0_0.index t (0 : Fin 2) * 20000 + 1 * j.val = 20000 * t.val + j.val; rw [e0]; omega
  | ⟨1, _⟩ => show win0_0.index t (1 : Fin 2) * 9 + 1 * k.val = k.val; rw [e1]; omega

/-- The same for the second argument. -/
theorem blkRow_y (c : Dev nD) (t : Fin cfg0.N) (j : Fin 20000) (h : 20000 * t.val + j.val < 4000000) :
    blkRow (yb m c t) j = rowOf (m ((c.tc : Thread nD τ).loc main_arg1)) ⟨20000 * t.val + j.val, h⟩ := by
  obtain ⟨-, -, -, -, e0, e1⟩ := idx_facts t
  funext k
  unfold blkRow rowOf yb iblk
  rw [View.read_apply]
  show m ((c.tc : Thread nD τ).loc main_arg1) _ = m ((c.tc : Thread nD τ).loc main_arg1) _
  refine congrArg (m ((c.tc : Thread nD τ).loc main_arg1)) ?_
  funext a
  apply Fin.ext
  match a with
  | ⟨0, _⟩ => show win0_1.index t (0 : Fin 2) * 20000 + 1 * j.val = 20000 * t.val + j.val; rw [e0]; omega
  | ⟨1, _⟩ => show win0_1.index t (1 : Fin 2) * 9 + 1 * k.val = k.val; rw [e1]; omega

/-! ## The output array's sum is the sum over all rows -/

/-- The pair loss of row `n` of the two argument arrays (zero past the last row). -/
def rowLoss (c : Dev nD) (n : ℕ) : EReal :=
  if h : n < 4000000 then lossK (rowOf (m ((c.tc : Thread nD τ).loc main_arg0)) ⟨n, h⟩) (rowOf (m ((c.tc : Thread nD τ).loc main_arg1)) ⟨n, h⟩) else 0

/-- A point's addend is the sum of the row losses of its 20,000 rows. -/
theorem addend_eq (c : Dev nD) (t : Fin 200) : addend m c t.val = ∑ j : Fin 20000, rowLoss m c (20000 * t.val + j.val) := by
  have hN : cfg0.N = 200 := N_0
  have ht : t.val < cfg0.N := by rw [hN]; exact t.isLt
  rw [addend_of_lt m c t.val ht]
  unfold partialK
  refine Finset.sum_congr rfl fun j _ => ?_
  have hj : 20000 * t.val + j.val < 4000000 := by have := t.isLt; have := j.isLt; omega
  rw [blkRow_x m c ⟨t.val, ht⟩ j hj, blkRow_y m c ⟨t.val, ht⟩ j hj]
  unfold rowLoss
  rw [dif_pos hj]

/-- The output array sums to the sum of the pair losses over all rows. -/
theorem sum_outArr (c : Dev nD) :
    ∑ i : S16x128.Idx, outArr m c i
      = ∑ n : Fin 4000000, lossK (rowOf (m ((c.tc : Thread nD τ).loc main_arg0)) n) (rowOf (m ((c.tc : Thread nD τ).loc main_arg1)) n) := by
  have h1 : ∑ i : S16x128.Idx, outArr m c i = runSum m c 0 + runSum m c 1 := Cert.LibSumBlocks.sum_corner (runSum m c)
  have h2 : runSum m c 0 + runSum m c 1 = ∑ n ∈ Finset.range 200, addend m c n := by
    unfold runSum
    rw [show (200 : ℕ) = 100 + 100 from rfl, Finset.sum_range_add]
    simp only [Nat.mul_zero, Nat.zero_add, Nat.mul_one]
  have h3 : ∑ n ∈ Finset.range 200, addend m c n = ∑ t : Fin 200, ∑ j : Fin 20000, rowLoss m c (20000 * t.val + j.val) := by
    rw [Finset.sum_range]
    exact Finset.sum_congr rfl fun t _ => addend_eq m c t
  have h4 : ∑ t : Fin 200, ∑ j : Fin 20000, rowLoss m c (20000 * t.val + j.val) = ∑ n : Fin (200 * 20000), rowLoss m c n.val :=
    (Cert.LibSumBlocks.sum_fin_mul 200 20000 (rowLoss m c)).symm
  rw [h1, h2, h3, h4]
  show ∑ n : Fin 4000000, rowLoss m c n.val = _
  refine Finset.sum_congr rfl fun n _ => ?_
  unfold rowLoss
  rw [dif_pos n.isLt]

/-! ## The run -/

/-- Every weakly fair execution of the idealized kernel ends with the result at the total, in the kernel's order, of
    the launch's argument arrays, and the arguments unchanged. -/
theorem run : θ_run defs (onTc (τ := τ) (main (F := Ideal))) ⟨m, fun _ => 0, ρ⟩ fun r => ∀ c : Dev nD,
      r.2.mem ((c.tc : Thread nD τ).loc main_v2)
          = (fun _ => total lossK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans ((tail_eq m c).trans (by
          funext _
          unfold total
          rw [sum_outArr m c, show (cZ : EReal) = 0 from Ideal.ofBits_zero_f32, zero_add])),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.RefOps.lean ====
import proofs.«411859_j51221779972847_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Piece A: 41 operations. -/
abbrev opsA : List (HloOp τ sig (Elt F)) :=
  [ StableHlo.nullary main_cst (fun i => FloatOps.ofBits .f32 (lit0 (S4x2.rowMajor i))),
    StableHlo.unary main_arg0 main_v0 ((extractStridedSlice S4000000x7 ![0, 0] · slices_S4000000x9_S4000000x7_0_0) : (⟨S4000000x9, .f32⟩ : BufTy).Contents (Elt F) → (⟨S4000000x7, .f32⟩ : BufTy).Contents (Elt F)),
    StableHlo.unary main_arg1 main_v1 ((extractStridedSlice S4000000x7 ![0, 0] · slices_S4000000x9_S4000000x7_0_0) : (⟨S4000000x9, .f32⟩ : BufTy).Contents (Elt F) → (⟨S4000000x7, .f32⟩ : BufTy).Contents (Elt F)),
    StableHlo.unary main_v0 main_v2 ((extractStridedSlice S4000000x2 ![0, 0] · slices_S4000000x7_S4000000x2_0_0) : (⟨S4000000x7, .f32⟩ : BufTy).Contents (Elt F) → (⟨S4000000x2, .f32⟩ : BufTy).Contents (Elt F)),
    StableHlo.unary main_v0 main_v3 ((extractStridedSlice S4000000x2 ![0, 3] · slices_S4000000x7_S4000000x2_0_3) : (⟨S4000000x7, .f32⟩ : BufTy).Contents (Elt F) → (⟨S4000000x2, .f32⟩ : BufTy).Contents (Elt F)),
    StableHlo.unary main_v0 main_v4 ((extractStridedSlice S4000000x1 ![0, 6] · slices_S4000000x7_S4000000x1_0_6) : (⟨S4000000x7, .f32⟩ : BufTy).Contents (Elt F) → (⟨S4000000x1, .f32⟩ : BufTy).Contents (Elt F)),
    StableHlo.reshape main_v4 main_v5 rfl shapeCasts_S4000000x1_S4000000,
    StableHlo.unary main_v3 main_v6 (broadcastInDim S4000000x1x2 ![0, 2] bcast_S4000000x2_S4000000x1x2_0_2 : (⟨S4000000x2, .f32⟩ : BufTy).Contents (Elt F) → (⟨S4000000x1x2, .f32⟩ : BufTy).Contents (Elt F)),
    StableHlo.unary main_cst main_v7 (broadcastInDim S1x4x2 ![1, 2] bcast_S4x2_S1x4x2_1_2 : (⟨S4x2, .f32⟩ : BufTy).Contents (Elt F) → (⟨S1x4x2, .f32⟩ : BufTy).Contents (Elt F)),
    StableHlo.unary main_v6 main_v8 (broadcastInDim S4000000x4x2 ![0, 1, 2] bcast_S4000000x1x2_S4000000x4x2_0_1_2 : (⟨S4000000x1x2, .f32⟩ : BufTy).Contents (Elt F) → (⟨S4000000x4x2, .f32⟩ : BufTy).Contents (Elt F)),
    StableHlo.unary main_v7 main_v9 (broadcastInDim S4000000x4x2 ![0, 1, 2] bcast_S1x4x2_S4000000x4x2_0_1_2 : (⟨S1x4x2, .f32⟩ : BufTy).Contents (Elt F) → (⟨S4000000x4x2, .f32⟩ : BufTy).Contents (Elt F)),
    StableHlo.binary main_v8 main_v9 main_v10 (mulf : (⟨S4000000x4x2, .f32⟩ : BufTy).Contents (Elt F) → (⟨S4000000x4x2, .f32⟩ : BufTy).Contents (Elt F) → (⟨S4000000x4x2, .f32⟩ : BufTy).Contents (Elt F)),
    StableHlo.unary main_v5 main_v11 (Host.cos : (⟨S4000000, .f32⟩ : BufTy).Contents (Elt F) → (⟨S4000000, .f32⟩ : BufTy).Contents (Elt F)),
    StableHlo.unary main_v11 main_v12 (broadcastInDim S4000000x1 ![0] bcast_S4000000_S4000000x1_0 : (⟨S4000000, .f32⟩ : BufTy).Contents (Elt F) → (⟨S4000000x1, .f32⟩ : BufTy).Contents (Elt F)),
    StableHlo.unary main_v5 main_v13 (Host.sin : (⟨S4000000, .f32⟩ : BufTy).Contents (Elt F) → (⟨S4000000, .f32⟩ : BufTy).Contents (Elt F)),
    StableHlo.unary main_v13 main_v14 (broadcastInDim S4000000x1 ![0] bcast_S4000000_S4000000x1_0 : (⟨S4000000, .f32⟩ : BufTy).Contents (Elt F) → (⟨S4000000x1, .f32⟩ : BufTy).Contents (Elt F)),
    StableHlo.unary main_v10 main_v15 ((extractStridedSlice S4000000x4x1 ![0, 0, 0] · slices_S4000000x4x2_S4000000x4x1_0_0_0) : (⟨S4000000x4x2, .f32⟩ : BufTy).Contents (Elt F) → (⟨S4000000x4x1, .f32⟩ : BufTy).Contents (Elt F)),
    StableHlo.reshape main_v15 main_v16 rfl shapeCasts_S4000000x4x1_S4000000x4,
    StableHlo.unary main_v12 main_v17 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v16 main_v17 main_v18 (mulf : (⟨S4000000x4, .f32⟩ : BufTy).Contents (Elt F) → (⟨S4000000x4, .f32⟩ : BufTy).Contents (Elt F) → (⟨S4000000x4, .f32⟩ : BufTy).Contents (Elt F)),
    StableHlo.unary main_v10 main_v19 ((extractStridedSlice S4000000x4x1 ![0, 0, 1] · slices_S4000000x4x2_S4000000x4x1_0_0_1) : (⟨S4000000x4x2, .f32⟩ : BufTy).Contents (Elt F) → (⟨S4000000x4x1, .f32⟩ : BufTy).Contents (Elt F)),
    StableHlo.reshape main_v19 main_v20 rfl shapeCasts_S4000000x4x1_S4000000x4,
    StableHlo.unary main_v14 main_v21 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v20 main_v21 main_v22 (mulf : (⟨S4000000x4, .f32⟩ : BufTy).Contents (Elt F) → (⟨S4000000x4, .f32⟩ : BufTy).Contents (Elt F) → (⟨S4000000x4, .f32⟩ : BufTy).Contents (Elt F)),
    StableHlo.binary main_v18 main_v22 main_v23 (addf : (⟨S4000000x4, .f32⟩ : BufTy).Contents (Elt F) → (⟨S4000000x4, .f32⟩ : BufTy).Contents (Elt F) → (⟨S4000000x4, .f32⟩ : BufTy).Contents (Elt F)),
    StableHlo.unary main_v10 main_v24 ((extractStridedSlice S4000000x4x1 ![0, 0, 0] · slices_S4000000x4x2_S4000000x4x1_0_0_0) : (⟨S4000000x4x2, .f32⟩ : BufTy).Contents (Elt F) → (⟨S4000000x4x1, .f32⟩ : BufTy).Contents (Elt F)),
    StableHlo.reshape main_v24 main_v25 rfl shapeCasts_S4000000x4x1_S4000000x4,
    StableHlo.unary main_v25 main_v26 (Host.negf : (⟨S4000000x4, .f32⟩ : BufTy).Contents (Elt F) → (⟨S4000000x4, .f32⟩ : BufTy).Contents (Elt F)),
    StableHlo.unary main_v14 main_v27 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v26 main_v27 main_v28 (mulf : (⟨S4000000x4, .f32⟩ : BufTy).Contents (Elt F) → (⟨S4000000x4, .f32⟩ : BufTy).Contents (Elt F) → (⟨S4000000x4, .f32⟩ : BufTy).Contents (Elt F)),
    StableHlo.unary main_v10 main_v29 ((extractStridedSlice S4000000x4x1 ![0, 0, 1] · slices_S4000000x4x2_S4000000x4x1_0_0_1) : (⟨S4000000x4x2, .f32⟩ : BufTy).Contents (Elt F) → (⟨S4000000x4x1, .f32⟩ : BufTy).Contents (Elt F)),
    StableHlo.reshape main_v29 main_v30 rfl shapeCasts_S4000000x4x1_S4000000x4,
    StableHlo.unary main_v12 main_v31 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v30 main_v31 main_v32 (mulf : (⟨S4000000x4, .f32⟩ : BufTy).Contents (Elt F) → (⟨S4000000x4, .f32⟩ : BufTy).Contents (Elt F) → (⟨S4000000x4, .f32⟩ : BufTy).Contents (Elt F)),
    StableHlo.binary main_v28 main_v32 main_v33 (addf : (⟨S4000000x4, .f32⟩ : BufTy).Contents (Elt F) → (⟨S4000000x4, .f32⟩ : BufTy).Contents (Elt F) → (⟨S4000000x4, .f32⟩ : BufTy).Contents (Elt F)),
    StableHlo.unary main_v23 main_v34 (broadcastInDim S4000000x4x1 ![0, 1] bcast_S4000000x4_S4000000x4x1_0_1 : (⟨S4000000x4, .f32⟩ : BufTy).Contents (Elt F) → (⟨S4000000x4x1, .f32⟩ : BufTy).Contents (Elt F)),
    StableHlo.unary main_v33 main_v35 (broadcastInDim S4000000x4x1 ![0, 1] bcast_S4000000x4_S4000000x4x1_0_1 : (⟨S4000000x4, .f32⟩ : BufTy).Contents (Elt F) → (⟨S4000000x4x1, .f32⟩ : BufTy).Contents (Elt F)),
    StableHlo.binary main_v34 main_v35 main_v36 ((fun a b => concatenate S4000000x4x2 2 [⟨S4000000x4x1, a⟩, ⟨S4000000x4x1, b⟩] concatenates_S4000000x4x1_S4000000x4x1_S4000000x4x2_d2) : (⟨S4000000x4x1, .f32⟩ : BufTy).Contents (Elt F) → (⟨S4000000x4x1, .f32⟩ : BufTy).Contents (Elt F) → (⟨S4000000x4x2, .f32⟩ : BufTy).Contents (Elt F)),
    StableHlo.unary main_v2 main_v37 (broadcastInDim S4000000x1x2 ![0, 2] bcast_S4000000x2_S4000000x1x2_0_2 : (⟨S4000000x2, .f32⟩ : BufTy).Contents (Elt F) → (⟨S4000000x1x2, .f32⟩ : BufTy).Contents (Elt F)),
    StableHlo.unary main_v37 main_v38 (broadcastInDim S4000000x4x2 ![0, 1, 2] bcast_S4000000x1x2_S4000000x4x2_0_1_2 : (⟨S4000000x1x2, .f32⟩ : BufTy).Contents (Elt F) → (⟨S4000000x4x2, .f32⟩ : BufTy).Contents (Elt F)),
    StableHlo.binary main_v36 main_v38 main_v39 (addf : (⟨S4000000x4x2, .f32⟩ : BufTy).Contents (Elt F) → (⟨S4000000x4x2, .f32⟩ : BufTy).Contents (Elt F) → (⟨S4000000x4x2, .f32⟩ : BufTy).Contents (Elt F)) ]
set_option maxRecDepth 8192 in
theorem opsA_sub : (opsA : List (HloOp τ sig (Elt F))).Forall fun op => op.bufs ⊆ tcRefs τ sig :=
  ⟨nullary_bufs_sub .., unary_bufs_sub .., unary_bufs_sub .., unary_bufs_sub .., unary_bufs_sub .., unary_bufs_sub .., reshape_bufs_sub .., unary_bufs_sub .., unary_bufs_sub .., unary_bufs_sub .., unary_bufs_sub .., binary_bufs_sub .., unary_bufs_sub .., unary_bufs_sub .., unary_bufs_sub .., unary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., unary_bufs_sub .., binary_bufs_sub .., unary_bufs_sub .., unary_bufs_sub .., binary_bufs_sub ..⟩

/-- Piece B1: 19 operations. -/
abbrev opsB1 : List (HloOp τ sig (Elt F)) :=
  [ StableHlo.unary main_v1 main_v40 ((extractStridedSlice S4000000x2 ![0, 0] · slices_S4000000x7_S4000000x2_0_0) : (⟨S4000000x7, .f32⟩ : BufTy).Contents (Elt F) → (⟨S4000000x2, .f32⟩ : BufTy).Contents (Elt F)),
    StableHlo.unary main_v1 main_v41 ((extractStridedSlice S4000000x2 ![0, 3] · slices_S4000000x7_S4000000x2_0_3) : (⟨S4000000x7, .f32⟩ : BufTy).Contents (Elt F) → (⟨S4000000x2, .f32⟩ : BufTy).Contents (Elt F)),
    StableHlo.unary main_v1 main_v42 ((extractStridedSlice S4000000x1 ![0, 6] · slices_S4000000x7_S4000000x1_0_6) : (⟨S4000000x7, .f32⟩ : BufTy).Contents (Elt F) → (⟨S4000000x1, .f32⟩ : BufTy).Contents (Elt F)),
    StableHlo.reshape main_v42 main_v43 rfl shapeCasts_S4000000x1_S4000000,
    StableHlo.unary main_v41 main_v44 (broadcastInDim S4000000x1x2 ![0, 2] bcast_S4000000x2_S4000000x1x2_0_2 : (⟨S4000000x2, .f32⟩ : BufTy).Contents (Elt F) → (⟨S4000000x1x2, .f32⟩ : BufTy).Contents (Elt F)),
    StableHlo.unary main_cst main_v45 (broadcastInDim S1x4x2 ![1, 2] bcast_S4x2_S1x4x2_1_2 : (⟨S4x2, .f32⟩ : BufTy).Contents (Elt F) → (⟨S1x4x2, .f32⟩ : BufTy).Contents (Elt F)),
    StableHlo.unary main_v44 main_v46 (broadcastInDim S4000000x4x2 ![0, 1, 2] bcast_S4000000x1x2_S4000000x4x2_0_1_2 : (⟨S4000000x1x2, .f32⟩ : BufTy).Contents (Elt F) → (⟨S4000000x4x2, .f32⟩ : BufTy).Contents (Elt F)),
    StableHlo.unary main_v45 main_v47 (broadcastInDim S4000000x4x2 ![0, 1, 2] bcast_S1x4x2_S4000000x4x2_0_1_2 : (⟨S1x4x2, .f32⟩ : BufTy).Contents (Elt F) → (⟨S4000000x4x2, .f32⟩ : BufTy).Contents (Elt F)),
    StableHlo.binary main_v46 main_v47 main_v48 (mulf : (⟨S4000000x4x2, .f32⟩ : BufTy).Contents (Elt F) → (⟨S4000000x4x2, .f32⟩ : BufTy).Contents (Elt F) → (⟨S4000000x4x2, .f32⟩ : BufTy).Contents (Elt F)),
    StableHlo.unary main_v43 main_v49 (Host.cos : (⟨S4000000, .f32⟩ : BufTy).Contents (Elt F) → (⟨S4000000, .f32⟩ : BufTy).Contents (Elt F)),
    StableHlo.unary main_v49 main_v50 (broadcastInDim S4000000x1 ![0] bcast_S4000000_S4000000x1_0 : (⟨S4000000, .f32⟩ : BufTy).Contents (Elt F) → (⟨S4000000x1, .f32⟩ : BufTy).Contents (Elt F)),
    StableHlo.unary main_v43 main_v51 (Host.sin : (⟨S4000000, .f32⟩ : BufTy).Contents (Elt F) → (⟨S4000000, .f32⟩ : BufTy).Contents (Elt F)),
    StableHlo.unary main_v51 main_v52 (broadcastInDim S4000000x1 ![0] bcast_S4000000_S4000000x1_0 : (⟨S4000000, .f32⟩ : BufTy).Contents (Elt F) → (⟨S4000000x1, .f32⟩ : BufTy).Contents (Elt F)),
    StableHlo.unary main_v48 main_v53 ((extractStridedSlice S4000000x4x1 ![0, 0, 0] · slices_S4000000x4x2_S4000000x4x1_0_0_0) : (⟨S4000000x4x2, .f32⟩ : BufTy).Contents (Elt F) → (⟨S4000000x4x1, .f32⟩ : BufTy).Contents (Elt F)),
    StableHlo.reshape main_v53 main_v54 rfl shapeCasts_S4000000x4x1_S4000000x4,
    StableHlo.unary main_v50 main_v55 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v54 main_v55 main_v56 (mulf : (⟨S4000000x4, .f32⟩ : BufTy).Contents (Elt F) → (⟨S4000000x4, .f32⟩ : BufTy).Contents (Elt F) → (⟨S4000000x4, .f32⟩ : BufTy).Contents (Elt F)),
    StableHlo.unary main_v48 main_v57 ((extractStridedSlice S4000000x4x1 ![0, 0, 1] · slices_S4000000x4x2_S4000000x4x1_0_0_1) : (⟨S4000000x4x2, .f32⟩ : BufTy).Contents (Elt F) → (⟨S4000000x4x1, .f32⟩ : BufTy).Contents (Elt F)),
    StableHlo.reshape main_v57 main_v58 rfl shapeCasts_S4000000x4x1_S4000000x4 ]
set_option maxRecDepth 8192 in
theorem opsB1_sub : (opsB1 : List (HloOp τ sig (Elt F))).Forall fun op => op.bufs ⊆ tcRefs τ sig :=
  ⟨unary_bufs_sub .., unary_bufs_sub .., unary_bufs_sub .., reshape_bufs_sub .., unary_bufs_sub .., unary_bufs_sub .., unary_bufs_sub .., unary_bufs_sub .., binary_bufs_sub .., unary_bufs_sub .., unary_bufs_sub .., unary_bufs_sub .., unary_bufs_sub .., unary_bufs_sub .., reshape_bufs_sub .., unary_bufs_sub .., binary_bufs_sub .., unary_bufs_sub .., reshape_bufs_sub ..⟩

/-- Piece B2: 19 operations. -/
abbrev opsB2 : List (HloOp τ sig (Elt F)) :=
  [ StableHlo.unary main_v52 main_v59 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v58 main_v59 main_v60 (mulf : (⟨S4000000x4, .f32⟩ : BufTy).Contents (Elt F) → (⟨S4000000x4, .f32⟩ : BufTy).Contents (Elt F) → (⟨S4000000x4, .f32⟩ : BufTy).Contents (Elt F)),
    StableHlo.binary main_v56 main_v60 main_v61 (addf : (⟨S4000000x4, .f32⟩ : BufTy).Contents (Elt F) → (⟨S4000000x4, .f32⟩ : BufTy).Contents (Elt F) → (⟨S4000000x4, .f32⟩ : BufTy).Contents (Elt F)),
    StableHlo.unary main_v48 main_v62 ((extractStridedSlice S4000000x4x1 ![0, 0, 0] · slices_S4000000x4x2_S4000000x4x1_0_0_0) : (⟨S4000000x4x2, .f32⟩ : BufTy).Contents (Elt F) → (⟨S4000000x4x1, .f32⟩ : BufTy).Contents (Elt F)),
    StableHlo.reshape main_v62 main_v63 rfl shapeCasts_S4000000x4x1_S4000000x4,
    StableHlo.unary main_v63 main_v64 (Host.negf : (⟨S4000000x4, .f32⟩ : BufTy).Contents (Elt F) → (⟨S4000000x4, .f32⟩ : BufTy).Contents (Elt F)),
    StableHlo.unary main_v52 main_v65 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v64 main_v65 main_v66 (mulf : (⟨S4000000x4, .f32⟩ : BufTy).Contents (Elt F) → (⟨S4000000x4, .f32⟩ : BufTy).Contents (Elt F) → (⟨S4000000x4, .f32⟩ : BufTy).Contents (Elt F)),
    StableHlo.unary main_v48 main_v67 ((extractStridedSlice S4000000x4x1 ![0, 0, 1] · slices_S4000000x4x2_S4000000x4x1_0_0_1) : (⟨S4000000x4x2, .f32⟩ : BufTy).Contents (Elt F) → (⟨S4000000x4x1, .f32⟩ : BufTy).Contents (Elt F)),
    StableHlo.reshape main_v67 main_v68 rfl shapeCasts_S4000000x4x1_S4000000x4,
    StableHlo.unary main_v50 main_v69 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v68 main_v69 main_v70 (mulf : (⟨S4000000x4, .f32⟩ : BufTy).Contents (Elt F) → (⟨S4000000x4, .f32⟩ : BufTy).Contents (Elt F) → (⟨S4000000x4, .f32⟩ : BufTy).Contents (Elt F)),
    StableHlo.binary main_v66 main_v70 main_v71 (addf : (⟨S4000000x4, .f32⟩ : BufTy).Contents (Elt F) → (⟨S4000000x4, .f32⟩ : BufTy).Contents (Elt F) → (⟨S4000000x4, .f32⟩ : BufTy).Contents (Elt F)),
    StableHlo.unary main_v61 main_v72 (broadcastInDim S4000000x4x1 ![0, 1] bcast_S4000000x4_S4000000x4x1_0_1 : (⟨S4000000x4, .f32⟩ : BufTy).Contents (Elt F) → (⟨S4000000x4x1, .f32⟩ : BufTy).Contents (Elt F)),
    StableHlo.unary main_v71 main_v73 (broadcastInDim S4000000x4x1 ![0, 1] bcast_S4000000x4_S4000000x4x1_0_1 : (⟨S4000000x4, .f32⟩ : BufTy).Contents (Elt F) → (⟨S4000000x4x1, .f32⟩ : BufTy).Contents (Elt F)),
    StableHlo.binary main_v72 main_v73 main_v74 ((fun a b => concatenate S4000000x4x2 2 [⟨S4000000x4x1, a⟩, ⟨S4000000x4x1, b⟩] concatenates_S4000000x4x1_S4000000x4x1_S4000000x4x2_d2) : (⟨S4000000x4x1, .f32⟩ : BufTy).Contents (Elt F) → (⟨S4000000x4x1, .f32⟩ : BufTy).Contents (Elt F) → (⟨S4000000x4x2, .f32⟩ : BufTy).Contents (Elt F)),
    StableHlo.unary main_v40 main_v75 (broadcastInDim S4000000x1x2 ![0, 2] bcast_S4000000x2_S4000000x1x2_0_2 : (⟨S4000000x2, .f32⟩ : BufTy).Contents (Elt F) → (⟨S4000000x1x2, .f32⟩ : BufTy).Contents (Elt F)),
    StableHlo.unary main_v75 main_v76 (broadcastInDim S4000000x4x2 ![0, 1, 2] bcast_S4000000x1x2_S4000000x4x2_0_1_2 : (⟨S4000000x1x2, .f32⟩ : BufTy).Contents (Elt F) → (⟨S4000000x4x2, .f32⟩ : BufTy).Contents (Elt F)),
    StableHlo.binary main_v74 main_v76 main_v77 (addf : (⟨S4000000x4x2, .f32⟩ : BufTy).Contents (Elt F) → (⟨S4000000x4x2, .f32⟩ : BufTy).Contents (Elt F) → (⟨S4000000x4x2, .f32⟩ : BufTy).Contents (Elt F)) ]
set_option maxRecDepth 8192 in
theorem opsB2_sub : (opsB2 : List (HloOp τ sig (Elt F))).Forall fun op => op.bufs ⊆ tcRefs τ sig :=
  ⟨unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., binary_bufs_sub .., unary_bufs_sub .., unary_bufs_sub .., binary_bufs_sub .., unary_bufs_sub .., unary_bufs_sub .., binary_bufs_sub ..⟩

/-- Piece C: 20 operations. -/
abbrev opsC : List (HloOp τ sig (Elt F)) :=
  [ StableHlo.unary main_v39 main_v78 ((extractStridedSlice S4000000x1x2 ![0, 2, 0] · slices_S4000000x4x2_S4000000x1x2_0_2_0) : (⟨S4000000x4x2, .f32⟩ : BufTy).Contents (Elt F) → (⟨S4000000x1x2, .f32⟩ : BufTy).Contents (Elt F)),
    StableHlo.reshape main_v78 main_v79 rfl shapeCasts_S4000000x1x2_S4000000x2,
    StableHlo.unary main_v77 main_v80 ((extractStridedSlice S4000000x1x2 ![0, 2, 0] · slices_S4000000x4x2_S4000000x1x2_0_2_0) : (⟨S4000000x4x2, .f32⟩ : BufTy).Contents (Elt F) → (⟨S4000000x1x2, .f32⟩ : BufTy).Contents (Elt F)),
    StableHlo.reshape main_v80 main_v81 rfl shapeCasts_S4000000x1x2_S4000000x2,
    StableHlo.binary main_v79 main_v81 main_v82 (minimumf : (⟨S4000000x2, .f32⟩ : BufTy).Contents (Elt F) → (⟨S4000000x2, .f32⟩ : BufTy).Contents (Elt F) → (⟨S4000000x2, .f32⟩ : BufTy).Contents (Elt F)),
    StableHlo.unary main_v39 main_v83 ((extractStridedSlice S4000000x1x2 ![0, 0, 0] · slices_S4000000x4x2_S4000000x1x2_0_0_0) : (⟨S4000000x4x2, .f32⟩ : BufTy).Contents (Elt F) → (⟨S4000000x1x2, .f32⟩ : BufTy).Contents (Elt F)),
    StableHlo.reshape main_v83 main_v84 rfl shapeCasts_S4000000x1x2_S4000000x2,
    StableHlo.unary main_v77 main_v85 ((extractStridedSlice S4000000x1x2 ![0, 0, 0] · slices_S4000000x4x2_S4000000x1x2_0_0_0) : (⟨S4000000x4x2, .f32⟩ : BufTy).Contents (Elt F) → (⟨S4000000x1x2, .f32⟩ : BufTy).Contents (Elt F)),
    StableHlo.reshape main_v85 main_v86 rfl shapeCasts_S4000000x1x2_S4000000x2,
    StableHlo.binary main_v84 main_v86 main_v87 (maximumf : (⟨S4000000x2, .f32⟩ : BufTy).Contents (Elt F) → (⟨S4000000x2, .f32⟩ : BufTy).Contents (Elt F) → (⟨S4000000x2, .f32⟩ : BufTy).Contents (Elt F)),
    StableHlo.unary main_v39 main_v88 ((extractStridedSlice S4000000x1x2 ![0, 2, 0] · slices_S4000000x4x2_S4000000x1x2_0_2_0) : (⟨S4000000x4x2, .f32⟩ : BufTy).Contents (Elt F) → (⟨S4000000x1x2, .f32⟩ : BufTy).Contents (Elt F)),
    StableHlo.reshape main_v88 main_v89 rfl shapeCasts_S4000000x1x2_S4000000x2,
    StableHlo.unary main_v77 main_v90 ((extractStridedSlice S4000000x1x2 ![0, 2, 0] · slices_S4000000x4x2_S4000000x1x2_0_2_0) : (⟨S4000000x4x2, .f32⟩ : BufTy).Contents (Elt F) → (⟨S4000000x1x2, .f32⟩ : BufTy).Contents (Elt F)),
    StableHlo.reshape main_v90 main_v91 rfl shapeCasts_S4000000x1x2_S4000000x2,
    StableHlo.binary main_v89 main_v91 main_v92 (maximumf : (⟨S4000000x2, .f32⟩ : BufTy).Contents (Elt F) → (⟨S4000000x2, .f32⟩ : BufTy).Contents (Elt F) → (⟨S4000000x2, .f32⟩ : BufTy).Contents (Elt F)),
    StableHlo.unary main_v39 main_v93 ((extractStridedSlice S4000000x1x2 ![0, 0, 0] · slices_S4000000x4x2_S4000000x1x2_0_0_0) : (⟨S4000000x4x2, .f32⟩ : BufTy).Contents (Elt F) → (⟨S4000000x1x2, .f32⟩ : BufTy).Contents (Elt F)),
    StableHlo.reshape main_v93 main_v94 rfl shapeCasts_S4000000x1x2_S4000000x2,
    StableHlo.unary main_v77 main_v95 ((extractStridedSlice S4000000x1x2 ![0, 0, 0] · slices_S4000000x4x2_S4000000x1x2_0_0_0) : (⟨S4000000x4x2, .f32⟩ : BufTy).Contents (Elt F) → (⟨S4000000x1x2, .f32⟩ : BufTy).Contents (Elt F)),
    StableHlo.reshape main_v95 main_v96 rfl shapeCasts_S4000000x1x2_S4000000x2,
    StableHlo.binary main_v94 main_v96 main_v97 (minimumf : (⟨S4000000x2, .f32⟩ : BufTy).Contents (Elt F) → (⟨S4000000x2, .f32⟩ : BufTy).Contents (Elt F) → (⟨S4000000x2, .f32⟩ : BufTy).Contents (Elt F)) ]
set_option maxRecDepth 8192 in
theorem opsC_sub : (opsC : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩

/-- Piece D: 21 operations. -/
abbrev opsD : List (HloOp τ sig (Elt F)) :=
  [ StableHlo.unary main_v0 main_v98 ((extractStridedSlice S4000000x1 ![0, 3] · slices_S4000000x7_S4000000x1_0_3) : (⟨S4000000x7, .f32⟩ : BufTy).Contents (Elt F) → (⟨S4000000x1, .f32⟩ : BufTy).Contents (Elt F)),
    StableHlo.reshape main_v98 main_v99 rfl shapeCasts_S4000000x1_S4000000,
    StableHlo.unary main_v0 main_v100 ((extractStridedSlice S4000000x1 ![0, 4] · slices_S4000000x7_S4000000x1_0_4) : (⟨S4000000x7, .f32⟩ : BufTy).Contents (Elt F) → (⟨S4000000x1, .f32⟩ : BufTy).Contents (Elt F)),
    StableHlo.reshape main_v100 main_v101 rfl shapeCasts_S4000000x1_S4000000,
    StableHlo.binary main_v99 main_v101 main_v102 (mulf : (⟨S4000000, .f32⟩ : BufTy).Contents (Elt F) → (⟨S4000000, .f32⟩ : BufTy).Contents (Elt F) → (⟨S4000000, .f32⟩ : BufTy).Contents (Elt F)),
    StableHlo.unary main_v0 main_v103 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v103 main_v104 rfl shapeCasts_S4000000x1_S4000000,
    StableHlo.binary main_v102 main_v104 main_v105 (mulf : (⟨S4000000, .f32⟩ : BufTy).Contents (Elt F) → (⟨S4000000, .f32⟩ : BufTy).Contents (Elt F) → (⟨S4000000, .f32⟩ : BufTy).Contents (Elt F)),
    StableHlo.unary main_v1 main_v106 ((extractStridedSlice S4000000x1 ![0, 3] · slices_S4000000x7_S4000000x1_0_3) : (⟨S4000000x7, .f32⟩ : BufTy).Contents (Elt F) → (⟨S4000000x1, .f32⟩ : BufTy).Contents (Elt F)),
    StableHlo.reshape main_v106 main_v107 rfl shapeCasts_S4000000x1_S4000000,
    StableHlo.unary main_v1 main_v108 ((extractStridedSlice S4000000x1 ![0, 4] · slices_S4000000x7_S4000000x1_0_4) : (⟨S4000000x7, .f32⟩ : BufTy).Contents (Elt F) → (⟨S4000000x1, .f32⟩ : BufTy).Contents (Elt F)),
    StableHlo.reshape main_v108 main_v109 rfl shapeCasts_S4000000x1_S4000000,
    StableHlo.binary main_v107 main_v109 main_v110 (mulf : (⟨S4000000, .f32⟩ : BufTy).Contents (Elt F) → (⟨S4000000, .f32⟩ : BufTy).Contents (Elt F) → (⟨S4000000, .f32⟩ : BufTy).Contents (Elt F)),
    StableHlo.unary main_v1 main_v111 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v111 main_v112 rfl shapeCasts_S4000000x1_S4000000,
    StableHlo.binary main_v110 main_v112 main_v113 (mulf : (⟨S4000000, .f32⟩ : BufTy).Contents (Elt F) → (⟨S4000000, .f32⟩ : BufTy).Contents (Elt F) → (⟨S4000000, .f32⟩ : BufTy).Contents (Elt F)),
    StableHlo.binary main_v82 main_v87 main_v114 (subf : (⟨S4000000x2, .f32⟩ : BufTy).Contents (Elt F) → (⟨S4000000x2, .f32⟩ : BufTy).Contents (Elt F) → (⟨S4000000x2, .f32⟩ : BufTy).Contents (Elt F)),
    StableHlo.nullary main_cst_0 (constant S_ .f32 0x00000000#32),
    StableHlo.TRef.unary (.of main_cst_0) main_call0.v0 id,
    StableHlo.TRef.unary main_call0.v0 main_call0.v1 (broadcastInDim S4000000x2 ![] bcast_S_S4000000x2),
    StableHlo.TRef.binary main_call0.v1 (.of main_v114) main_call0.v2 maximumf ]
set_option maxRecDepth 8192 in
theorem opsD_sub : (opsD : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., binary_bufs_sub .., nullary_bufs_sub .., unary_bufs_sub .., unary_bufs_sub .., binary_bufs_sub ..⟩

/-- Piece E1: 2 operations. -/
abbrev opsE1 : List (HloOp τ sig (Elt F)) :=
  [ StableHlo.unary main_v0 main_v116 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v116 main_v117 rfl shapeCasts_S4000000x1_S4000000 ]
set_option maxRecDepth 8192 in
theorem opsE1_sub : (opsE1 : List (HloOp τ sig (Elt F))).Forall fun op => op.bufs ⊆ tcRefs τ sig :=
  ⟨unary_bufs_sub .., reshape_bufs_sub ..⟩

/-- Piece E2: 37 operations. -/
abbrev opsE2 : List (HloOp τ sig (Elt F)) :=
  [ StableHlo.unary main_v0 main_v118 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v118 main_v119 rfl shapeCasts_S4000000x1_S4000000,
    StableHlo.nullary main_cst_1 (constant S_ .f32 0x3F000000#32),
    StableHlo.unary main_cst_1 main_v120 (broadcastInDim S4000000 ![] bcast_S_S4000000 : (⟨S_, .f32⟩ : BufTy).Contents (Elt F) → (⟨S4000000, .f32⟩ : BufTy).Contents (Elt F)),
    StableHlo.binary main_v120 main_v119 main_v121 (mulf : (⟨S4000000, .f32⟩ : BufTy).Contents (Elt F) → (⟨S4000000, .f32⟩ : BufTy).Contents (Elt F) → (⟨S4000000, .f32⟩ : BufTy).Contents (Elt F)),
    StableHlo.binary main_v117 main_v121 main_v122 (addf : (⟨S4000000, .f32⟩ : BufTy).Contents (Elt F) → (⟨S4000000, .f32⟩ : BufTy).Contents (Elt F) → (⟨S4000000, .f32⟩ : BufTy).Contents (Elt F)),
    StableHlo.unary main_v1 main_v123 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v123 main_v124 rfl shapeCasts_S4000000x1_S4000000,
    StableHlo.unary main_v1 main_v125 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v125 main_v126 rfl shapeCasts_S4000000x1_S4000000,
    StableHlo.nullary main_cst_2 (constant S_ .f32 0x3F000000#32),
    StableHlo.unary main_cst_2 main_v127 (broadcastInDim S4000000 ![] bcast_S_S4000000 : (⟨S_, .f32⟩ : BufTy).Contents (Elt F) → (⟨S4000000, .f32⟩ : BufTy).Contents (Elt F)),
    StableHlo.binary main_v127 main_v126 main_v128 (mulf : (⟨S4000000, .f32⟩ : BufTy).Contents (Elt F) → (⟨S4000000, .f32⟩ : BufTy).Contents (Elt F) → (⟨S4000000, .f32⟩ : BufTy).Contents (Elt F)),
    StableHlo.binary main_v124 main_v128 main_v129 (addf : (⟨S4000000, .f32⟩ : BufTy).Contents (Elt F) → (⟨S4000000, .f32⟩ : BufTy).Contents (Elt F) → (⟨S4000000, .f32⟩ : BufTy).Contents (Elt F)),
    StableHlo.binary main_v122 main_v129 main_v130 (minimumf : (⟨S4000000, .f32⟩ : BufTy).Contents (Elt F) → (⟨S4000000, .f32⟩ : BufTy).Contents (Elt F) → (⟨S4000000, .f32⟩ : BufTy).Contents (Elt F)),
    StableHlo.unary main_v0 main_v131 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v131 main_v132 rfl shapeCasts_S4000000x1_S4000000,
    StableHlo.unary main_v0 main_v133 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v133 main_v134 rfl shapeCasts_S4000000x1_S4000000,
    StableHlo.nullary main_cst_3 (constant S_ .f32 0x3F000000#32),
    StableHlo.unary main_cst_3 main_v135 (broadcastInDim S4000000 ![] bcast_S_S4000000 : (⟨S_, .f32⟩ : BufTy).Contents (Elt F) → (⟨S4000000, .f32⟩ : BufTy).Contents (Elt F)),
    StableHlo.binary main_v135 main_v134 main_v136 (mulf : (⟨S4000000, .f32⟩ : BufTy).Contents (Elt F) → (⟨S4000000, .f32⟩ : BufTy).Contents (Elt F) → (⟨S4000000, .f32⟩ : BufTy).Contents (Elt F)),
    StableHlo.binary main_v132 main_v136 main_v137 (subf : (⟨S4000000, .f32⟩ : BufTy).Contents (Elt F) → (⟨S4000000, .f32⟩ : BufTy).Contents (Elt F) → (⟨S4000000, .f32⟩ : BufTy).Contents (Elt F)),
    StableHlo.unary main_v1 main_v138 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v138 main_v139 rfl shapeCasts_S4000000x1_S4000000,
    StableHlo.unary main_v1 main_v140 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v140 main_v141 rfl shapeCasts_S4000000x1_S4000000,
    StableHlo.nullary main_cst_4 (constant S_ .f32 0x3F000000#32),
    StableHlo.unary main_cst_4 main_v142 (broadcastInDim S4000000 ![] bcast_S_S4000000 : (⟨S_, .f32⟩ : BufTy).Contents (Elt F) → (⟨S4000000, .f32⟩ : BufTy).Contents (Elt F)),
    StableHlo.binary main_v142 main_v141 main_v143 (mulf : (⟨S4000000, .f32⟩ : BufTy).Contents (Elt F) → (⟨S4000000, .f32⟩ : BufTy).Contents (Elt F) → (⟨S4000000, .f32⟩ : BufTy).Contents (Elt F)),
    StableHlo.binary main_v139 main_v143 main_v144 (subf : (⟨S4000000, .f32⟩ : BufTy).Contents (Elt F) → (⟨S4000000, .f32⟩ : BufTy).Contents (Elt F) → (⟨S4000000, .f32⟩ : BufTy).Contents (Elt F)),
    StableHlo.binary main_v137 main_v144 main_v145 (maximumf : (⟨S4000000, .f32⟩ : BufTy).Contents (Elt F) → (⟨S4000000, .f32⟩ : BufTy).Contents (Elt F) → (⟨S4000000, .f32⟩ : BufTy).Contents (Elt F)),
    StableHlo.binary main_v130 main_v145 main_v146 (subf : (⟨S4000000, .f32⟩ : BufTy).Contents (Elt F) → (⟨S4000000, .f32⟩ : BufTy).Contents (Elt F) → (⟨S4000000, .f32⟩ : BufTy).Contents (Elt F)),
    StableHlo.nullary main_cst_5 (constant S_ .f32 0x00000000#32),
    StableHlo.TRef.unary (.of main_cst_5) main_call1.v0 id,
    StableHlo.TRef.unary main_call1.v0 main_call1.v1 (broadcastInDim S4000000 ![] bcast_S_S4000000),
    StableHlo.TRef.binary main_call1.v1 (.of main_v146) main_call1.v2 maximumf ]
set_option maxRecDepth 8192 in
theorem opsE2_sub : (opsE2 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., nullary_bufs_sub .., unary_bufs_sub .., unary_bufs_sub .., binary_bufs_sub ..⟩

/-- Piece F: 14 operations. -/
abbrev opsF : List (HloOp τ sig (Elt F)) :=
  [ StableHlo.unary main_v115 main_v148 ((extractStridedSlice S4000000x1 ![0, 0] · slices_S4000000x2_S4000000x1_0_0) : (⟨S4000000x2, .f32⟩ : BufTy).Contents (Elt F) → (⟨S4000000x1, .f32⟩ : BufTy).Contents (Elt F)),
    StableHlo.reshape main_v148 main_v149 rfl shapeCasts_S4000000x1_S4000000,
    StableHlo.unary main_v115 main_v150 ((extractStridedSlice S4000000x1 ![0, 1] · slices_S4000000x2_S4000000x1_0_1) : (⟨S4000000x2, .f32⟩ : BufTy).Contents (Elt F) → (⟨S4000000x1, .f32⟩ : BufTy).Contents (Elt F)),
    StableHlo.reshape main_v150 main_v151 rfl shapeCasts_S4000000x1_S4000000,
    StableHlo.binary main_v149 main_v151 main_v152 (mulf : (⟨S4000000, .f32⟩ : BufTy).Contents (Elt F) → (⟨S4000000, .f32⟩ : BufTy).Contents (Elt F) → (⟨S4000000, .f32⟩ : BufTy).Contents (Elt F)),
    StableHlo.binary main_v152 main_v147 main_v153 (mulf : (⟨S4000000, .f32⟩ : BufTy).Contents (Elt F) → (⟨S4000000, .f32⟩ : BufTy).Contents (Elt F) → (⟨S4000000, .f32⟩ : BufTy).Contents (Elt F)),
    StableHlo.binary main_v113 main_v105 main_v154 (addf : (⟨S4000000, .f32⟩ : BufTy).Contents (Elt F) → (⟨S4000000, .f32⟩ : BufTy).Contents (Elt F) → (⟨S4000000, .f32⟩ : BufTy).Contents (Elt F)),
    StableHlo.binary main_v154 main_v153 main_v155 (subf : (⟨S4000000, .f32⟩ : BufTy).Contents (Elt F) → (⟨S4000000, .f32⟩ : BufTy).Contents (Elt F) → (⟨S4000000, .f32⟩ : BufTy).Contents (Elt F)),
    StableHlo.unary main_v1 main_v156 ((extractStridedSlice S4000000x3 ![0, 0] · slices_S4000000x7_S4000000x3_0_0) : (⟨S4000000x7, .f32⟩ : BufTy).Contents (Elt F) → (⟨S4000000x3, .f32⟩ : BufTy).Contents (Elt F)),
    StableHlo.unary main_v0 main_v157 ((extractStridedSlice S4000000x3 ![0, 0] · slices_S4000000x7_S4000000x3_0_0) : (⟨S4000000x7, .f32⟩ : BufTy).Contents (Elt F) → (⟨S4000000x3, .f32⟩ : BufTy).Contents (Elt F)),
    StableHlo.binary main_v156 main_v157 main_v158 (subf : (⟨S4000000x3, .f32⟩ : BufTy).Contents (Elt F) → (⟨S4000000x3, .f32⟩ : BufTy).Contents (Elt F) → (⟨S4000000x3, .f32⟩ : BufTy).Contents (Elt F)),
    StableHlo.binary main_v158 main_v158 main_v159 (mulf : (⟨S4000000x3, .f32⟩ : BufTy).Contents (Elt F) → (⟨S4000000x3, .f32⟩ : BufTy).Contents (Elt F) → (⟨S4000000x3, .f32⟩ : BufTy).Contents (Elt F)),
    StableHlo.nullary main_cst_6 (constant S_ .f32 0x00000000#32),
    StableHlo.binary main_v159 main_cst_6 main_v160 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)) ]
set_option maxRecDepth 8192 in
theorem opsF_sub : (opsF : List (HloOp τ sig (Elt F))).Forall fun op => op.bufs ⊆ tcRefs τ sig :=
  ⟨unary_bufs_sub .., reshape_bufs_sub .., unary_bufs_sub .., reshape_bufs_sub .., binary_bufs_sub .., binary_bufs_sub .., binary_bufs_sub .., binary_bufs_sub .., unary_bufs_sub .., unary_bufs_sub .., binary_bufs_sub .., binary_bufs_sub .., nullary_bufs_sub .., binary_bufs_sub ..⟩

/-- Piece G1: 11 operations. -/
abbrev opsG1 : List (HloOp τ sig (Elt F)) :=
  [ StableHlo.unary main_v0 main_v161 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v161 main_v162 rfl shapeCasts_S4000000x1_S4000000,
    StableHlo.unary main_v0 main_v163 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v163 main_v164 rfl shapeCasts_S4000000x1_S4000000,
    StableHlo.nullary main_cst_7 (constant S_ .f32 0x3F000000#32),
    StableHlo.unary main_cst_7 main_v165 (broadcastInDim S4000000 ![] bcast_S_S4000000 : (⟨S_, .f32⟩ : BufTy).Contents (Elt F) → (⟨S4000000, .f32⟩ : BufTy).Contents (Elt F)),
    StableHlo.binary main_v165 main_v164 main_v166 (mulf : (⟨S4000000, .f32⟩ : BufTy).Contents (Elt F) → (⟨S4000000, .f32⟩ : BufTy).Contents (Elt F) → (⟨S4000000, .f32⟩ : BufTy).Contents (Elt F)),
    StableHlo.binary main_v162 main_v166 main_v167 (addf : (⟨S4000000, .f32⟩ : BufTy).Contents (Elt F) → (⟨S4000000, .f32⟩ : BufTy).Contents (Elt F) → (⟨S4000000, .f32⟩ : BufTy).Contents (Elt F)),
    StableHlo.unary main_v1 main_v168 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v168 main_v169 rfl shapeCasts_S4000000x1_S4000000,
    StableHlo.unary main_v1 main_v170 ((extractStridedSlice S4000000x1 ![0, 5] · slices_S4000000x7_S4000000x1_0_5) : (⟨S4000000x7, .f32⟩ : BufTy).Contents (Elt F) → (⟨S4000000x1, .f32⟩ : BufTy).Contents (Elt F)) ]
set_option maxRecDepth 8192 in
theorem opsG1_sub : (opsG1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., unary_bufs_sub .., reshape_bufs_sub .., unary_bufs_sub ..⟩

/-- Piece G2: 28 operations. -/
abbrev opsG2 : List (HloOp τ sig (Elt F)) :=
  [ StableHlo.reshape main_v170 main_v171 rfl shapeCasts_S4000000x1_S4000000,
    StableHlo.nullary main_cst_8 (constant S_ .f32 0x3F000000#32),
    StableHlo.unary main_cst_8 main_v172 (broadcastInDim S4000000 ![] bcast_S_S4000000 : (⟨S_, .f32⟩ : BufTy).Contents (Elt F) → (⟨S4000000, .f32⟩ : BufTy).Contents (Elt F)),
    StableHlo.binary main_v172 main_v171 main_v173 (mulf : (⟨S4000000, .f32⟩ : BufTy).Contents (Elt F) → (⟨S4000000, .f32⟩ : BufTy).Contents (Elt F) → (⟨S4000000, .f32⟩ : BufTy).Contents (Elt F)),
    StableHlo.binary main_v169 main_v173 main_v174 (addf : (⟨S4000000, .f32⟩ : BufTy).Contents (Elt F) → (⟨S4000000, .f32⟩ : BufTy).Contents (Elt F) → (⟨S4000000, .f32⟩ : BufTy).Contents (Elt F)),
    StableHlo.binary main_v167 main_v174 main_v175 (maximumf : (⟨S4000000, .f32⟩ : BufTy).Contents (Elt F) → (⟨S4000000, .f32⟩ : BufTy).Contents (Elt F) → (⟨S4000000, .f32⟩ : BufTy).Contents (Elt F)),
    StableHlo.unary main_v0 main_v176 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v176 main_v177 rfl shapeCasts_S4000000x1_S4000000,
    StableHlo.unary main_v0 main_v178 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v178 main_v179 rfl shapeCasts_S4000000x1_S4000000,
    StableHlo.nullary main_cst_9 (constant S_ .f32 0x3F000000#32),
    StableHlo.unary main_cst_9 main_v180 (broadcastInDim S4000000 ![] bcast_S_S4000000 : (⟨S_, .f32⟩ : BufTy).Contents (Elt F) → (⟨S4000000, .f32⟩ : BufTy).Contents (Elt F)),
    StableHlo.binary main_v180 main_v179 main_v181 (mulf : (⟨S4000000, .f32⟩ : BufTy).Contents (Elt F) → (⟨S4000000, .f32⟩ : BufTy).Contents (Elt F) → (⟨S4000000, .f32⟩ : BufTy).Contents (Elt F)),
    StableHlo.binary main_v177 main_v181 main_v182 (subf : (⟨S4000000, .f32⟩ : BufTy).Contents (Elt F) → (⟨S4000000, .f32⟩ : BufTy).Contents (Elt F) → (⟨S4000000, .f32⟩ : BufTy).Contents (Elt F)),
    StableHlo.unary main_v1 main_v183 ((extractStridedSlice S4000000x1 ![0, 2] · slices_S4000000x7_S4000000x1_0_2) : (⟨S4000000x7, .f32⟩ : BufTy).Contents (Elt F) → (⟨S4000000x1, .f32⟩ : BufTy).Contents (Elt F)),
    StableHlo.reshape main_v183 main_v184 rfl shapeCasts_S4000000x1_S4000000,
    StableHlo.unary main_v1 main_v185 ((extractStridedSlice S4000000x1 ![0, 5] · slices_S4000000x7_S4000000x1_0_5) : (⟨S4000000x7, .f32⟩ : BufTy).Contents (Elt F) → (⟨S4000000x1, .f32⟩ : BufTy).Contents (Elt F)),
    StableHlo.reshape main_v185 main_v186 rfl shapeCasts_S4000000x1_S4000000,
    StableHlo.nullary main_cst_10 (constant S_ .f32 0x3F000000#32),
    StableHlo.unary main_cst_10 main_v187 (broadcastInDim S4000000 ![] bcast_S_S4000000 : (⟨S_, .f32⟩ : BufTy).Contents (Elt F) → (⟨S4000000, .f32⟩ : BufTy).Contents (Elt F)),
    StableHlo.binary main_v187 main_v186 main_v188 (mulf : (⟨S4000000, .f32⟩ : BufTy).Contents (Elt F) → (⟨S4000000, .f32⟩ : BufTy).Contents (Elt F) → (⟨S4000000, .f32⟩ : BufTy).Contents (Elt F)),
    StableHlo.binary main_v184 main_v188 main_v189 (subf : (⟨S4000000, .f32⟩ : BufTy).Contents (Elt F) → (⟨S4000000, .f32⟩ : BufTy).Contents (Elt F) → (⟨S4000000, .f32⟩ : BufTy).Contents (Elt F)),
    StableHlo.binary main_v182 main_v189 main_v190 (minimumf : (⟨S4000000, .f32⟩ : BufTy).Contents (Elt F) → (⟨S4000000, .f32⟩ : BufTy).Contents (Elt F) → (⟨S4000000, .f32⟩ : BufTy).Contents (Elt F)),
    StableHlo.binary main_v175 main_v190 main_v191 (subf : (⟨S4000000, .f32⟩ : BufTy).Contents (Elt F) → (⟨S4000000, .f32⟩ : BufTy).Contents (Elt F) → (⟨S4000000, .f32⟩ : BufTy).Contents (Elt F)),
    StableHlo.nullary main_cst_11 (constant S_ .f32 0x00000000#32),
    StableHlo.TRef.unary (.of main_cst_11) main_call2.v0 id,
    StableHlo.TRef.unary main_call2.v0 main_call2.v1 (broadcastInDim S4000000 ![] bcast_S_S4000000),
    StableHlo.TRef.binary main_call2.v1 (.of main_v191) main_call2.v2 maximumf ]
set_option maxRecDepth 8192 in
theorem opsG2_sub : (opsG2 : List (HloOp τ sig (Elt F))).Forall fun op => op.bufs ⊆ tcRefs τ sig :=
  ⟨reshape_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., nullary_bufs_sub .., unary_bufs_sub .., unary_bufs_sub .., binary_bufs_sub ..⟩

/-- Piece H: 14 operations. -/
abbrev opsH : List (HloOp τ sig (Elt F)) :=
  [ StableHlo.binary main_v92 main_v97 main_v193 (subf : (⟨S4000000x2, .f32⟩ : BufTy).Contents (Elt F) → (⟨S4000000x2, .f32⟩ : BufTy).Contents (Elt F) → (⟨S4000000x2, .f32⟩ : BufTy).Contents (Elt F)),
    StableHlo.nullary main_cst_12 (constant S_ .f32 0x00000000#32),
    StableHlo.TRef.unary (.of main_cst_12) main_call3.v0 id,
    StableHlo.TRef.unary main_call3.v0 main_call3.v1 (broadcastInDim S4000000x2 ![] bcast_S_S4000000x2),
    StableHlo.TRef.binary main_call3.v1 (.of main_v193) main_call3.v2 maximumf,
    StableHlo.unary main_v194 main_v195 ((extractStridedSlice S4000000x1 ![0, 0] · slices_S4000000x2_S4000000x1_0_0) : (⟨S4000000x2, .f32⟩ : BufTy).Contents (Elt F) → (⟨S4000000x1, .f32⟩ : BufTy).Contents (Elt F)),
    StableHlo.reshape main_v195 main_v196 rfl shapeCasts_S4000000x1_S4000000,
    StableHlo.binary main_v196 main_v196 main_v197 (mulf : (⟨S4000000, .f32⟩ : BufTy).Contents (Elt F) → (⟨S4000000, .f32⟩ : BufTy).Contents (Elt F) → (⟨S4000000, .f32⟩ : BufTy).Contents (Elt F)),
    StableHlo.unary main_v194 main_v198 ((extractStridedSlice S4000000x1 ![0, 1] · slices_S4000000x2_S4000000x1_0_1) : (⟨S4000000x2, .f32⟩ : BufTy).Contents (Elt F) → (⟨S4000000x1, .f32⟩ : BufTy).Contents (Elt F)),
    StableHlo.reshape main_v198 main_v199 rfl shapeCasts_S4000000x1_S4000000,
    StableHlo.binary main_v199 main_v199 main_v200 (mulf : (⟨S4000000, .f32⟩ : BufTy).Contents (Elt F) → (⟨S4000000, .f32⟩ : BufTy).Contents (Elt F) → (⟨S4000000, .f32⟩ : BufTy).Contents (Elt F)),
    StableHlo.binary main_v197 main_v200 main_v201 (addf : (⟨S4000000, .f32⟩ : BufTy).Contents (Elt F) → (⟨S4000000, .f32⟩ : BufTy).Contents (Elt F) → (⟨S4000000, .f32⟩ : BufTy).Contents (Elt F)),
    StableHlo.binary main_v192 main_v192 main_v202 (mulf : (⟨S4000000, .f32⟩ : BufTy).Contents (Elt F) → (⟨S4000000, .f32⟩ : BufTy).Contents (Elt F) → (⟨S4000000, .f32⟩ : BufTy).Contents (Elt F)),
    StableHlo.binary main_v201 main_v202 main_v203 (addf : (⟨S4000000, .f32⟩ : BufTy).Contents (Elt F) → (⟨S4000000, .f32⟩ : BufTy).Contents (Elt F) → (⟨S4000000, .f32⟩ : BufTy).Contents (Elt F)) ]
set_option maxRecDepth 8192 in
theorem opsH_sub : (opsH : List (HloOp τ sig (Elt F))).Forall fun op => op.bufs ⊆ tcRefs τ sig :=
  ⟨binary_bufs_sub .., nullary_bufs_sub .., unary_bufs_sub .., unary_bufs_sub .., binary_bufs_sub .., unary_bufs_sub .., reshape_bufs_sub .., binary_bufs_sub .., unary_bufs_sub .., reshape_bufs_sub .., binary_bufs_sub .., binary_bufs_sub .., binary_bufs_sub .., binary_bufs_sub ..⟩

/-- Piece I: 18 operations. -/
abbrev opsI : List (HloOp τ sig (Elt F)) :=
  [ StableHlo.binary main_v153 main_v155 main_v204 (Host.divf : (⟨S4000000, .f32⟩ : BufTy).Contents (Elt F) → (⟨S4000000, .f32⟩ : BufTy).Contents (Elt F) → (⟨S4000000, .f32⟩ : BufTy).Contents (Elt F)),
    StableHlo.binary main_v160 main_v203 main_v205 (Host.divf : (⟨S4000000, .f32⟩ : BufTy).Contents (Elt F) → (⟨S4000000, .f32⟩ : BufTy).Contents (Elt F) → (⟨S4000000, .f32⟩ : BufTy).Contents (Elt F)),
    StableHlo.binary main_v204 main_v205 main_v206 (subf : (⟨S4000000, .f32⟩ : BufTy).Contents (Elt F) → (⟨S4000000, .f32⟩ : BufTy).Contents (Elt F) → (⟨S4000000, .f32⟩ : BufTy).Contents (Elt F)),
    StableHlo.nullary main_cst_13 (constant S_ .f32 0xBF800000#32),
    StableHlo.nullary main_cst_14 (constant S_ .f32 0x3F800000#32),
    StableHlo.TRef.unary (.of main_cst_13) main_call4.v0 id,
    StableHlo.TRef.unary main_call4.v0 main_call4.v1 (broadcastInDim S4000000 ![] bcast_S_S4000000),
    StableHlo.TRef.binary main_call4.v1 (.of main_v206) main_call4.v2 maximumf,
    StableHlo.TRef.unary (.of main_cst_14) main_call4.v3 id,
    StableHlo.TRef.unary main_call4.v3 main_call4.v4 (broadcastInDim S4000000 ![] bcast_S_S4000000),
    StableHlo.TRef.binary main_call4.v4 main_call4.v2 main_call4.v5 minimumf,
    StableHlo.nullary main_cst_15 (constant S_ .f32 0x3F800000#32),
    StableHlo.unary main_cst_15 main_v208 (broadcastInDim S4000000 ![] bcast_S_S4000000 : (⟨S_, .f32⟩ : BufTy).Contents (Elt F) → (⟨S4000000, .f32⟩ : BufTy).Contents (Elt F)),
    StableHlo.binary main_v208 main_v207 main_v209 (subf : (⟨S4000000, .f32⟩ : BufTy).Contents (Elt F) → (⟨S4000000, .f32⟩ : BufTy).Contents (Elt F) → (⟨S4000000, .f32⟩ : BufTy).Contents (Elt F)),
    StableHlo.nullary main_cst_16 (constant S_ .f32 0x00000000#32),
    StableHlo.binary main_v209 main_cst_16 main_v210 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    StableHlo.nullary main_cst_17 (constant S_ .f32 0x4A742400#32),
    StableHlo.binary main_v210 main_cst_17 main_v211 (Host.divf : (⟨S_, .f32⟩ : BufTy).Contents (Elt F) → (⟨S_, .f32⟩ : BufTy).Contents (Elt F) → (⟨S_, .f32⟩ : BufTy).Contents (Elt F)) ]
set_option maxRecDepth 8192 in
theorem opsI_sub : (opsI : List (HloOp τ sig (Elt F))).Forall fun op => op.bufs ⊆ tcRefs τ sig :=
  ⟨binary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., binary_bufs_sub ..⟩

/-- All the operations of @main, in order. -/
abbrev ops : List (HloOp τ sig (Elt F)) := opsA ++ opsB1 ++ opsB2 ++ opsC ++ opsD ++ opsE1 ++ opsE2 ++ opsF ++ opsG1 ++ opsG2 ++ opsH ++ opsI

set_option maxRecDepth 8192 in
set_option maxHeartbeats 4000000 in
theorem main_part0_eq (c : Dev nD) : main_part0 (F := F) c = seq (opsA ++ opsB1) := rfl
set_option maxRecDepth 8192 in
set_option maxHeartbeats 4000000 in
theorem main_part1_eq (c : Dev nD) : main_part1 (F := F) c = seq (opsB2 ++ opsC ++ opsD ++ opsE1) := rfl
set_option maxRecDepth 8192 in
set_option maxHeartbeats 4000000 in
theorem main_part2_eq (c : Dev nD) : main_part2 (F := F) c = seq (opsE2 ++ opsF ++ opsG1) := rfl
set_option maxRecDepth 8192 in
set_option maxHeartbeats 4000000 in
theorem main_part3_eq (c : Dev nD) : main_part3 (F := F) c = seq (opsG2 ++ opsH ++ opsI) := rfl

end Cert.ReferenceIdeal.Ops

end
-- ==== Proof.RefRun.lean ====
/-
  The reference program runs as the straight line of its host operations: every weakly fair execution ends, and each
  buffer then holds the fold of the operations' results over the launch contents. The line is the concatenation of twelve
  consecutive pieces.
-/
import proofs.«411859_j51221779972847_3_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main is the line of all the operations: each printed part is the line of its pieces, and the parts run in order. -/
theorem main_eq (c : Dev nD) : main (F := F) c = seq ops := by
  simp only [ops, List.append_assoc]
  rw [show (opsA ++ (opsB1 ++ (opsB2 ++ (opsC ++ (opsD ++ (opsE1 ++ (opsE2 ++ (opsF ++ (opsG1 ++ (opsG2 ++ (opsH ++ opsI)))))))))) : List (HloOp τ sig (Elt F)))
      = (opsA ++ opsB1) ++ ((opsB2 ++ opsC ++ opsD ++ opsE1) ++ ((opsE2 ++ opsF ++ opsG1) ++ (opsG2 ++ opsH ++ opsI))) from by
    simp only [List.append_assoc]]
  simp only [seq_append (opsA ++ opsB1), seq_append (opsB2 ++ opsC ++ opsD ++ opsE1), seq_append (opsE2 ++ opsF ++ opsG1),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with ((((((((((h | h) | h) | h) | h) | h) | h) | h) | h) | h) | h) | h
    exacts [List.forall_iff_forall_mem.mp opsA_sub op h, List.forall_iff_forall_mem.mp opsB1_sub op h,
      List.forall_iff_forall_mem.mp opsB2_sub op h, List.forall_iff_forall_mem.mp opsC_sub op h,
      List.forall_iff_forall_mem.mp opsD_sub op h, List.forall_iff_forall_mem.mp opsE1_sub op h,
      List.forall_iff_forall_mem.mp opsE2_sub op h, List.forall_iff_forall_mem.mp opsF_sub op h,
      List.forall_iff_forall_mem.mp opsG1_sub op h, List.forall_iff_forall_mem.mp opsG2_sub op h,
      List.forall_iff_forall_mem.mp opsH_sub op h, List.forall_iff_forall_mem.mp opsI_sub op h]

/-- Walks a literal list's membership: each operation of it allocates nothing, by computation. -/
local macro "fresh_walk" : tactic =>
  `(tactic| (intro _ h; (repeat (cases h with | head => rfl | tail _ h => ?_)); exact nomatch h))

theorem opsA_fresh : ∀ op ∈ (opsA : List (HloOp τ sig (Elt F))), op.fresh = ∅ := by fresh_walk
theorem opsB1_fresh : ∀ op ∈ (opsB1 : List (HloOp τ sig (Elt F))), op.fresh = ∅ := by fresh_walk
theorem opsB2_fresh : ∀ op ∈ (opsB2 : List (HloOp τ sig (Elt F))), op.fresh = ∅ := by fresh_walk
theorem opsC_fresh : ∀ op ∈ (opsC : List (HloOp τ sig (Elt F))), op.fresh = ∅ := by fresh_walk
theorem opsD_fresh : ∀ op ∈ (opsD : List (HloOp τ sig (Elt F))), op.fresh = ∅ := by fresh_walk
theorem opsE1_fresh : ∀ op ∈ (opsE1 : List (HloOp τ sig (Elt F))), op.fresh = ∅ := by fresh_walk
theorem opsE2_fresh : ∀ op ∈ (opsE2 : List (HloOp τ sig (Elt F))), op.fresh = ∅ := by fresh_walk
theorem opsF_fresh : ∀ op ∈ (opsF : List (HloOp τ sig (Elt F))), op.fresh = ∅ := by fresh_walk
theorem opsG1_fresh : ∀ op ∈ (opsG1 : List (HloOp τ sig (Elt F))), op.fresh = ∅ := by fresh_walk
theorem opsG2_fresh : ∀ op ∈ (opsG2 : List (HloOp τ sig (Elt F))), op.fresh = ∅ := by fresh_walk
theorem opsH_fresh : ∀ op ∈ (opsH : List (HloOp τ sig (Elt F))), op.fresh = ∅ := by fresh_walk
theorem opsI_fresh : ∀ op ∈ (opsI : List (HloOp τ sig (Elt F))), op.fresh = ∅ := by fresh_walk

/-- No operation of the line allocates a buffer. -/
theorem ops_fresh : ∀ op ∈ (ops : List (HloOp τ sig (Elt F))), op.fresh = ∅ := by
  intro op h
  simp only [ops, List.mem_append] at h
  rcases h with ((((((((((h | h) | h) | h) | h) | h) | h) | h) | h) | h) | h) | h
  exacts [opsA_fresh op h, opsB1_fresh op h, opsB2_fresh op h, opsC_fresh op h, opsD_fresh op h, opsE1_fresh op h, opsE2_fresh op h, opsF_fresh op h, opsG1_fresh op h, opsG2_fresh op h, opsH_fresh op h, opsI_fresh op h]

/-- Every weakly fair execution of @main ends with each buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Ops

end
-- ==== Proof.RefForms.lean ====
/-
  The reference's intermediate arrays as functions of the two argument arrays, index by index: each is a quantity of
  the pair of boxes in one row (Spec), laid out over the rows.
-/
import proofs.«411859_j51221779972847_3_alg».proof.Proof.Spec
import proofs.«411859_j51221779972847_3_alg».proof.Proof.RefOps
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

/-- Buffer `b` of a valuation. -/
macro "⟪" b:term "⟫" : term => `(Proc.devRef .tc $b)

/-- The first seven columns of an argument array. -/
def arr7 (x : SArg.Idx → EReal) : S4000000x7.Idx → EReal := fun i => rowOf x (i 0) (i 1)
/-- The four turned corners of every row's box. -/
def arrQ (x : SArg.Idx → EReal) : S4000000x4x2.Idx → EReal := fun i => qcR (rowOf x (i 0)) (i 1) (i 2)
/-- A quantity of the pair of boxes in a row, over the rows. -/
def arr1 (f : (Fin 7 → EReal) → (Fin 7 → EReal) → EReal) (x y : SArg.Idx → EReal) : S4000000.Idx → EReal :=
  fun i => f (rowOf x (i 0)) (rowOf y (i 0))
/-- A pair of such quantities (an x and a y component), over the rows. -/
def arr2 (f : (Fin 7 → EReal) → (Fin 7 → EReal) → Fin 2 → EReal) (x y : SArg.Idx → EReal) : S4000000x2.Idx → EReal :=
  fun i => f (rowOf x (i 0)) (rowOf y (i 0)) (i 1)
/-- The table of corner signs as the program's constant holds it. -/
def litArr : S4x2.Idx → EReal := fun i => FloatOps.ofBits (F := Ideal) .f32 (lit0 (S4x2.rowMajor i))

end Cert.ReferenceIdeal.Vals

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RefWinAB.lean ====
/-
  The corners: from an argument array, the first seven columns and the four turned corners of every row's box.

  The corner computation is stated once over ANY table of signs and ANY array of boxes (namespace `Corners`): each
  layout operation of it is read at an index by one small lemma, the composed array `turned c b` is read at corner k,
  component x or y, and over the program's table and the boxes of an argument array it is Spec's `qcR`, entry by
  entry. Piece A is that computation on the predicted boxes.
-/
import proofs.«411859_j51221779972847_3_alg».proof.Proof.RefForms
import proofs.«411859_j51221779972847_3_alg».proof.Proof.LibHostRows
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

namespace Corners

/-! ## Layout operations of the corner computation, read at an index -/

section Layout
variable {α : Type}

/-- The first seven of an argument's nine columns. -/
theorem cols7_apply (a : S4000000x9.Idx → α) (h : S4000000x9.Slices ![0, 0] S4000000x7) (n : Fin 4000000) (k : Fin 7) :
    extractStridedSlice S4000000x7 ![0, 0] a h (ix2 n k) = a (ix2 n (Fin.castLE (by decide) k)) := by
  refine extractStridedSlice_apply _ a h (ix2 n k) (ix2 n (Fin.castLE (by decide) k)) fun ax => ?_
  match ax with
  | ⟨0, _⟩ => show n.val = 0 + n.val; omega
  | ⟨1, _⟩ => show k.val = 0 + k.val; omega

/-- Two adjacent columns of the seven, starting at column `off`: entry `a` is column `off + a`. -/
theorem cols2_apply (off : ℕ) (b : S4000000x7.Idx → α) (h : S4000000x7.Slices ![0, off] S4000000x2) (n : Fin 4000000) (a : Fin 2)
    (k : Fin 7) (hk : k.val = off + a.val) :
    extractStridedSlice S4000000x2 ![0, off] b h (ix2 n a) = b (ix2 n k) := by
  refine extractStridedSlice_apply _ b h (ix2 n a) (ix2 n k) fun ax => ?_
  match ax with
  | ⟨0, _⟩ => show n.val = 0 + n.val; omega
  | ⟨1, _⟩ => exact hk

/-- One column `c` of the seven, viewed as a vector over the rows. -/
theorem col_apply (c : ℕ) (b : S4000000x7.Idx → α) (h : S4000000x7.Slices ![0, c] S4000000x1) (h' : S4000000x1.ShapeCasts S4000000)
    (n : Fin 4000000) (k : Fin 7) (hk : k.val = c) :
    shapeCast S4000000 (extractStridedSlice S4000000x1 ![0, c] b h) h' (ix1 n) = b (ix2 n k) := by
  refine (shapeCast_apply _ h' (ix1 n) (ix2 n (0 : Fin 1)) ?_).trans ?_
  · rw [Shape.rowMajor_val_two, Shape.rowMajor_val_one]
    show n.val * 1 + 0 = n.val
    omega
  · refine extractStridedSlice_apply _ b h (ix2 n (0 : Fin 1)) (ix2 n k) fun ax => ?_
    match ax with
    | ⟨0, _⟩ => show n.val = 0 + n.val; omega
    | ⟨1, _⟩ => show k.val = c + 0; omega

/-- A pair per row set against the four corners, [N,2] → [N,1,2] → [N,4,2]: every corner reads the row's pair. -/
theorem pairBcast_apply (d : S4000000x2.Idx → α) (h₁ : S4000000x2.BroadcastsInDim S4000000x1x2 (![0, 2] : Fin 2 → Fin S4000000x1x2.rank))
    (h₂ : S4000000x1x2.BroadcastsInDim S4000000x4x2 (![0, 1, 2] : Fin 3 → Fin S4000000x4x2.rank))
    (n : Fin 4000000) (k : Fin 4) (a : Fin 2) :
    broadcastInDim S4000000x4x2 ![0, 1, 2] h₂ (broadcastInDim S4000000x1x2 ![0, 2] h₁ d) (ix3 n k a) = d (ix2 n a) := by
  refine (broadcastInDim_apply _ h₂ _ (ix3 n k a) (ix3 n (0 : Fin 1) a) fun ax => ?_).trans
    (broadcastInDim_apply _ h₁ d (ix3 n (0 : Fin 1) a) (ix2 n a) fun ax => ?_)
  · match ax with
    | ⟨0, _⟩ => exact (if_neg (show ¬((4000000 : ℕ) = 1) by decide)).symm
    | ⟨1, _⟩ => exact (if_pos rfl).symm
    | ⟨2, _⟩ => exact (if_neg (show ¬((2 : ℕ) = 1) by decide)).symm
  · match ax with
    | ⟨0, _⟩ => exact (if_neg (show ¬((4000000 : ℕ) = 1) by decide)).symm
    | ⟨1, _⟩ => exact (if_neg (show ¬((2 : ℕ) = 1) by decide)).symm

/-- The table of four pairs set against the rows, [4,2] → [1,4,2] → [N,4,2]: every row reads the table. -/
theorem tableBcast_apply (c : S4x2.Idx → α) (h₁ : S4x2.BroadcastsInDim S1x4x2 (![1, 2] : Fin 2 → Fin S1x4x2.rank))
    (h₂ : S1x4x2.BroadcastsInDim S4000000x4x2 (![0, 1, 2] : Fin 3 → Fin S4000000x4x2.rank))
    (n : Fin 4000000) (k : Fin 4) (a : Fin 2) :
    broadcastInDim S4000000x4x2 ![0, 1, 2] h₂ (broadcastInDim S1x4x2 ![1, 2] h₁ c) (ix3 n k a) = c (ix2 k a) := by
  refine (broadcastInDim_apply _ h₂ _ (ix3 n k a) (ix3 (0 : Fin 1) k a) fun ax => ?_).trans
    (broadcastInDim_apply _ h₁ c (ix3 (0 : Fin 1) k a) (ix2 k a) fun ax => ?_)
  · match ax with
    | ⟨0, _⟩ => exact (if_pos rfl).symm
    | ⟨1, _⟩ => exact (if_neg (show ¬((4 : ℕ) = 1) by decide)).symm
    | ⟨2, _⟩ => exact (if_neg (show ¬((2 : ℕ) = 1) by decide)).symm
  · match ax with
    | ⟨0, _⟩ => exact (if_neg (show ¬((4 : ℕ) = 1) by decide)).symm
    | ⟨1, _⟩ => exact (if_neg (show ¬((2 : ℕ) = 1) by decide)).symm

/-- Component `j` of the corners as an [N,4] array: the slice [N,4,1] at `j` of the last axis, viewed [N,4]. -/
theorem comp_apply (j : ℕ) (p : S4000000x4x2.Idx → α) (h : S4000000x4x2.Slices ![0, 0, j] S4000000x4x1)
    (h' : S4000000x4x1.ShapeCasts S4000000x4) (n : Fin 4000000) (k : Fin 4) (a : Fin 2) (ha : a.val = j) :
    shapeCast S4000000x4 (extractStridedSlice S4000000x4x1 ![0, 0, j] p h) h' (ix2 n k) = p (ix3 n k a) := by
  refine (shapeCast_apply _ h' (ix2 n k) (ix3 n k (0 : Fin 1)) ?_).trans ?_
  · rw [Shape.rowMajor_val_three, Shape.rowMajor_val_two]
    show (n.val * 4 + k.val) * 1 + 0 = n.val * 4 + k.val
    omega
  · refine extractStridedSlice_apply _ p h (ix3 n k (0 : Fin 1)) (ix3 n k a) fun ax => ?_
    match ax with
    | ⟨0, _⟩ => show n.val = 0 + n.val; omega
    | ⟨1, _⟩ => show k.val = 0 + k.val; omega
    | ⟨2, _⟩ => show a.val = j + 0; omega

/-- A value per row set along the four corners, [N] → [N,1] → [N,4]. -/
theorem rowBcast_apply (v : S4000000.Idx → α) (h₁ : S4000000.BroadcastsInDim S4000000x1 (![0] : Fin 1 → Fin S4000000x1.rank))
    (h₂ : S4000000x1.BroadcastsInDim S4000000x4 (![0, 1] : Fin 2 → Fin S4000000x4.rank)) (n : Fin 4000000) (k : Fin 4) :
    broadcastInDim S4000000x4 ![0, 1] h₂ (broadcastInDim S4000000x1 ![0] h₁ v) (ix2 n k) = v (ix1 n) :=
  (Cert.LibHostRows.broadcastInDim_col_apply _ h₂ n k).trans (Cert.LibHostRows.broadcastInDim_vec_col_apply v h₁ n 0)

/-- An [N,4] array given a last axis of extent one. -/
theorem lastUnit_apply (u : S4000000x4.Idx → α) (h : S4000000x4.BroadcastsInDim S4000000x4x1 (![0, 1] : Fin 2 → Fin S4000000x4x1.rank))
    (n : Fin 4000000) (k : Fin 4) (z : Fin 1) :
    broadcastInDim S4000000x4x1 ![0, 1] h u (ix3 n k z) = u (ix2 n k) := by
  refine broadcastInDim_apply _ h u (ix3 n k z) (ix2 n k) fun ax => ?_
  match ax with
  | ⟨0, _⟩ => exact (if_neg (show ¬((4000000 : ℕ) = 1) by decide)).symm
  | ⟨1, _⟩ => exact (if_neg (show ¬((4 : ℕ) = 1) by decide)).symm

/-- Two [N,4,1] arrays stacked along the last axis: component 0 is the first … -/
theorem stack_fst (A B : S4000000x4x1.Idx → α) (h : Shape.Concatenates [S4000000x4x1, S4000000x4x1] S4000000x4x2 2)
    (n : Fin 4000000) (k : Fin 4) :
    concatenate S4000000x4x2 2 [⟨S4000000x4x1, A⟩, ⟨S4000000x4x1, B⟩] h (ix3 n k (0 : Fin 2)) = A (ix3 n k (0 : Fin 1)) := by
  refine concatenate_pair_apply_left (2 : Fin 3) A B h (ix3 n k (0 : Fin 2)) rfl (ix3 n k (0 : Fin 1)) fun b => ?_
  match b with
  | ⟨0, _⟩ => rfl
  | ⟨1, _⟩ => rfl
  | ⟨2, _⟩ => rfl

/-- … and component 1 the second. -/
theorem stack_snd (A B : S4000000x4x1.Idx → α) (h : Shape.Concatenates [S4000000x4x1, S4000000x4x1] S4000000x4x2 2)
    (n : Fin 4000000) (k : Fin 4) :
    concatenate S4000000x4x2 2 [⟨S4000000x4x1, A⟩, ⟨S4000000x4x1, B⟩] h (ix3 n k (1 : Fin 2)) = B (ix3 n k (0 : Fin 1)) := by
  refine concatenate_pair_apply_right (2 : Fin 3) A B h (ix3 n k (1 : Fin 2)) rfl rfl (ix3 n k (0 : Fin 1)) (fun b hb => ?_) rfl
  match b, hb with
  | ⟨0, _⟩, _ => rfl
  | ⟨1, _⟩, _ => rfl
  | ⟨2, _⟩, hb => exact absurd rfl hb

end Layout

/-! ## The turned corners of the boxes in an array of rows, over any table and any array of boxes -/

section Turned

/-- The corners before the turn: (w, l) of every row times each row of the table. -/
def prodArr (c : FVec Ideal S4x2 .f32) (b : FVec Ideal S4000000x7 .f32) : FVec Ideal S4000000x4x2 .f32 :=
  mulf
    (broadcastInDim S4000000x4x2 ![0, 1, 2] bcast_S4000000x1x2_S4000000x4x2_0_1_2
      (broadcastInDim S4000000x1x2 ![0, 2] bcast_S4000000x2_S4000000x1x2_0_2
        (extractStridedSlice S4000000x2 ![0, 3] b slices_S4000000x7_S4000000x2_0_3)))
    (broadcastInDim S4000000x4x2 ![0, 1, 2] bcast_S1x4x2_S4000000x4x2_0_1_2
      (broadcastInDim S1x4x2 ![1, 2] bcast_S4x2_S1x4x2_1_2 c))

/-- The yaw of every row. -/
def yawArr (b : FVec Ideal S4000000x7 .f32) : FVec Ideal S4000000 .f32 :=
  shapeCast S4000000 (extractStridedSlice S4000000x1 ![0, 6] b slices_S4000000x7_S4000000x1_0_6) shapeCasts_S4000000x1_S4000000

/-- A value per row, repeated along the four corners. -/
def perCorner (v : FVec Ideal S4000000 .f32) : FVec Ideal S4000000x4 .f32 :=
  broadcastInDim S4000000x4 ![0, 1] bcast_S4000000x1_S4000000x4_0_1 (broadcastInDim S4000000x1 ![0] bcast_S4000000_S4000000x1_0 v)

/-- The x components of an array of pairs per corner. -/
def compX (p : FVec Ideal S4000000x4x2 .f32) : FVec Ideal S4000000x4 .f32 :=
  shapeCast S4000000x4 (extractStridedSlice S4000000x4x1 ![0, 0, 0] p slices_S4000000x4x2_S4000000x4x1_0_0_0) shapeCasts_S4000000x4x1_S4000000x4

/-- The y components of an array of pairs per corner. -/
def compY (p : FVec Ideal S4000000x4x2 .f32) : FVec Ideal S4000000x4 .f32 :=
  shapeCast S4000000x4 (extractStridedSlice S4000000x4x1 ![0, 0, 1] p slices_S4000000x4x2_S4000000x4x1_0_0_1) shapeCasts_S4000000x4x1_S4000000x4

/-- The turned x of every corner: cx·cos + cy·sin. -/
def turnX (c : FVec Ideal S4x2 .f32) (b : FVec Ideal S4000000x7 .f32) : FVec Ideal S4000000x4 .f32 :=
  addf (mulf (compX (prodArr c b)) (perCorner (Host.cos (yawArr b)))) (mulf (compY (prodArr c b)) (perCorner (Host.sin (yawArr b))))

/-- The turned y of every corner: (-cx)·sin + cy·cos. -/
def turnY (c : FVec Ideal S4x2 .f32) (b : FVec Ideal S4000000x7 .f32) : FVec Ideal S4000000x4 .f32 :=
  addf (mulf (Host.negf (compX (prodArr c b))) (perCorner (Host.sin (yawArr b)))) (mulf (compY (prodArr c b)) (perCorner (Host.cos (yawArr b))))

/-- Two [N,4,1] arrays stacked along the last axis. -/
def stack2 (A B : FVec Ideal S4000000x4x1 .f32) : FVec Ideal S4000000x4x2 .f32 :=
  concatenate S4000000x4x2 2 [⟨S4000000x4x1, A⟩, ⟨S4000000x4x1, B⟩] concatenates_S4000000x4x1_S4000000x4x1_S4000000x4x2_d2

/-- A stack of two arrays is `stack2` of them, whatever evidence the shapes' relation is given by. -/
theorem stack2_fold (A B : FVec Ideal S4000000x4x1 .f32) (h : Shape.Concatenates [S4000000x4x1, S4000000x4x1] S4000000x4x2 2) :
    concatenate S4000000x4x2 2 [⟨S4000000x4x1, A⟩, ⟨S4000000x4x1, B⟩] h = stack2 A B := rfl

/-- Two arrays of values per corner paired along a new last axis. -/
def pairUp (u w : FVec Ideal S4000000x4 .f32) : FVec Ideal S4000000x4x2 .f32 :=
  stack2 (broadcastInDim S4000000x4x1 ![0, 1] bcast_S4000000x4_S4000000x4x1_0_1 u)
    (broadcastInDim S4000000x4x1 ![0, 1] bcast_S4000000x4_S4000000x4x1_0_1 w)

/-- The turned corners moved to the centre. -/
def turned (c : FVec Ideal S4x2 .f32) (b : FVec Ideal S4000000x7 .f32) : FVec Ideal S4000000x4x2 .f32 :=
  addf (pairUp (turnX c b) (turnY c b))
    (broadcastInDim S4000000x4x2 ![0, 1, 2] bcast_S4000000x1x2_S4000000x4x2_0_1_2
      (broadcastInDim S4000000x1x2 ![0, 2] bcast_S4000000x2_S4000000x1x2_0_2
        (extractStridedSlice S4000000x2 ![0, 0] b slices_S4000000x7_S4000000x2_0_0)))

variable (c : FVec Ideal S4x2 .f32) (b : FVec Ideal S4000000x7 .f32) (n : Fin 4000000) (k : Fin 4)

theorem prodArr_x : prodArr c b (ix3 n k (0 : Fin 2)) = b (ix2 n (3 : Fin 7)) * c (ix2 k (0 : Fin 2)) := by
  show _ * _ = _
  rw [pairBcast_apply, tableBcast_apply, cols2_apply 3 b _ n 0 3 rfl]

theorem prodArr_y : prodArr c b (ix3 n k (1 : Fin 2)) = b (ix2 n (4 : Fin 7)) * c (ix2 k (1 : Fin 2)) := by
  show _ * _ = _
  rw [pairBcast_apply, tableBcast_apply, cols2_apply 3 b _ n 1 4 rfl]

theorem yawArr_apply : yawArr b (ix1 n) = b (ix2 n (6 : Fin 7)) := col_apply 6 b _ _ n 6 rfl

theorem perCorner_apply (v : FVec Ideal S4000000 .f32) : perCorner v (ix2 n k) = v (ix1 n) := rowBcast_apply v _ _ n k

theorem compX_apply (p : FVec Ideal S4000000x4x2 .f32) : compX p (ix2 n k) = p (ix3 n k (0 : Fin 2)) := comp_apply 0 p _ _ n k 0 rfl

theorem compY_apply (p : FVec Ideal S4000000x4x2 .f32) : compY p (ix2 n k) = p (ix3 n k (1 : Fin 2)) := comp_apply 1 p _ _ n k 1 rfl

theorem turnX_apply : turnX c b (ix2 n k)
    = b (ix2 n (3 : Fin 7)) * c (ix2 k (0 : Fin 2)) * Ideal.cos (b (ix2 n (6 : Fin 7)))
      + b (ix2 n (4 : Fin 7)) * c (ix2 k (1 : Fin 2)) * Ideal.sin (b (ix2 n (6 : Fin 7))) := by
  show compX (prodArr c b) (ix2 n k) * perCorner (Host.cos (yawArr b)) (ix2 n k)
    + compY (prodArr c b) (ix2 n k) * perCorner (Host.sin (yawArr b)) (ix2 n k) = _
  rw [compX_apply, compY_apply, perCorner_apply, perCorner_apply, prodArr_x, prodArr_y]
  show _ * Ideal.cos (yawArr b (ix1 n)) + _ * Ideal.sin (yawArr b (ix1 n)) = _
  rw [yawArr_apply]

theorem turnY_apply : turnY c b (ix2 n k)
    = -(b (ix2 n (3 : Fin 7)) * c (ix2 k (0 : Fin 2))) * Ideal.sin (b (ix2 n (6 : Fin 7)))
      + b (ix2 n (4 : Fin 7)) * c (ix2 k (1 : Fin 2)) * Ideal.cos (b (ix2 n (6 : Fin 7))) := by
  show -(compX (prodArr c b) (ix2 n k)) * perCorner (Host.sin (yawArr b)) (ix2 n k)
    + compY (prodArr c b) (ix2 n k) * perCorner (Host.cos (yawArr b)) (ix2 n k) = _
  rw [compX_apply, compY_apply, perCorner_apply, perCorner_apply, prodArr_x, prodArr_y]
  show _ * Ideal.sin (yawArr b (ix1 n)) + _ * Ideal.cos (yawArr b (ix1 n)) = _
  rw [yawArr_apply]

theorem turned_x : turned c b (ix3 n k (0 : Fin 2)) = turnX c b (ix2 n k) + b (ix2 n (0 : Fin 7)) := by
  show pairUp (turnX c b) (turnY c b) (ix3 n k (0 : Fin 2)) + _ = _
  rw [pairBcast_apply, cols2_apply 0 b _ n 0 0 rfl]
  unfold pairUp stack2
  rw [stack_fst, lastUnit_apply]

theorem turned_y : turned c b (ix3 n k (1 : Fin 2)) = turnY c b (ix2 n k) + b (ix2 n (1 : Fin 7)) := by
  show pairUp (turnX c b) (turnY c b) (ix3 n k (1 : Fin 2)) + _ = _
  rw [pairBcast_apply, cols2_apply 0 b _ n 1 1 rfl]
  unfold pairUp stack2
  rw [stack_snd, lastUnit_apply]

/-- The program's table of signs, entry by entry. -/
theorem litArr_apply (k : Fin 4) (a : Fin 2) : litArr (ix2 k a) = litC k a := by
  fin_cases k <;> fin_cases a <;> rfl

/-- Over the table of signs and the boxes of `x`, the turned corners are the corners of Spec. -/
theorem turned_eq (x : SArg.Idx → EReal) (hc : c = litArr) (hb : b = arr7 x) : turned c b = arrQ x := by
  subst hc hb
  funext i
  obtain ⟨n, k, a, rfl⟩ : ∃ (n : Fin 4000000) (k : Fin 4) (a : Fin 2), i = ix3 n k a := ⟨i 0, i 1, i 2, eq_ix3 i⟩
  match a with
  | ⟨0, _⟩ =>
    refine (turned_x litArr (arr7 x) n k).trans ?_
    rw [turnX_apply, litArr_apply, litArr_apply]
    rfl
  | ⟨1, _⟩ =>
    refine (turned_y litArr (arr7 x) n k).trans ?_
    rw [turnY_apply, litArr_apply, litArr_apply]
    rfl

end Turned

/-- The first seven columns of an argument array are its rows' boxes. -/
theorem cols7_eq (x : SArg.Idx → EReal) (h : S4000000x9.Slices ![0, 0] S4000000x7) :
    extractStridedSlice S4000000x7 ![0, 0] (x : S4000000x9.Idx → EReal) h = arr7 x := by
  funext i
  obtain ⟨n, k, rfl⟩ : ∃ (n : Fin 4000000) (k : Fin 7), i = ix2 n k := ⟨i 0, i 1, eq_ix2 i⟩
  exact cols7_apply x h n k

end Corners

open Corners

variable (V : Valuation τ sig (Elt Ideal)) (x y : SArg.Idx → EReal)

/-- Piece A: the table of signs, both arrays' first seven columns, and the predicted boxes' corners. -/
theorem winA (hx : V ⟪main_arg0⟫ = x) (hy : V ⟪main_arg1⟫ = y) :
    after opsA V ⟪main_cst⟫ = litArr ∧ after opsA V ⟪main_v0⟫ = arr7 x ∧ after opsA V ⟪main_v1⟫ = arr7 y
      ∧ after opsA V ⟪main_v39⟫ = arrQ x := by
  refine ⟨?_, ?_, ?_, ?_⟩
  · -- the constant's buffer holds the table as the program lists it
    after_results_simp
    rfl
  · -- %0 is the slice [:, :7] of the first argument
    after_results_simp
    rw [hx]
    exact cols7_eq x _
  · -- %1 is the slice [:, :7] of the second argument
    after_results_simp
    rw [hy]
    exact cols7_eq y _
  · -- %39 is the corner computation over the constant table and %0 (the stack of the x and y arrays is `stack2` of them)
    simp (disch := decide) only [after_cons, after_nil, stack2_fold, nullary_result', unary_result', binary_result', reshape_result',
      nullary_result_ne', unary_result_ne', binary_result_ne', reshape_result_ne']
    rw [hx]
    exact turned_eq _ _ x rfl (cols7_eq x _)

end Cert.ReferenceIdeal.Vals

end
-- ==== Proof.RefWinB.lean ====
/-
  The ground-truth boxes' corners (pieces B1, B2): from the first seven columns of the second argument and the table of
  signs, the four turned corners of every row's box. The operations are those that turn the predicted boxes' corners,
  on the other array: the composed term is the turned-corner array of the table and the boxes, which over the table
  of signs and the rows of `y` is the array of Spec's corners.
-/
import proofs.«411859_j51221779972847_3_alg».proof.Proof.RefForms
import proofs.«411859_j51221779972847_3_alg».proof.Proof.RefWinAB
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx
open Corners

variable (V : Valuation τ sig (Elt Ideal)) (x y : SArg.Idx → EReal)

/-- Pieces B1 and B2: the ground-truth boxes' corners. -/
theorem winB (hc : V ⟪main_cst⟫ = litArr) (h1 : V ⟪main_v1⟫ = arr7 y) :
    after (opsB1 ++ opsB2) V ⟪main_v77⟫ = arrQ y := by
  -- the two pieces run one after the other; each buffer is its operation applied to its operands' buffers, the
  -- stacking of the two components read as one operation
  rw [after_append]
  simp (disch := decide) only [after_cons, after_nil, stack2_fold, nullary_result', unary_result', binary_result', reshape_result',
    nullary_result_ne', unary_result_ne', binary_result_ne', reshape_result_ne']
  rw [hc, h1]
  -- what is left is the turned-corner array of the table of signs and the boxes of `y`
  exact turned_eq _ _ y rfl rfl

end Cert.ReferenceIdeal.Vals

end
-- ==== Proof.RefWinCDE.lean ====
/-
  From the corners to the intersection's extents: the low and high corners of the intersection and of the enclosing
  rectangle (piece C), the two volumes and the clipped x and y overlaps (piece D), the clipped z overlap (pieces E1, E2).
-/
import proofs.«411859_j51221779972847_3_alg».proof.Proof.RefForms
import proofs.«411859_j51221779972847_3_alg».proof.Proof.LibHostRows
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

/-! ## The two layout shapes of these pieces, read at an index -/

/-- Corner `k` of every box: the slice [:, k:k+1, :] of the corner array viewed as [N, 2] reads corner `k`'s component. -/
theorem sliceCorner_apply {α : Type} (q : S4000000x4x2.Idx → α) (c : Nat) (k : Fin 4) (hk : k.val = c)
    (hs : S4000000x4x2.Slices ![0, c, 0] S4000000x1x2) (hc : S4000000x1x2.ShapeCasts S4000000x2)
    (n : Fin 4000000) (a : Fin 2) :
    shapeCast S4000000x2 (extractStridedSlice S4000000x1x2 ![0, c, 0] q hs) hc (ix2 n a) = q (ix3 n k a) := by
  -- the view keeps the row-major position: (n, 0, a) and (n, a) both sit at 2n + a
  refine (shapeCast_apply _ hc (ix2 n a) (ix3 n (0 : Fin 1) a) ?_).trans ?_
  · rw [Shape.rowMajor_val_three, Shape.rowMajor_val_two]
    show (n.val * 1 + 0) * 2 + a.val = n.val * 2 + a.val
    omega
  · refine extractStridedSlice_apply _ q hs _ (ix3 n k a) fun ax => ?_
    match ax with
    | ⟨0, _⟩ => exact (Nat.zero_add _).symm
    | ⟨1, _⟩ => exact hk.trans (Nat.add_zero _).symm
    | ⟨2, _⟩ => exact (Nat.zero_add _).symm

/-- Column `k` of the boxes: the slice [:, k:k+1] of a box array viewed as [N] reads entry `k` of the row. -/
theorem sliceCol_apply {α : Type} (q : S4000000x7.Idx → α) (c : Nat) (k : Fin 7) (hk : k.val = c)
    (hs : S4000000x7.Slices ![0, c] S4000000x1) (hc : S4000000x1.ShapeCasts S4000000) (n : Fin 4000000) :
    shapeCast S4000000 (extractStridedSlice S4000000x1 ![0, c] q hs) hc (ix1 n) = q (ix2 n k) := by
  -- the view keeps the row-major position: (n, 0) and (n) both sit at n
  refine (shapeCast_apply _ hc (ix1 n) (ix2 n (0 : Fin 1)) ?_).trans ?_
  · rw [Shape.rowMajor_val_two, Shape.rowMajor_val_one]
    show n.val * 1 + 0 = n.val
    omega
  · refine extractStridedSlice_apply _ q hs _ (ix2 n k) fun ax => ?_
    match ax with
    | ⟨0, _⟩ => exact (Nat.zero_add _).symm
    | ⟨1, _⟩ => exact hk.trans (Nat.add_zero _).symm

variable (V : Valuation τ sig (Elt Ideal)) (x y : SArg.Idx → EReal)

/-- Piece C: the component-wise min and max of corners 2 and 0 of the two boxes. -/
theorem winC (h39 : V ⟪main_v39⟫ = arrQ x) (h77 : V ⟪main_v77⟫ = arrQ y) :
    after opsC V ⟪main_v82⟫ = arr2 interMaxR x y ∧ after opsC V ⟪main_v87⟫ = arr2 interMinR x y
      ∧ after opsC V ⟪main_v92⟫ = arr2 outMaxR x y ∧ after opsC V ⟪main_v97⟫ = arr2 outMinR x y := by
  refine ⟨?_, ?_, ?_, ?_⟩
  · -- the smaller of the two high corners
    after_results_simp
    rw [h39, h77]
    funext i
    obtain ⟨n, a, rfl⟩ : ∃ (n : Fin 4000000) (a : Fin 2), i = ix2 n a := ⟨i 0, i 1, eq_ix2 i⟩
    show min (shapeCast S4000000x2 _ _ (ix2 n a)) (shapeCast S4000000x2 _ _ (ix2 n a)) = _
    rw [sliceCorner_apply (arrQ x) 2 2 rfl, sliceCorner_apply (arrQ y) 2 2 rfl]
    rfl
  · -- the larger of the two low corners
    after_results_simp
    rw [h39, h77]
    funext i
    obtain ⟨n, a, rfl⟩ : ∃ (n : Fin 4000000) (a : Fin 2), i = ix2 n a := ⟨i 0, i 1, eq_ix2 i⟩
    show max (shapeCast S4000000x2 _ _ (ix2 n a)) (shapeCast S4000000x2 _ _ (ix2 n a)) = _
    rw [sliceCorner_apply (arrQ x) 0 0 rfl, sliceCorner_apply (arrQ y) 0 0 rfl]
    rfl
  · -- the larger of the two high corners
    after_results_simp
    rw [h39, h77]
    funext i
    obtain ⟨n, a, rfl⟩ : ∃ (n : Fin 4000000) (a : Fin 2), i = ix2 n a := ⟨i 0, i 1, eq_ix2 i⟩
    show max (shapeCast S4000000x2 _ _ (ix2 n a)) (shapeCast S4000000x2 _ _ (ix2 n a)) = _
    rw [sliceCorner_apply (arrQ x) 2 2 rfl, sliceCorner_apply (arrQ y) 2 2 rfl]
    rfl
  · -- the smaller of the two low corners
    after_results_simp
    rw [h39, h77]
    funext i
    obtain ⟨n, a, rfl⟩ : ∃ (n : Fin 4000000) (a : Fin 2), i = ix2 n a := ⟨i 0, i 1, eq_ix2 i⟩
    show min (shapeCast S4000000x2 _ _ (ix2 n a)) (shapeCast S4000000x2 _ _ (ix2 n a)) = _
    rw [sliceCorner_apply (arrQ x) 0 0 rfl, sliceCorner_apply (arrQ y) 0 0 rfl]
    rfl

/-- Piece D: the two volumes and the overlap in x and y, clipped at zero. -/
theorem winD (h0 : V ⟪main_v0⟫ = arr7 x) (h1 : V ⟪main_v1⟫ = arr7 y)
    (h82 : V ⟪main_v82⟫ = arr2 interMaxR x y) (h87 : V ⟪main_v87⟫ = arr2 interMinR x y) :
    after opsD V ⟪main_v105⟫ = arr1 (fun p _ => volR p) x y ∧ after opsD V ⟪main_v113⟫ = arr1 (fun _ g => volR g) x y
      ∧ after opsD V ⟪main_v115⟫ = arr2 interXYR x y := by
  refine ⟨?_, ?_, ?_⟩
  · -- width times length times height of the predicted box
    after_results_simp
    rw [h0]
    funext i
    obtain ⟨n, rfl⟩ : ∃ n : Fin 4000000, i = ix1 n := ⟨i 0, eq_ix1 i⟩
    show shapeCast S4000000 _ _ (ix1 n) * shapeCast S4000000 _ _ (ix1 n) * shapeCast S4000000 _ _ (ix1 n) = _
    rw [sliceCol_apply (arr7 x) 3 3 rfl, sliceCol_apply (arr7 x) 4 4 rfl, sliceCol_apply (arr7 x) 5 5 rfl]
    rfl
  · -- the same of the ground-truth box
    after_results_simp
    rw [h1]
    funext i
    obtain ⟨n, rfl⟩ : ∃ n : Fin 4000000, i = ix1 n := ⟨i 0, eq_ix1 i⟩
    show shapeCast S4000000 _ _ (ix1 n) * shapeCast S4000000 _ _ (ix1 n) * shapeCast S4000000 _ _ (ix1 n) = _
    rw [sliceCol_apply (arr7 y) 3 3 rfl, sliceCol_apply (arr7 y) 4 4 rfl, sliceCol_apply (arr7 y) 5 5 rfl]
    rfl
  · -- the larger of zero, broadcast over the rows and components, and high corner minus low corner
    after_results_simp
    rw [h82, h87]
    funext i
    obtain ⟨n, a, rfl⟩ : ∃ (n : Fin 4000000) (a : Fin 2), i = ix2 n a := ⟨i 0, i 1, eq_ix2 i⟩
    show max (broadcastInDim S4000000x2 ![] bcast_S_S4000000x2 (constant (F := Ideal) S_ .f32 0x00000000#32) (ix2 n a))
        (arr2 interMaxR x y (ix2 n a) - arr2 interMinR x y (ix2 n a)) = _
    rw [Cert.LibHostRows.broadcastInDim_scalar_apply]
    rfl

/-- Pieces E1 and E2: the overlap in z, clipped at zero. -/
theorem winE (h0 : V ⟪main_v0⟫ = arr7 x) (h1 : V ⟪main_v1⟫ = arr7 y) :
    after (opsE1 ++ opsE2) V ⟪main_v147⟫ = arr1 interHR x y := by
  -- the second piece runs from what the first left
  rw [after_append]
  after_results_simp
  rw [h0, h1]
  funext i
  obtain ⟨n, rfl⟩ : ∃ n : Fin 4000000, i = ix1 n := ⟨i 0, eq_ix1 i⟩
  -- the larger of zero and (lower of the two tops z + ½h) minus (higher of the two bottoms z - ½h), entry by entry
  show max (broadcastInDim S4000000 ![] bcast_S_S4000000 (constant (F := Ideal) S_ .f32 0x00000000#32) (ix1 n))
      (min
          (shapeCast S4000000 (extractStridedSlice S4000000x1 ![0, 2] (arr7 x) _) _ (ix1 n)
            + broadcastInDim S4000000 ![] bcast_S_S4000000 (constant (F := Ideal) S_ .f32 0x3F000000#32) (ix1 n)
              * shapeCast S4000000 (extractStridedSlice S4000000x1 ![0, 5] (arr7 x) _) _ (ix1 n))
          (shapeCast S4000000 (extractStridedSlice S4000000x1 ![0, 2] (arr7 y) _) _ (ix1 n)
            + broadcastInDim S4000000 ![] bcast_S_S4000000 (constant (F := Ideal) S_ .f32 0x3F000000#32) (ix1 n)
              * shapeCast S4000000 (extractStridedSlice S4000000x1 ![0, 5] (arr7 y) _) _ (ix1 n))
        - max
          (shapeCast S4000000 (extractStridedSlice S4000000x1 ![0, 2] (arr7 x) _) _ (ix1 n)
            - broadcastInDim S4000000 ![] bcast_S_S4000000 (constant (F := Ideal) S_ .f32 0x3F000000#32) (ix1 n)
              * shapeCast S4000000 (extractStridedSlice S4000000x1 ![0, 5] (arr7 x) _) _ (ix1 n))
          (shapeCast S4000000 (extractStridedSlice S4000000x1 ![0, 2] (arr7 y) _) _ (ix1 n)
            - broadcastInDim S4000000 ![] bcast_S_S4000000 (constant (F := Ideal) S_ .f32 0x3F000000#32) (ix1 n)
              * shapeCast S4000000 (extractStridedSlice S4000000x1 ![0, 5] (arr7 y) _) _ (ix1 n))) = _
  rw [Cert.LibHostRows.broadcastInDim_scalar_apply, Cert.LibHostRows.broadcastInDim_scalar_apply,
    sliceCol_apply (arr7 x) 2 2 rfl, sliceCol_apply (arr7 x) 5 5 rfl,
    sliceCol_apply (arr7 y) 2 2 rfl, sliceCol_apply (arr7 y) 5 5 rfl]
  rfl

end Cert.ReferenceIdeal.Vals

end
-- ==== Proof.RefWinFGHI.lean ====
/-
  From the overlaps towards the result: the intersection's volume, the union and the squared centre distance (piece F),
  and the enclosing box's height (pieces G1, G2). Each array is read row by row: a column cut out of an array of rows
  and flattened reads the row's entry in that column, a scalar constant laid over the rows reads the constant, and the
  sum along a row is the initial value plus the row's entries added up.
-/
import proofs.«411859_j51221779972847_3_alg».proof.Proof.RefForms
import proofs.«411859_j51221779972847_3_alg».proof.Proof.LibHostRows
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

namespace WinFG

/-! ## Layout operations of arrays of rows, read at a row -/

/-- Column `k` of an `a × b` array, cut out as an `a × 1` column and flattened to a vector, read at row `r`. -/
theorem col_apply {a b : ℕ} {α : Type} (c : ℕ) (v : (⟨2, ![a, b]⟩ : Shape).Idx → α)
    (hs : (⟨2, ![a, b]⟩ : Shape).Slices ![0, c] ⟨2, ![a, 1]⟩) (hc : (⟨2, ![a, 1]⟩ : Shape).ShapeCasts ⟨1, ![a]⟩)
    (k : Fin b) (hk : k.val = c) (r : Fin a) :
    shapeCast ⟨1, ![a]⟩ (extractStridedSlice ⟨2, ![a, 1]⟩ ![0, c] v hs) hc (ix1 r) = v (ix2 r k) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply _ v hs (ix2 r (0 : Fin 1)) (ix2 r k) fun ax => ?_
    match ax with
    | ⟨0, _⟩ => show r.val = 0 + r.val; omega
    | ⟨1, _⟩ => show k.val = c + 0; omega

/-- The leading `b'` columns of an `a × b` array, read at an entry. -/
theorem lead_cols_apply {a b b' : ℕ} {α : Type} (v : (⟨2, ![a, b]⟩ : Shape).Idx → α)
    (hs : (⟨2, ![a, b]⟩ : Shape).Slices ![0, 0] ⟨2, ![a, b']⟩) (hb : b' ≤ b) (r : Fin a) (k : Fin b') :
    extractStridedSlice ⟨2, ![a, b']⟩ ![0, 0] v hs (ix2 r k) = v (ix2 r (Fin.castLE hb k)) := by
  refine extractStridedSlice_apply _ v hs (ix2 r k) (ix2 r (Fin.castLE hb k)) fun ax => ?_
  match ax with
  | ⟨0, _⟩ => show r.val = 0 + r.val; omega
  | ⟨1, _⟩ => show k.val = 0 + k.val; omega

/-- Column `c` of an array of rows as the program cuts it out: a one-column slice, flattened to a vector over the rows. -/
def colOf {b : ℕ} (c : ℕ) (hs : (⟨2, ![4000000, b]⟩ : Shape).Slices ![0, c] S4000000x1)
    (v : (⟨2, ![4000000, b]⟩ : Shape).Idx → EReal) : S4000000.Idx → EReal :=
  shapeCast S4000000 (extractStridedSlice S4000000x1 ![0, c] v hs) shapeCasts_S4000000x1_S4000000

/-- It reads the array's entry in that column. -/
theorem colOf_apply {b : ℕ} (c : ℕ) (hs : (⟨2, ![4000000, b]⟩ : Shape).Slices ![0, c] S4000000x1)
    (v : (⟨2, ![4000000, b]⟩ : Shape).Idx → EReal) (k : Fin b) (hk : k.val = c) (n : Fin 4000000) :
    colOf c hs v (ix1 n) = v (ix2 n k) :=
  col_apply c v hs shapeCasts_S4000000x1_S4000000 k hk n

/-- A scalar constant laid over the rows. -/
def constRows (w : BitVec 32) : S4000000.Idx → EReal :=
  broadcastInDim S4000000 ![] bcast_S_S4000000 (constant (F := Ideal) S_ .f32 w)

/-- It reads the constant. -/
theorem constRows_apply (w : BitVec 32) (i : S4000000.Idx) : constRows w i = Ideal.ofBits .f32 w :=
  Cert.LibHostRows.broadcastInDim_scalar_apply _ _ i

end WinFG

open WinFG

variable (V : Valuation τ sig (Elt Ideal)) (x y : SArg.Idx → EReal)

/-- Piece F: intersection volume, union, squared distance of the centres. -/
theorem winF (h0 : V ⟪main_v0⟫ = arr7 x) (h1 : V ⟪main_v1⟫ = arr7 y)
    (h105 : V ⟪main_v105⟫ = arr1 (fun p _ => volR p) x y) (h113 : V ⟪main_v113⟫ = arr1 (fun _ g => volR g) x y)
    (h115 : V ⟪main_v115⟫ = arr2 interXYR x y) (h147 : V ⟪main_v147⟫ = arr1 interHR x y) :
    after opsF V ⟪main_v153⟫ = arr1 interVolR x y ∧ after opsF V ⟪main_v155⟫ = arr1 unionR x y
      ∧ after opsF V ⟪main_v160⟫ = arr1 interDiagR x y := by
  refine ⟨?_, ?_, ?_⟩
  · -- the two components of the clipped overlap, times the overlap of the heights
    after_results_simp
    rw [h115, h147]
    funext i
    obtain ⟨n, rfl⟩ : ∃ n : Fin 4000000, i = ix1 n := ⟨i 0, eq_ix1 i⟩
    simp only [mulf_apply]
    change shapeCast S4000000 _ _ _ * shapeCast S4000000 _ _ _ * _ = _
    rw [col_apply 0 _ _ _ (0 : Fin 2) rfl n, col_apply 1 _ _ _ (1 : Fin 2) rfl n]
    rfl
  · -- the two volumes added, less the intersection's
    after_results_simp
    rw [h113, h105, h115, h147]
    funext i
    obtain ⟨n, rfl⟩ : ∃ n : Fin 4000000, i = ix1 n := ⟨i 0, eq_ix1 i⟩
    simp only [subf_apply, addf_apply, mulf_apply]
    change _ + _ - shapeCast S4000000 _ _ _ * shapeCast S4000000 _ _ _ * _ = _
    rw [col_apply 0 _ _ _ (0 : Fin 2) rfl n, col_apply 1 _ _ _ (1 : Fin 2) rfl n]
    rfl
  · -- the sum over the three centre coordinates of the squared differences, from zero
    after_results_simp
    rw [h0, h1]
    funext i
    obtain ⟨n, rfl⟩ : ∃ n : Fin 4000000, i = ix1 n := ⟨i 0, eq_ix1 i⟩
    rw [Cert.LibHostRows.hostReduceAdd_rows_apply]
    unfold arr1 interDiagR
    refine congrArg₂ (· + ·) rfl (Finset.sum_congr rfl fun k _ => ?_)
    simp only [mulf_apply, subf_apply]
    rw [lead_cols_apply _ _ (by decide) n k, lead_cols_apply _ _ (by decide) n k]
    rfl

/-- Pieces G1 and G2: the enclosing box's height, clipped at zero. -/
theorem winG (h0 : V ⟪main_v0⟫ = arr7 x) (h1 : V ⟪main_v1⟫ = arr7 y) :
    after (opsG1 ++ opsG2) V ⟪main_v192⟫ = arr1 outerHR x y := by
  rw [after_append]
  after_results_simp
  rw [h0, h1]
  funext i
  obtain ⟨n, rfl⟩ : ∃ n : Fin 4000000, i = ix1 n := ⟨i 0, eq_ix1 i⟩
  -- the clip's changes of type are identities and every arithmetic step is entry by entry: at row n the term is
  -- max 0 (max (top of p) (top of g) - min (bottom of p) (bottom of g)), top and bottom being z ± ½ h
  change max (constRows 0x00000000#32 (ix1 n))
      (max (colOf 2 slices_S4000000x7_S4000000x1_0_2 (arr7 x) (ix1 n)
              + constRows 0x3F000000#32 (ix1 n) * colOf 5 slices_S4000000x7_S4000000x1_0_5 (arr7 x) (ix1 n))
           (colOf 2 slices_S4000000x7_S4000000x1_0_2 (arr7 y) (ix1 n)
              + constRows 0x3F000000#32 (ix1 n) * colOf 5 slices_S4000000x7_S4000000x1_0_5 (arr7 y) (ix1 n))
        - min (colOf 2 slices_S4000000x7_S4000000x1_0_2 (arr7 x) (ix1 n)
              - constRows 0x3F000000#32 (ix1 n) * colOf 5 slices_S4000000x7_S4000000x1_0_5 (arr7 x) (ix1 n))
            (colOf 2 slices_S4000000x7_S4000000x1_0_2 (arr7 y) (ix1 n)
              - constRows 0x3F000000#32 (ix1 n) * colOf 5 slices_S4000000x7_S4000000x1_0_5 (arr7 y) (ix1 n))) = _
  simp only [constRows_apply, colOf_apply 2 _ _ (2 : Fin 7) rfl, colOf_apply 5 _ _ (5 : Fin 7) rfl]
  rfl

end Cert.ReferenceIdeal.Vals

end
-- ==== Proof.RefWinHI.lean ====
/-
  The end of the reference's line: the enclosing box's squared diagonal (piece H), and the clipped loss of every row,
  summed over the rows and divided by their number (piece I).
-/
import proofs.«411859_j51221779972847_3_alg».proof.Proof.RefForms
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

variable (V : Valuation τ sig (Elt Ideal)) (x y : SArg.Idx → EReal)

namespace WinHI

/-- The rows' index set is the rows: an index of the one-axis shape is its one coordinate. -/
def rowEquiv : S4000000.Idx ≃ Fin 4000000 where
  toFun i := i 0
  invFun n := ix1 n
  left_inv i := (eq_ix1 i).symm
  right_inv _ := rfl

/-- A sum over the rows' index set is the sum over the rows. -/
theorem sum_rows (f : S4000000.Idx → EReal) : ∑ i, f i = ∑ n : Fin 4000000, f (ix1 n) :=
  Fintype.sum_equiv rowEquiv f (fun n => f (ix1 n)) fun i => congrArg f (eq_ix1 i)

/-- One column of an array of pairs, sliced out and laid flat over the rows, reads the pair's component. -/
theorem pairCol_apply (v : S4000000x2.Idx → EReal) (off : Fin S4000000x2.rank → ℕ) (hs : S4000000x2.Slices off S4000000x1)
    (hc : S4000000x1.ShapeCasts S4000000) (n : Fin 4000000) (a : Fin 2) (h0 : off 0 = 0) (h1 : off 1 = a.val) :
    shapeCast S4000000 (extractStridedSlice S4000000x1 off v hs) hc (ix1 n) = v (ix2 n a) := by
  -- the flat position n is the position n * 1 + 0 of the column; the slice shifts the second coordinate by its offset
  refine (shapeCast_apply _ hc (ix1 n) (ix2 n (0 : Fin 1)) ?_).trans
    (extractStridedSlice_apply off v hs (ix2 n (0 : Fin 1)) (ix2 n a) fun ax => ?_)
  · rw [Shape.rowMajor_val_one, Shape.rowMajor_val_two]
    show n.val * 1 + 0 = n.val
    omega
  · match ax with
    | ⟨0, _⟩ => show n.val = off 0 + n.val; omega
    | ⟨1, _⟩ => show a.val = off 1 + 0; omega

/-- The clip from below at 0 of an array of pairs: the larger of 0 and the entry, in that order. -/
def clipPairs (d : S4000000x2.Idx → EReal) : S4000000x2.Idx → EReal :=
  maximumf (F := Ideal) (φ := .f32) (broadcastInDim S4000000x2 ![] bcast_S_S4000000x2 (constant (F := Ideal) S_ .f32 0x00000000#32)) d

theorem clipPairs_apply (d : S4000000x2.Idx → EReal) (j : S4000000x2.Idx) : clipPairs d j = max cZ (d j) := rfl

/-- A scalar word spread over the rows. -/
def constRows (w : BitVec 32) : S4000000.Idx → EReal :=
  broadcastInDim S4000000 ![] bcast_S_S4000000 (constant (F := Ideal) S_ .f32 w)

theorem constRows_apply (w : BitVec 32) (i : S4000000.Idx) : constRows w i = Ideal.ofBits .f32 w := rfl

/-- The loss of every row in the reference's order: 1 - min(1, max(-1, IoU - distance ratio)). -/
def lossRows (iv un idg odg : S4000000.Idx → EReal) : S4000000.Idx → EReal :=
  subf (F := Ideal) (φ := .f32) (constRows 0x3F800000#32)
    (minimumf (F := Ideal) (φ := .f32) (constRows 0x3F800000#32)
      (maximumf (F := Ideal) (φ := .f32) (constRows 0xBF800000#32)
        (subf (F := Ideal) (φ := .f32) (Host.divf (F := Ideal) (φ := .f32) iv un) (Host.divf (F := Ideal) (φ := .f32) idg odg))))

theorem lossRows_apply (iv un idg odg : S4000000.Idx → EReal) (i : S4000000.Idx) :
    lossRows iv un idg odg i = cOne - min cOne (max cNegOne (Ideal.div (iv i) (un i) - Ideal.div (idg i) (odg i))) := rfl

end WinHI

open WinHI

/-- Piece H: the enclosing box's squared diagonal. -/
theorem winH (h92 : V ⟪main_v92⟫ = arr2 outMaxR x y) (h97 : V ⟪main_v97⟫ = arr2 outMinR x y)
    (h192 : V ⟪main_v192⟫ = arr1 outerHR x y) :
    after opsH V ⟪main_v203⟫ = arr1 outerDiagR x y := by
  after_results_simp
  rw [h92, h97, h192]
  funext i
  obtain ⟨n, rfl⟩ : ∃ n : Fin 4000000, i = ix1 n := ⟨i 0, eq_ix1 i⟩
  -- the call of clip returns the clipped differences; its two columns are laid flat, squared and added to the squared height
  show shapeCast S4000000 (extractStridedSlice S4000000x1 ![0, 0] (clipPairs (subf (F := Ideal) (φ := .f32) (arr2 outMaxR x y) (arr2 outMinR x y)))
        slices_S4000000x2_S4000000x1_0_0) shapeCasts_S4000000x1_S4000000 (ix1 n)
      * shapeCast S4000000 (extractStridedSlice S4000000x1 ![0, 0] (clipPairs (subf (F := Ideal) (φ := .f32) (arr2 outMaxR x y) (arr2 outMinR x y)))
        slices_S4000000x2_S4000000x1_0_0) shapeCasts_S4000000x1_S4000000 (ix1 n)
      + shapeCast S4000000 (extractStridedSlice S4000000x1 ![0, 1] (clipPairs (subf (F := Ideal) (φ := .f32) (arr2 outMaxR x y) (arr2 outMinR x y)))
        slices_S4000000x2_S4000000x1_0_1) shapeCasts_S4000000x1_S4000000 (ix1 n)
      * shapeCast S4000000 (extractStridedSlice S4000000x1 ![0, 1] (clipPairs (subf (F := Ideal) (φ := .f32) (arr2 outMaxR x y) (arr2 outMinR x y)))
        slices_S4000000x2_S4000000x1_0_1) shapeCasts_S4000000x1_S4000000 (ix1 n)
      + arr1 outerHR x y (ix1 n) * arr1 outerHR x y (ix1 n)
    = outerDiagR (rowOf x n) (rowOf y n)
  rw [pairCol_apply _ _ slices_S4000000x2_S4000000x1_0_0 _ n 0 rfl rfl, pairCol_apply _ _ slices_S4000000x2_S4000000x1_0_1 _ n 1 rfl rfl,
    clipPairs_apply, clipPairs_apply]
  rfl

/-- Piece I: the clipped loss of every row, summed, over the number of rows. -/
theorem winI (h153 : V ⟪main_v153⟫ = arr1 interVolR x y) (h155 : V ⟪main_v155⟫ = arr1 unionR x y)
    (h160 : V ⟪main_v160⟫ = arr1 interDiagR x y) (h203 : V ⟪main_v203⟫ = arr1 outerDiagR x y) :
    after opsI V ⟪main_v211⟫ = fun _ => total lossR x y := by
  after_results_simp
  rw [h153, h155, h160, h203]
  funext j
  -- the call of clip_1 returns min(1, max(-1, ·)); one minus it is the rows' loss, summed from 0 and divided by the count
  show Ideal.div (Host.reduceAdd (F := Ideal) (φ := .f32)
        (lossRows (arr1 interVolR x y) (arr1 unionR x y) (arr1 interDiagR x y) (arr1 outerDiagR x y))
        (constant (F := Ideal) S_ .f32 0x00000000#32) reducesTo_S4000000_S_d0 h_S_ j) cN = total lossR x y
  unfold Host.reduceAdd
  rw [Ideal.hostReduceAdd_def, Ideal.hostReduceAdd_total reducesTo_S4000000_S_d0 (fun b => b.elim0)]
  show Ideal.div (Ideal.ofBits .f32 0x00000000#32 + _) cN = _
  rw [Ideal.ofBits_zero_f32, zero_add, sum_rows]
  -- row by row the summand is the reference's loss of the row's pair of boxes
  exact congrArg (fun s => Ideal.div s cN) (Finset.sum_congr rfl fun n _ => rfl)

end Cert.ReferenceIdeal.Vals

end
-- ==== Proof.RefValue.lean ====
/-
  The reference's result. The line of operations is nine windows run one after the other; each window's lemma gives
  the buffers it computes as closed forms of the two argument arrays, given the closed forms of the buffers it reads; a
  buffer a window does not write keeps its contents through it. Chained, the result buffer holds the sum of the pair
  losses (in the reference's order) over all rows, divided by the number of rows; the arguments are never written.
-/
import proofs.«411859_j51221779972847_3_alg».proof.Proof.RefRun
import proofs.«411859_j51221779972847_3_alg».proof.Proof.RefWinAB
import proofs.«411859_j51221779972847_3_alg».proof.Proof.RefWinB
import proofs.«411859_j51221779972847_3_alg».proof.Proof.RefWinCDE
import proofs.«411859_j51221779972847_3_alg».proof.Proof.RefWinFGHI
import proofs.«411859_j51221779972847_3_alg».proof.Proof.RefWinHI
import Idealize.ShloMosaic.Lib.ValueIdx
import Idealize.ShloMosaic.Lib.Pipeline.Value
import Idealize.ShloMosaic.PureOps.Ideal.Laws

noncomputable section

namespace Cert.ReferenceIdeal.Vals

open Cert.ReferenceIdeal Cert.ReferenceIdeal.Gen Cert.ReferenceIdeal.Ops Cert.Spec
open Idealize.ShloMosaic Idealize.ShloMosaic.TcCoe Idealize.SL.Sem Idealize.ShloMosaic.StableHlo Idealize.ShloMosaic.ValueIdx

/-! ## A buffer a window does not write keeps its contents -/

theorem keepB_v0 (V : Valuation τ sig (Elt Ideal)) : after (opsB1 ++ opsB2) V ⟪main_v0⟫ = V ⟪main_v0⟫ := by
  rw [after_append]; after_results_simp
theorem keepB_v1 (V : Valuation τ sig (Elt Ideal)) : after (opsB1 ++ opsB2) V ⟪main_v1⟫ = V ⟪main_v1⟫ := by
  rw [after_append]; after_results_simp
theorem keepB_v39 (V : Valuation τ sig (Elt Ideal)) : after (opsB1 ++ opsB2) V ⟪main_v39⟫ = V ⟪main_v39⟫ := by
  rw [after_append]; after_results_simp
theorem keepC_v0 (V : Valuation τ sig (Elt Ideal)) : after opsC V ⟪main_v0⟫ = V ⟪main_v0⟫ := by
  after_results_simp
theorem keepC_v1 (V : Valuation τ sig (Elt Ideal)) : after opsC V ⟪main_v1⟫ = V ⟪main_v1⟫ := by
  after_results_simp
theorem keepD_v0 (V : Valuation τ sig (Elt Ideal)) : after opsD V ⟪main_v0⟫ = V ⟪main_v0⟫ := by
  after_results_simp
theorem keepD_v1 (V : Valuation τ sig (Elt Ideal)) : after opsD V ⟪main_v1⟫ = V ⟪main_v1⟫ := by
  after_results_simp
theorem keepD_v92 (V : Valuation τ sig (Elt Ideal)) : after opsD V ⟪main_v92⟫ = V ⟪main_v92⟫ := by
  after_results_simp
theorem keepD_v97 (V : Valuation τ sig (Elt Ideal)) : after opsD V ⟪main_v97⟫ = V ⟪main_v97⟫ := by
  after_results_simp
theorem keepE_v0 (V : Valuation τ sig (Elt Ideal)) : after (opsE1 ++ opsE2) V ⟪main_v0⟫ = V ⟪main_v0⟫ := by
  rw [after_append]; after_results_simp
theorem keepE_v1 (V : Valuation τ sig (Elt Ideal)) : after (opsE1 ++ opsE2) V ⟪main_v1⟫ = V ⟪main_v1⟫ := by
  rw [after_append]; after_results_simp
theorem keepE_v92 (V : Valuation τ sig (Elt Ideal)) : after (opsE1 ++ opsE2) V ⟪main_v92⟫ = V ⟪main_v92⟫ := by
  rw [after_append]; after_results_simp
theorem keepE_v97 (V : Valuation τ sig (Elt Ideal)) : after (opsE1 ++ opsE2) V ⟪main_v97⟫ = V ⟪main_v97⟫ := by
  rw [after_append]; after_results_simp
theorem keepE_v105 (V : Valuation τ sig (Elt Ideal)) : after (opsE1 ++ opsE2) V ⟪main_v105⟫ = V ⟪main_v105⟫ := by
  rw [after_append]; after_results_simp
theorem keepE_v113 (V : Valuation τ sig (Elt Ideal)) : after (opsE1 ++ opsE2) V ⟪main_v113⟫ = V ⟪main_v113⟫ := by
  rw [after_append]; after_results_simp
theorem keepE_v115 (V : Valuation τ sig (Elt Ideal)) : after (opsE1 ++ opsE2) V ⟪main_v115⟫ = V ⟪main_v115⟫ := by
  rw [after_append]; after_results_simp
theorem keepF_v0 (V : Valuation τ sig (Elt Ideal)) : after opsF V ⟪main_v0⟫ = V ⟪main_v0⟫ := by
  after_results_simp
theorem keepF_v1 (V : Valuation τ sig (Elt Ideal)) : after opsF V ⟪main_v1⟫ = V ⟪main_v1⟫ := by
  after_results_simp
theorem keepF_v92 (V : Valuation τ sig (Elt Ideal)) : after opsF V ⟪main_v92⟫ = V ⟪main_v92⟫ := by
  after_results_simp
theorem keepF_v97 (V : Valuation τ sig (Elt Ideal)) : after opsF V ⟪main_v97⟫ = V ⟪main_v97⟫ := by
  after_results_simp
theorem keepG_v92 (V : Valuation τ sig (Elt Ideal)) : after (opsG1 ++ opsG2) V ⟪main_v92⟫ = V ⟪main_v92⟫ := by
  rw [after_append]; after_results_simp
theorem keepG_v97 (V : Valuation τ sig (Elt Ideal)) : after (opsG1 ++ opsG2) V ⟪main_v97⟫ = V ⟪main_v97⟫ := by
  rw [after_append]; after_results_simp
theorem keepG_v153 (V : Valuation τ sig (Elt Ideal)) : after (opsG1 ++ opsG2) V ⟪main_v153⟫ = V ⟪main_v153⟫ := by
  rw [after_append]; after_results_simp
theorem keepG_v155 (V : Valuation τ sig (Elt Ideal)) : after (opsG1 ++ opsG2) V ⟪main_v155⟫ = V ⟪main_v155⟫ := by
  rw [after_append]; after_results_simp
theorem keepG_v160 (V : Valuation τ sig (Elt Ideal)) : after (opsG1 ++ opsG2) V ⟪main_v160⟫ = V ⟪main_v160⟫ := by
  rw [after_append]; after_results_simp
theorem keepH_v153 (V : Valuation τ sig (Elt Ideal)) : after opsH V ⟪main_v153⟫ = V ⟪main_v153⟫ := by
  after_results_simp
theorem keepH_v155 (V : Valuation τ sig (Elt Ideal)) : after opsH V ⟪main_v155⟫ = V ⟪main_v155⟫ := by
  after_results_simp
theorem keepH_v160 (V : Valuation τ sig (Elt Ideal)) : after opsH V ⟪main_v160⟫ = V ⟪main_v160⟫ := by
  after_results_simp

/-- The whole line, window after window. -/
theorem after_ops (V : Valuation τ sig (Elt Ideal)) :
    after ops V = after opsI (after opsH (after (opsG1 ++ opsG2) (after opsF (after (opsE1 ++ opsE2) (after opsD (after opsC
      (after (opsB1 ++ opsB2) (after opsA V)))))))) := by
  simp only [ops, List.append_assoc, after_append]

/-- The result buffer after the whole line: the reference's total of the launch's argument arrays. -/
theorem result_eq (V : Valuation τ sig (Elt Ideal)) (x y : SArg.Idx → EReal) (hx : V ⟪main_arg0⟫ = x) (hy : V ⟪main_arg1⟫ = y) :
    after ops V ⟪main_v211⟫ = fun _ => total lossR x y := by
  rw [after_ops]
  obtain ⟨hc, a0, a1, a39⟩ := winA V x y hx hy
  have b77 := winB (after opsA V) y hc a1
  have b0 := (keepB_v0 (after opsA V)).trans a0
  have b1 := (keepB_v1 (after opsA V)).trans a1
  have b39 := (keepB_v39 (after opsA V)).trans a39
  obtain ⟨c82, c87, c92, c97⟩ := winC (after (opsB1 ++ opsB2) (after opsA V)) x y b39 b77
  have c0 := (keepC_v0 _).trans b0
  have c1 := (keepC_v1 _).trans b1
  obtain ⟨d105, d113, d115⟩ := winD (after opsC (after (opsB1 ++ opsB2) (after opsA V))) x y c0 c1 c82 c87
  have d0 := (keepD_v0 _).trans c0
  have d1 := (keepD_v1 _).trans c1
  have d92 := (keepD_v92 _).trans c92
  have d97 := (keepD_v97 _).trans c97
  have e147 := winE (after opsD (after opsC (after (opsB1 ++ opsB2) (after opsA V)))) x y d0 d1
  have e0 := (keepE_v0 _).trans d0
  have e1 := (keepE_v1 _).trans d1
  have e92 := (keepE_v92 _).trans d92
  have e97 := (keepE_v97 _).trans d97
  have e105 := (keepE_v105 _).trans d105
  have e113 := (keepE_v113 _).trans d113
  have e115 := (keepE_v115 _).trans d115
  obtain ⟨f153, f155, f160⟩ := winF (after (opsE1 ++ opsE2) (after opsD (after opsC (after (opsB1 ++ opsB2) (after opsA V))))) x y
    e0 e1 e105 e113 e115 e147
  have f0 := (keepF_v0 _).trans e0
  have f1 := (keepF_v1 _).trans e1
  have f92 := (keepF_v92 _).trans e92
  have f97 := (keepF_v97 _).trans e97
  have g192 := winG (after opsF (after (opsE1 ++ opsE2) (after opsD (after opsC (after (opsB1 ++ opsB2) (after opsA V)))))) x y f0 f1
  have g92 := (keepG_v92 _).trans f92
  have g97 := (keepG_v97 _).trans f97
  have g153 := (keepG_v153 _).trans f153
  have g155 := (keepG_v155 _).trans f155
  have g160 := (keepG_v160 _).trans f160
  have h203 := winH (after (opsG1 ++ opsG2) (after opsF (after (opsE1 ++ opsE2) (after opsD (after opsC (after (opsB1 ++ opsB2) (after opsA V))))))) x y
    g92 g97 g192
  have h153 := (keepH_v153 _).trans g153
  have h155 := (keepH_v155 _).trans g155
  have h160 := (keepH_v160 _).trans g160
  exact winI _ x y h153 h155 h160 h203

/-- The line writes neither argument array. -/
theorem arg0_kept (V : Valuation τ sig (Elt Ideal)) : after ops V ⟪main_arg0⟫ = V ⟪main_arg0⟫ := by
  simp only [ops, after_append]
  after_results_simp
theorem arg1_kept (V : Valuation τ sig (Elt Ideal)) : after ops V ⟪main_arg1⟫ = V ⟪main_arg1⟫ := by
  simp only [ops, after_append]
  after_results_simp

/-- Every weakly fair execution of the reference ends with the result at the total, in the reference's order, of the
    launch's argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v211)
          = (fun _ => total lossR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v211).trans (result_eq (launchContents m c) _ _ rfl rfl),
      (h c main_arg0).trans (arg0_kept (launchContents m c)), (h c main_arg1).trans (arg1_kept (launchContents m c))⟩)
    (run_after m ρ)

end Cert.ReferenceIdeal.Vals

end
-- ==== Proof.SpecLaw.lean ====
/-
  On finite boxes the reference's order and the kernel's order of the pair loss give one number. Every step is a
  commutation of +, ·, max or min on the extended reals, or 0 - a = -a, or a three-term sum written out, except the high
  corner: the kernel takes the centre MINUS the turned (-½w, -½l), the reference the turned (½w, ½l) PLUS the centre;
  these agree on real numbers (a ring identity, with -½ = -(½) read off the two literals' binary words).
-/
import proofs.«411859_j51221779972847_3_alg».proof.Proof.Spec

noncomputable section

namespace Cert.Spec

open Idealize.ShloMosaic Idealize.ShloMosaic.ValueIdx

/-! ## The two literals that are evaluated -/

/-- The word 0x3F000000 denotes the real ½. -/
theorem cH_eq : cH = (((1 : ℝ) / 2 : ℝ) : EReal) := by
  show Ideal.ofBits .f32 0x3F000000#32 = _
  simp [Ideal.ofBits, Ideal.ieee, -EReal.coe_mul]; norm_num

/-- The word 0xBF000000 denotes the real -½. -/
theorem cNH_eq : cNH = ((-((1 : ℝ) / 2) : ℝ) : EReal) := by
  show Ideal.ofBits .f32 0xBF000000#32 = _
  simp [Ideal.ofBits, Ideal.ieee, -EReal.coe_mul]; norm_num

/-- The word 0x00000000 denotes 0. -/
theorem cZ_eq : cZ = 0 := Ideal.ofBits_zero_f32

/-! ## The four corners that enter the loss -/

/-- The low corner's x: the reference's (w·(-½))·cos + (l·(-½))·sin + x is the kernel's x + ((-½)·w·cos + (-½)·l·sin),
    by commuting the two products and the outer sum. -/
theorem qcR_zero_zero (p : Fin 7 → EReal) : qcR p 0 0 = p 0 + offX (p 3) (p 4) (p 6) := by
  show p 3 * cNH * Ideal.cos (p 6) + p 4 * cNH * Ideal.sin (p 6) + p 0
      = p 0 + (cNH * p 3 * Ideal.cos (p 6) + cNH * p 4 * Ideal.sin (p 6))
  rw [mul_comm (p 3) cNH, mul_comm (p 4) cNH, add_comm _ (p 0)]

/-- The low corner's y: as for x, with the kernel's 0 - (-½)·w read as -((-½)·w). -/
theorem qcR_zero_one (p : Fin 7 → EReal) : qcR p 0 1 = p 1 + offY (p 3) (p 4) (p 6) := by
  show -(p 3 * cNH) * Ideal.sin (p 6) + p 4 * cNH * Ideal.cos (p 6) + p 1
      = p 1 + ((cZ - cNH * p 3) * Ideal.sin (p 6) + cNH * p 4 * Ideal.cos (p 6))
  rw [cZ_eq, zero_sub, mul_comm (p 3) cNH, mul_comm (p 4) cNH, add_comm _ (p 1)]

/-- The high corner's x on a box of reals: (w·½)·cos + (l·½)·sin + x = x - ((-½)·w·cos + (-½)·l·sin) in ℝ. -/
theorem qcR_two_zero (p : Fin 7 → EReal) (hp : ∀ k, ∃ r : ℝ, p k = (r : EReal)) :
    qcR p 2 0 = p 0 - offX (p 3) (p 4) (p 6) := by
  obtain ⟨a, ha⟩ := hp 0
  obtain ⟨w, hw⟩ := hp 3
  obtain ⟨l, hl⟩ := hp 4
  obtain ⟨t, ht⟩ := hp 6
  show p 3 * cH * Ideal.cos (p 6) + p 4 * cH * Ideal.sin (p 6) + p 0
      = p 0 - (cNH * p 3 * Ideal.cos (p 6) + cNH * p 4 * Ideal.sin (p 6))
  rw [ha, hw, hl, ht, cH_eq, cNH_eq, Ideal.cos_coe, Ideal.sin_coe]
  simp only [← EReal.coe_mul, ← EReal.coe_add, ← EReal.coe_sub]
  exact congrArg _ (by ring)

/-- The high corner's y on a box of reals: -(w·½)·sin + (l·½)·cos + y = y - ((0 - (-½)·w)·sin + (-½)·l·cos) in ℝ. -/
theorem qcR_two_one (p : Fin 7 → EReal) (hp : ∀ k, ∃ r : ℝ, p k = (r : EReal)) :
    qcR p 2 1 = p 1 - offY (p 3) (p 4) (p 6) := by
  obtain ⟨b, hb⟩ := hp 1
  obtain ⟨w, hw⟩ := hp 3
  obtain ⟨l, hl⟩ := hp 4
  obtain ⟨t, ht⟩ := hp 6
  show -(p 3 * cH) * Ideal.sin (p 6) + p 4 * cH * Ideal.cos (p 6) + p 1
      = p 1 - ((cZ - cNH * p 3) * Ideal.sin (p 6) + cNH * p 4 * Ideal.cos (p 6))
  rw [cZ_eq, zero_sub, hb, hw, hl, ht, cH_eq, cNH_eq, Ideal.cos_coe, Ideal.sin_coe]
  simp only [← EReal.coe_mul, ← EReal.coe_neg, ← EReal.coe_add, ← EReal.coe_sub]
  exact congrArg _ (by ring)

/-! ## The parts of the loss, from the reference's order to the kernel's -/

theorem interXYR_eq (p g : Fin 7 → EReal) (a : Fin 2) :
    interXYR p g a = max (min (qcR p 2 a) (qcR g 2 a) - max (qcR p 0 a) (qcR g 0 a)) cZ :=
  max_comm cZ _

theorem interHR_eq (p g : Fin 7 → EReal) :
    interHR p g = max (min (p 2 + cH * p 5) (g 2 + cH * g 5) - max (p 2 - cH * p 5) (g 2 - cH * g 5)) cZ :=
  max_comm cZ _

theorem outerR_eq (p g : Fin 7 → EReal) (a : Fin 2) :
    outerR p g a = max (max (qcR p 2 a) (qcR g 2 a) - min (qcR p 0 a) (qcR g 0 a)) cZ :=
  max_comm cZ _

theorem outerHR_eq (p g : Fin 7 → EReal) :
    outerHR p g = max (max (p 2 + cH * p 5) (g 2 + cH * g 5) - min (p 2 - cH * p 5) (g 2 - cH * g 5)) cZ :=
  max_comm cZ _

/-- The squared centre distance: the sum over three coordinates written out, its starting value 0 dropped. -/
theorem interDiagR_eq (p g : Fin 7 → EReal) :
    interDiagR p g = (g 0 - p 0) * (g 0 - p 0) + (g 1 - p 1) * (g 1 - p 1) + (g 2 - p 2) * (g 2 - p 2) := by
  unfold interDiagR
  rw [Fin.sum_univ_three, cZ_eq, zero_add]
  rfl

/-- The reference's loss is the kernel's chain of steps applied to the reference's own four corners. -/
theorem lossR_eq_core (p g : Fin 7 → EReal) :
    lossR p g = core (qcR p 0 0) (qcR p 0 1) (qcR p 2 0) (qcR p 2 1) (qcR g 0 0) (qcR g 0 1) (qcR g 2 0) (qcR g 2 1) p g := by
  unfold lossR unionR interVolR outerDiagR volR
  rw [interXYR_eq p g 0, interXYR_eq p g 1, interHR_eq, interDiagR_eq, outerR_eq p g 0, outerR_eq p g 1, outerHR_eq,
    min_comm cOne, max_comm cNegOne]
  rfl

/-- On boxes of real numbers the two orders give one loss. -/
theorem lossR_eq_lossK (p g : Fin 7 → EReal) (hp : ∀ k, ∃ r : ℝ, p k = (r : EReal)) (hg : ∀ k, ∃ r : ℝ, g k = (r : EReal)) :
    lossR p g = lossK p g := by
  rw [lossR_eq_core, qcR_zero_zero p, qcR_zero_one p, qcR_two_zero p hp, qcR_two_one p hp,
    qcR_zero_zero g, qcR_zero_one g, qcR_two_zero g hg, qcR_two_one g hg]
  rfl

/-- So on finite arrays the two results are one number. -/
theorem total_lossR_eq (x y : SArg.Idx → EReal) (hx : ∀ i, ∃ r : ℝ, x i = (r : EReal)) (hy : ∀ i, ∃ r : ℝ, y i = (r : EReal)) :
    total lossR x y = total lossK x y := by
  unfold total
  exact congrArg (fun s => Ideal.div s cN) (Finset.sum_congr rfl fun n _ =>
    lossR_eq_lossK _ _ (fun k => hx _) (fun k => hy _))

end Cert.Spec

end
-- ==== Proof.Finite.lean ====
/-
  The precondition says every entry of both argument arrays is below +∞ in absolute value; an extended real whose
  absolute value is below +∞ is a real number.
-/
import proofs.«411859_j51221779972847_3_alg».proof.Defs
import proofs.«411859_j51221779972847_3_alg».proof.Proof.Gen.KernelIdeal
import proofs.«411859_j51221779972847_3_alg».proof.Proof.Gen.Pre_finite_inputs
import Idealize.ShloMosaic.Lib.ReduceAll
import Idealize.ShloMosaic.Lib.ValueIdx

noncomputable section

namespace Cert.Finite

open Idealize.ShloMosaic Idealize.SL.Sem Idealize.ShloMosaic.ValueIdx Cert.KernelIdeal

/-- The shape with no axes has one index. -/
instance : Subsingleton Cert.Pre_finite_inputs.S_.Idx := ⟨fun _ _ => funext fun d => d.elim0⟩

/-- The word 0x7F800000 denotes +∞. -/
theorem inf_eq : Ideal.ofBits .f32 0x7F800000#32 = (⊤ : EReal) := by
  simp [Ideal.ofBits, Ideal.ieee]

/-- An extended real whose absolute value max x (-x) is below +∞ is a real number: for -∞ and for +∞ that maximum
    is +∞ itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison |x| < +∞ that came out true, read back. -/
theorem real_of_cmp (x : EReal) (h : Ideal.cmp .olt (max x (-x)) (Ideal.ofBits .f32 0x7F800000#32) = 1#1) :
    ∃ r : ℝ, x = (r : EReal) := by
  rw [inf_eq] at h
  refine real_of_abs_lt_top x ?_
  by_contra hn
  have h' : BitVec.ofBool (decide (max x (-x) < ⊤)) = 1#1 := h
  rw [decide_eq_false hn] at h'
  exact absurd h' (by decide)

/-- Under the precondition both argument arrays of the idealized kernel hold real numbers, on every device. -/
theorem real_of_pre (m : (ℓ : Loc nD τ sig) → Buf (Elt Ideal) ℓ) (h : Cert.Pre_KernelIdeal m) (c : Dev nD) :
    (∀ i, ∃ r : ℝ, m ((c.tc : Thread nD τ).loc main_arg0) i = (r : EReal))
      ∧ (∀ i, ∃ r : ℝ, m ((c.tc : Thread nD τ).loc main_arg1) i = (r : EReal)) := by
  have h0 := congrFun (h c) ValueIdx.ix0
  dsimp only [Cert.Pre_finite_inputs.fn] at h0
  obtain ⟨ha, hb⟩ := IntOp.andi_eq_one.1 h0
  exact ⟨fun i => real_of_cmp _ (Host.reduce_andi_all _ _ _ _ _ ha i),
    fun i => real_of_cmp _ (Host.reduce_andi_all _ _ _ _ _ hb i)⟩

end Cert.Finite

end
-- ==== Proof.lean ====
/-
  The certificate: a Pallas kernel's mean DIoU-style box loss over 4,000,000 pairs of boxes against its jnp reference,
  equal as extended reals on finite inputs.

  Both programs compute, for every row, a loss of the predicted and the ground-truth box (seven numbers each: centre,
  extents, yaw): one minus the clipped difference of the boxes' intersection-over-union and the squared centre distance
  over the enclosing box's squared diagonal, the footprints taken from the low and high corners of the turned
  rectangles. The kernel walks the rows in 200 blocks of 20,000 on a (2, 100) grid, sums each block's losses, carries
  the running sum of a core's 100 blocks in a one-word accumulator, writes it to entry (8q, 0) of a zeroed [16, 128]
  array at the core's last block, and the host sums that array and divides by 4,000,000. The reference computes the
  losses of all rows at once, sums them and divides by the same constant.

  - The kernel's side (KBody, KAcc, KRun): what each grid point leaves in the accumulator, the accumulator after each
    point as a sum over the core's points so far, the output array, the host's sum of it; a point's blocks are rows
    20000t .. 20000t + 19999 of the arguments, so the result is the sum of the row losses over all rows over 4,000,000.
  - The reference's side (RefOps, RefRun, RefWin*, RefValue): its straight line of host operations run window by window,
    each window's buffers as closed forms of the arguments; the result is the same sum with the row loss written in the
    reference's order of operations.
  - The two orders of the row loss agree on real numbers (SpecLaw): everything is a commutation of +, ·, max, min but
    the high corner, where centre - turned(-½w, -½l) = turned(½w, ½l) + centre is a ring identity; the precondition makes
    every entry real (Finite). Sums on the extended reals commute and associate, so the regrouping by blocks is free.
  - The frames of the kernel and of its idealization are the generated ones; the reference's frame is its run with the
    result dropped; the ideal pass rewrote nothing, so `preserves` is trivial.
-/
import proofs.«411859_j51221779972847_3_alg».proof.Defs
import proofs.«411859_j51221779972847_3_alg».proof.Proof.Gen.Kernel
import proofs.«411859_j51221779972847_3_alg».proof.Proof.Gen.Kernel.Frame
import proofs.«411859_j51221779972847_3_alg».proof.Proof.Gen.KernelIdeal
import proofs.«411859_j51221779972847_3_alg».proof.Proof.Gen.KernelIdeal.Frame
import proofs.«411859_j51221779972847_3_alg».proof.Proof.Gen.ReferenceIdeal
import proofs.«411859_j51221779972847_3_alg».proof.Proof.Gen.Pre_finite_inputs
import proofs.«411859_j51221779972847_3_alg».proof.Proof.KRun
import proofs.«411859_j51221779972847_3_alg».proof.Proof.RefValue
import proofs.«411859_j51221779972847_3_alg».proof.Proof.SpecLaw
import proofs.«411859_j51221779972847_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Vals.run m ρ)

theorem preserves : Cert.preserves_Kernel_KernelIdeal := trivial

/-- Both runs end at the total of the row losses over 4,000,000: the kernel's in its order, the reference's in its own,
    of arguments that agree; on the finite arrays the precondition admits the two orders give one number. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Vals.run m' ρ')
  rw [(hagree c).1, (hagree c).2]
  obtain ⟨hx, hy⟩ := Cert.Finite.real_of_pre m hpre c
  funext _
  exact Cert.Spec.total_lossR_eq _ _ hx hy

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
